-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_penalty" .f32 0x3F555555#32 ((4194304 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x32000 : Shape := ⟨3, ![2, 2048, 32000]⟩
abbrev S2x2048 : Shape := ⟨2, ![2, 2048]⟩
abbrev S_ : Shape := ⟨0, ![]⟩

class Facts : Prop where
  bcast_S_S2x2048x32000 : S_.BroadcastsInDim S2x2048x32000 (![] : Fin 0 → Fin S2x2048x32000.rank)
  reducesTo_S2x2048x32000_S_d0_1_2 : S2x2048x32000.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : FVec F S2x2048x32000 .f32) (main_arg1 : IVec S2x2048 32) : IVec S_ 1 :=
  let main_v0 : FVec F S2x2048x32000 .f32 := Host.absf main_arg0
  let main_cst : FVec F S_ .f32 := constant S_ .f32 0x7F800000#32
  let main_v1 : FVec F S2x2048x32000 .f32 := broadcastInDim S2x2048x32000 ![] bcast_S_S2x2048x32000 main_cst
  let main_v2 : IVec S2x2048x32000 1 := cmpf .olt main_v0 main_v1
  let main_c : IVec S_ 1 := constantI S_ 1 1#1
  let main_v3 : IVec S_ 1 := (fun x v => Host.reduce IntOp.andi x v reducesTo_S2x2048x32000_S_d0_1_2 h_S_) main_v2 main_c
  let main_c_0 : IVec S_ 32 := constantI S_ 32 0#32
  let main_v4 : IVec S2x2048 32 := broadcastInDim S2x2048 ![] bcast_S_S2x2048 main_c_0
  let main_v5 : IVec S2x2048 1 := cmpi .sge main_arg1 main_v4
  let main_c_1 : IVec S_ 1 := constantI S_ 1 1#1
  let main_v6 : IVec S_ 1 := (fun x v => Host.reduce IntOp.andi x v reducesTo_S2x2048_S_d0_1 h_S_) main_v5 main_c_1
  let main_v7 : IVec S_ 1 := andi main_v3 main_v6
  main_v7
-- ==== Kernel.lean ====
abbrev S2x2048x32000 : Shape := ⟨3, ![2, 2048, 32000]⟩
abbrev S2x2048 : Shape := ⟨2, ![2, 2048]⟩
abbrev S_ : Shape := ⟨0, ![]⟩
abbrev S2x1 : Shape := ⟨2, ![2, 1]⟩
abbrev S2x2047 : Shape := ⟨2, ![2, 2047]⟩
abbrev S2x2 : Shape := ⟨2, ![2, 2]⟩
abbrev S2x2046 : Shape := ⟨2, ![2, 2046]⟩
abbrev S2x3 : Shape := ⟨2, ![2, 3]⟩
abbrev S2x2045 : Shape := ⟨2, ![2, 2045]⟩
abbrev S2x4 : Shape := ⟨2, ![2, 4]⟩
abbrev S2x2044 : Shape := ⟨2, ![2, 2044]⟩
abbrev S2x5 : Shape := ⟨2, ![2, 5]⟩
abbrev S2x2043 : Shape := ⟨2, ![2, 2043]⟩
abbrev S2x6 : Shape := ⟨2, ![2, 6]⟩
abbrev S2x2042 : Shape := ⟨2, ![2, 2042]⟩
abbrev S2x7 : Shape := ⟨2, ![2, 7]⟩
abbrev S2x2041 : Shape := ⟨2, ![2, 2041]⟩
abbrev S2x8 : Shape := ⟨2, ![2, 8]⟩
abbrev S2x2040 : Shape := ⟨2, ![2, 2040]⟩
abbrev S2x9 : Shape := ⟨2, ![2, 9]⟩
abbrev S2x2039 : Shape := ⟨2, ![2, 2039]⟩
abbrev S2x10 : Shape := ⟨2, ![2, 10]⟩
abbrev S2x2038 : Shape := ⟨2, ![2, 2038]⟩
abbrev S2x11 : Shape := ⟨2, ![2, 11]⟩
abbrev S2x2037 : Shape := ⟨2, ![2, 2037]⟩
abbrev S2x12 : Shape := ⟨2, ![2, 12]⟩
abbrev S2x2036 : Shape := ⟨2, ![2, 2036]⟩
abbrev S2x13 : Shape := ⟨2, ![2, 13]⟩
abbrev S2x2035 : Shape := ⟨2, ![2, 2035]⟩
abbrev S2x14 : Shape := ⟨2, ![2, 14]⟩
abbrev S2x2034 : Shape := ⟨2, ![2, 2034]⟩
abbrev S2x15 : Shape := ⟨2, ![2, 15]⟩
abbrev S2x2033 : Shape := ⟨2, ![2, 2033]⟩
abbrev S2x16 : Shape := ⟨2, ![2, 16]⟩
abbrev S2x2032 : Shape := ⟨2, ![2, 2032]⟩
abbrev S2x17 : Shape := ⟨2, ![2, 17]⟩
abbrev S2x2031 : Shape := ⟨2, ![2, 2031]⟩
abbrev S2x18 : Shape := ⟨2, ![2, 18]⟩
abbrev S2x2030 : Shape := ⟨2, ![2, 2030]⟩
abbrev S2x19 : Shape := ⟨2, ![2, 19]⟩
abbrev S2x2029 : Shape := ⟨2, ![2, 2029]⟩
abbrev S2x20 : Shape := ⟨2, ![2, 20]⟩
abbrev S2x2028 : Shape := ⟨2, ![2, 2028]⟩
abbrev S2x21 : Shape := ⟨2, ![2, 21]⟩
abbrev S2x2027 : Shape := ⟨2, ![2, 2027]⟩
abbrev S2x22 : Shape := ⟨2, ![2, 22]⟩
abbrev S2x2026 : Shape := ⟨2, ![2, 2026]⟩
abbrev S2x23 : Shape := ⟨2, ![2, 23]⟩
abbrev S2x2025 : Shape := ⟨2, ![2, 2025]⟩
abbrev S2x24 : Shape := ⟨2, ![2, 24]⟩
abbrev S2x2024 : Shape := ⟨2, ![2, 2024]⟩
abbrev S2x25 : Shape := ⟨2, ![2, 25]⟩
abbrev S2x2023 : Shape := ⟨2, ![2, 2023]⟩
abbrev S2x26 : Shape := ⟨2, ![2, 26]⟩
abbrev S2x2022 : Shape := ⟨2, ![2, 2022]⟩
abbrev S2x27 : Shape := ⟨2, ![2, 27]⟩
abbrev S2x2021 : Shape := ⟨2, ![2, 2021]⟩
abbrev S2x28 : Shape := ⟨2, ![2, 28]⟩
abbrev S2x2020 : Shape := ⟨2, ![2, 2020]⟩
abbrev S2x29 : Shape := ⟨2, ![2, 29]⟩
abbrev S2x2019 : Shape := ⟨2, ![2, 2019]⟩
abbrev S2x30 : Shape := ⟨2, ![2, 30]⟩
abbrev S2x2018 : Shape := ⟨2, ![2, 2018]⟩
abbrev S2x31 : Shape := ⟨2, ![2, 31]⟩
abbrev S2x2017 : Shape := ⟨2, ![2, 2017]⟩
abbrev S2x32 : Shape := ⟨2, ![2, 32]⟩
abbrev S2x2016 : Shape := ⟨2, ![2, 2016]⟩
abbrev S2x2048x1 : Shape := ⟨3, ![2, 2048, 1]⟩
abbrev S2x2048x16 : Shape := ⟨3, ![2, 2048, 16]⟩
abbrev S2x2048x32 : Shape := ⟨3, ![2, 2048, 32]⟩
abbrev S4096x32 : Shape := ⟨2, ![4096, 32]⟩
abbrev S4096x32000 : Shape := ⟨2, ![4096, 32000]⟩
abbrev S512x32 : Shape := ⟨2, ![512, 32]⟩
abbrev S512x3200 : Shape := ⟨2, ![512, 3200]⟩
abbrev S512x1 : Shape := ⟨2, ![512, 1]⟩

abbrev nBuf : Space → Nat
  | .hbm => 169
  | .vmem => 6
  | .smem => 0
  | _ => 0

abbrev hbmTy0_0 (i : Nat) : BufTy := match i % 128 with
  | 0 => ⟨S2x2048x32000, .f32⟩
  | 1 => ⟨S2x2048, .i32⟩
  | 2 => ⟨S_, .i32⟩
  | 3 => ⟨S2x1, .i32⟩
  | 4 => ⟨S2x2047, .i32⟩
  | 5 => ⟨S2x2048, .i32⟩
  | 6 => ⟨S_, .i32⟩
  | 7 => ⟨S2x2, .i32⟩
  | 8 => ⟨S2x2046, .i32⟩
  | 9 => ⟨S2x2048, .i32⟩
  | 10 => ⟨S_, .i32⟩
  | 11 => ⟨S2x3, .i32⟩
  | 12 => ⟨S2x2045, .i32⟩
  | 13 => ⟨S2x2048, .i32⟩
  | 14 => ⟨S_, .i32⟩
  | 15 => ⟨S2x4, .i32⟩
  | 16 => ⟨S2x2044, .i32⟩
  | 17 => ⟨S2x2048, .i32⟩
  | 18 => ⟨S_, .i32⟩
  | 19 => ⟨S2x5, .i32⟩
  | 20 => ⟨S2x2043, .i32⟩
  | 21 => ⟨S2x2048, .i32⟩
  | 22 => ⟨S_, .i32⟩
  | 23 => ⟨S2x6, .i32⟩
  | 24 => ⟨S2x2042, .i32⟩
  | 25 => ⟨S2x2048, .i32⟩
  | 26 => ⟨S_, .i32⟩
  | 27 => ⟨S2x7, .i32⟩
  | 28 => ⟨S2x2041, .i32⟩
  | 29 => ⟨S2x2048, .i32⟩
  | 30 => ⟨S_, .i32⟩
  | 31 => ⟨S2x8, .i32⟩
  | 32 => ⟨S2x2040, .i32⟩
  | 33 => ⟨S2x2048, .i32⟩
  | 34 => ⟨S_, .i32⟩
  | 35 => ⟨S2x9, .i32⟩
  | 36 => ⟨S2x2039, .i32⟩
  | 37 => ⟨S2x2048, .i32⟩
  | 38 => ⟨S_, .i32⟩
  | 39 => ⟨S2x10, .i32⟩
  | 40 => ⟨S2x2038, .i32⟩
  | 41 => ⟨S2x2048, .i32⟩
  | 42 => ⟨S_, .i32⟩
  | 43 => ⟨S2x11, .i32⟩
  | 44 => ⟨S2x2037, .i32⟩
  | 45 => ⟨S2x2048, .i32⟩
  | 46 => ⟨S_, .i32⟩
  | 47 => ⟨S2x12, .i32⟩
  | 48 => ⟨S2x2036, .i32⟩
  | 49 => ⟨S2x2048, .i32⟩
  | 50 => ⟨S_, .i32⟩
  | 51 => ⟨S2x13, .i32⟩
  | 52 => ⟨S2x2035, .i32⟩
  | 53 => ⟨S2x2048, .i32⟩
  | 54 => ⟨S_, .i32⟩
  | 55 => ⟨S2x14, .i32⟩
  | 56 => ⟨S2x2034, .i32⟩
  | 57 => ⟨S2x2048, .i32⟩
  | 58 => ⟨S_, .i32⟩
  | 59 => ⟨S2x15, .i32⟩
  | 60 => ⟨S2x2033, .i32⟩
  | 61 => ⟨S2x2048, .i32⟩
  | 62 => ⟨S_, .i32⟩
  | 63 => ⟨S2x16, .i32⟩
  | 64 => ⟨S2x2032, .i32⟩
  | 65 => ⟨S2x2048, .i32⟩
  | 66 => ⟨S_, .i32⟩
  | 67 => ⟨S2x17, .i32⟩
  | 68 => ⟨S2x2031, .i32⟩
  | 69 => ⟨S2x2048, .i32⟩
  | 70 => ⟨S_, .i32⟩
  | 71 => ⟨S2x18, .i32⟩
  | 72 => ⟨S2x2030, .i32⟩
  | 73 => ⟨S2x2048, .i32⟩
  | 74 => ⟨S_, .i32⟩
  | 75 => ⟨S2x19, .i32⟩
  | 76 => ⟨S2x2029, .i32⟩
  | 77 => ⟨S2x2048, .i32⟩
  | 78 => ⟨S_, .i32⟩
  | 79 => ⟨S2x20, .i32⟩
  | 80 => ⟨S2x2028, .i32⟩
  | 81 => ⟨S2x2048, .i32⟩
  | 82 => ⟨S_, .i32⟩
  | 83 => ⟨S2x21, .i32⟩
  | 84 => ⟨S2x2027, .i32⟩
  | 85 => ⟨S2x2048, .i32⟩
  | 86 => ⟨S_, .i32⟩
  | 87 => ⟨S2x22, .i32⟩
  | 88 => ⟨S2x2026, .i32⟩
  | 89 => ⟨S2x2048, .i32⟩
  | 90 => ⟨S_, .i32⟩
  | 91 => ⟨S2x23, .i32⟩
  | 92 => ⟨S2x2025, .i32⟩
  | 93 => ⟨S2x2048, .i32⟩
  | 94 => ⟨S_, .i32⟩
  | 95 => ⟨S2x24, .i32⟩
  | 96 => ⟨S2x2024, .i32⟩
  | 97 => ⟨S2x2048, .i32⟩
  | 98 => ⟨S_, .i32⟩
  | 99 => ⟨S2x25, .i32⟩
  | 100 => ⟨S2x2023, .i32⟩
  | 101 => ⟨S2x2048, .i32⟩
  | 102 => ⟨S_, .i32⟩
  | 103 => ⟨S2x26, .i32⟩
  | 104 => ⟨S2x2022, .i32⟩
  | 105 => ⟨S2x2048, .i32⟩
  | 106 => ⟨S_, .i32⟩
  | 107 => ⟨S2x27, .i32⟩
  | 108 => ⟨S2x2021, .i32⟩
  | 109 => ⟨S2x2048, .i32⟩
  | 110 => ⟨S_, .i32⟩
  | 111 => ⟨S2x28, .i32⟩
  | 112 => ⟨S2x2020, .i32⟩
  | 113 => ⟨S2x2048, .i32⟩
  | 114 => ⟨S_, .i32⟩
  | 115 => ⟨S2x29, .i32⟩
  | 116 => ⟨S2x2019, .i32⟩
  | 117 => ⟨S2x2048, .i32⟩
  | 118 => ⟨S_, .i32⟩
  | 119 => ⟨S2x30, .i32⟩
  | 120 => ⟨S2x2018, .i32⟩
  | 121 => ⟨S2x2048, .i32⟩
  | 122 => ⟨S_, .i32⟩
  | 123 => ⟨S2x31, .i32⟩
  | 124 => ⟨S2x2017, .i32⟩
  | 125 => ⟨S2x2048, .i32⟩
  | 126 => ⟨S_, .i32⟩
  | 127 => ⟨S2x32, .i32⟩
  | _ => ⟨S2x2048x32000, .f32⟩

abbrev hbmTy0_1 (i : Nat) : BufTy := match i % 128 with
  | 0 => ⟨S2x2016, .i32⟩
  | 1 => ⟨S2x2048, .i32⟩
  | 2 => ⟨S2x2048x1, .i32⟩
  | 3 => ⟨S2x2048x1, .i32⟩
  | 4 => ⟨S2x2048x1, .i32⟩
  | 5 => ⟨S2x2048x1, .i32⟩
  | 6 => ⟨S2x2048x1, .i32⟩
  | 7 => ⟨S2x2048x1, .i32⟩
  | 8 => ⟨S2x2048x1, .i32⟩
  | 9 => ⟨S2x2048x1, .i32⟩
  | 10 => ⟨S2x2048x1, .i32⟩
  | 11 => ⟨S2x2048x1, .i32⟩
  | 12 => ⟨S2x2048x1, .i32⟩
  | 13 => ⟨S2x2048x1, .i32⟩
  | 14 => ⟨S2x2048x1, .i32⟩
  | 15 => ⟨S2x2048x1, .i32⟩
  | 16 => ⟨S2x2048x1, .i32⟩
  | 17 => ⟨S2x2048x1, .i32⟩
  | 18 => ⟨S2x2048x1, .i32⟩
  | 19 => ⟨S2x2048x1, .i32⟩
  | 20 => ⟨S2x2048x1, .i32⟩
  | 21 => ⟨S2x2048x1, .i32⟩
  | 22 => ⟨S2x2048x1, .i32⟩
  | 23 => ⟨S2x2048x1, .i32⟩
  | 24 => ⟨S2x2048x1, .i32⟩
  | 25 => ⟨S2x2048x1, .i32⟩
  | 26 => ⟨S2x2048x1, .i32⟩
  | 27 => ⟨S2x2048x1, .i32⟩
  | 28 => ⟨S2x2048x1, .i32⟩
  | 29 => ⟨S2x2048x1, .i32⟩
  | 30 => ⟨S2x2048x1, .i32⟩
  | 31 => ⟨S2x2048x1, .i32⟩
  | 32 => ⟨S2x2048x1, .i32⟩
  | 33 => ⟨S2x2048x1, .i32⟩
  | 34 => ⟨S2x2048x16, .i32⟩
  | 35 => ⟨S2x2048x16, .i32⟩
  | 36 => ⟨S2x2048x32, .i32⟩
  | 37 => ⟨S4096x32, .i32⟩
  | 38 => ⟨S4096x32000, .f32⟩
  | 39 => ⟨S4096x32000, .f32⟩
  | 40 => ⟨S2x2048x32000, .f32⟩
  | _ => ⟨S2x2048x32000, .f32⟩

abbrev hbmTy (i : Nat) : BufTy := match i / 128 with
  | 0 => hbmTy0_0 i
  | 1 => hbmTy0_1 i
  | _ => ⟨S2x2048x32000, .f32⟩

abbrev bufTy : (tb : Table) → Fin (tcTables nBuf tb) → BufTy
  | .hbm, ⟨i, _⟩ => hbmTy i
  | .local _ .vmem, ⟨0, _⟩ => ⟨S512x32, .i32⟩
  | .local _ .vmem, ⟨1, _⟩ => ⟨S512x32, .i32⟩
  | .local _ .vmem, ⟨2, _⟩ => ⟨S512x3200, .f32⟩
  | .local _ .vmem, ⟨3, _⟩ => ⟨S512x3200, .f32⟩
  | .local _ .vmem, ⟨4, _⟩ => ⟨S512x3200, .f32⟩
  | .local _ .vmem, ⟨5, _⟩ => ⟨S512x3200, .f32⟩
  | _, _ => ⟨S2x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_16 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_17 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_19 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_20 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_21 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_22 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_23 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_24 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_25 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_26 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_27 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_28 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_29 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_30 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S2x1 : S_.BroadcastsInDim S2x1 (![] : Fin 0 → Fin S2x1.rank)
  slices_S2x2048_S2x2047_0_0 : S2x2048.Slices ![0, 0] S2x2047
  concatenates_S2x1_S2x2047_S2x2048_d1 : Shape.Concatenates [S2x1, S2x2047] S2x2048 1
  bcast_S_S2x2 : S_.BroadcastsInDim S2x2 (![] : Fin 0 → Fin S2x2.rank)
  slices_S2x2048_S2x2046_0_0 : S2x2048.Slices ![0, 0] S2x2046
  concatenates_S2x2_S2x2046_S2x2048_d1 : Shape.Concatenates [S2x2, S2x2046] S2x2048 1
  bcast_S_S2x3 : S_.BroadcastsInDim S2x3 (![] : Fin 0 → Fin S2x3.rank)
  slices_S2x2048_S2x2045_0_0 : S2x2048.Slices ![0, 0] S2x2045
  concatenates_S2x3_S2x2045_S2x2048_d1 : Shape.Concatenates [S2x3, S2x2045] S2x2048 1
  bcast_S_S2x4 : S_.BroadcastsInDim S2x4 (![] : Fin 0 → Fin S2x4.rank)
  slices_S2x2048_S2x2044_0_0 : S2x2048.Slices ![0, 0] S2x2044
  concatenates_S2x4_S2x2044_S2x2048_d1 : Shape.Concatenates [S2x4, S2x2044] S2x2048 1
  bcast_S_S2x5 : S_.BroadcastsInDim S2x5 (![] : Fin 0 → Fin S2x5.rank)
  slices_S2x2048_S2x2043_0_0 : S2x2048.Slices ![0, 0] S2x2043
  concatenates_S2x5_S2x2043_S2x2048_d1 : Shape.Concatenates [S2x5, S2x2043] S2x2048 1
  bcast_S_S2x6 : S_.BroadcastsInDim S2x6 (![] : Fin 0 → Fin S2x6.rank)
  slices_S2x2048_S2x2042_0_0 : S2x2048.Slices ![0, 0] S2x2042
  concatenates_S2x6_S2x2042_S2x2048_d1 : Shape.Concatenates [S2x6, S2x2042] S2x2048 1
  bcast_S_S2x7 : S_.BroadcastsInDim S2x7 (![] : Fin 0 → Fin S2x7.rank)
  slices_S2x2048_S2x2041_0_0 : S2x2048.Slices ![0, 0] S2x2041
  concatenates_S2x7_S2x2041_S2x2048_d1 : Shape.Concatenates [S2x7, S2x2041] S2x2048 1
  bcast_S_S2x8 : S_.BroadcastsInDim S2x8 (![] : Fin 0 → Fin S2x8.rank)
  slices_S2x2048_S2x2040_0_0 : S2x2048.Slices ![0, 0] S2x2040
  concatenates_S2x8_S2x2040_S2x2048_d1 : Shape.Concatenates [S2x8, S2x2040] S2x2048 1
  bcast_S_S2x9 : S_.BroadcastsInDim S2x9 (![] : Fin 0 → Fin S2x9.rank)
  slices_S2x2048_S2x2039_0_0 : S2x2048.Slices ![0, 0] S2x2039
  concatenates_S2x9_S2x2039_S2x2048_d1 : Shape.Concatenates [S2x9, S2x2039] S2x2048 1
  bcast_S_S2x10 : S_.BroadcastsInDim S2x10 (![] : Fin 0 → Fin S2x10.rank)
  slices_S2x2048_S2x2038_0_0 : S2x2048.Slices ![0, 0] S2x2038
  concatenates_S2x10_S2x2038_S2x2048_d1 : Shape.Concatenates [S2x10, S2x2038] S2x2048 1
  bcast_S_S2x11 : S_.BroadcastsInDim S2x11 (![] : Fin 0 → Fin S2x11.rank)
  slices_S2x2048_S2x2037_0_0 : S2x2048.Slices ![0, 0] S2x2037
  concatenates_S2x11_S2x2037_S2x2048_d1 : Shape.Concatenates [S2x11, S2x2037] S2x2048 1
  bcast_S_S2x12 : S_.BroadcastsInDim S2x12 (![] : Fin 0 → Fin S2x12.rank)
  slices_S2x2048_S2x2036_0_0 : S2x2048.Slices ![0, 0] S2x2036
  concatenates_S2x12_S2x2036_S2x2048_d1 : Shape.Concatenates [S2x12, S2x2036] S2x2048 1
  bcast_S_S2x13 : S_.BroadcastsInDim S2x13 (![] : Fin 0 → Fin S2x13.rank)
  slices_S2x2048_S2x2035_0_0 : S2x2048.Slices ![0, 0] S2x2035
  concatenates_S2x13_S2x2035_S2x2048_d1 : Shape.Concatenates [S2x13, S2x2035] S2x2048 1
  bcast_S_S2x14 : S_.BroadcastsInDim S2x14 (![] : Fin 0 → Fin S2x14.rank)
  slices_S2x2048_S2x2034_0_0 : S2x2048.Slices ![0, 0] S2x2034
  concatenates_S2x14_S2x2034_S2x2048_d1 : Shape.Concatenates [S2x14, S2x2034] S2x2048 1
  bcast_S_S2x15 : S_.BroadcastsInDim S2x15 (![] : Fin 0 → Fin S2x15.rank)
  slices_S2x2048_S2x2033_0_0 : S2x2048.Slices ![0, 0] S2x2033
  concatenates_S2x15_S2x2033_S2x2048_d1 : Shape.Concatenates [S2x15, S2x2033] S2x2048 1
  bcast_S_S2x16 : S_.BroadcastsInDim S2x16 (![] : Fin 0 → Fin S2x16.rank)
  slices_S2x2048_S2x2032_0_0 : S2x2048.Slices ![0, 0] S2x2032
  concatenates_S2x16_S2x2032_S2x2048_d1 : Shape.Concatenates [S2x16, S2x2032] S2x2048 1
  bcast_S_S2x17 : S_.BroadcastsInDim S2x17 (![] : Fin 0 → Fin S2x17.rank)
  slices_S2x2048_S2x2031_0_0 : S2x2048.Slices ![0, 0] S2x2031
  concatenates_S2x17_S2x2031_S2x2048_d1 : Shape.Concatenates [S2x17, S2x2031] S2x2048 1
  bcast_S_S2x18 : S_.BroadcastsInDim S2x18 (![] : Fin 0 → Fin S2x18.rank)
  slices_S2x2048_S2x2030_0_0 : S2x2048.Slices ![0, 0] S2x2030
  concatenates_S2x18_S2x2030_S2x2048_d1 : Shape.Concatenates [S2x18, S2x2030] S2x2048 1
  bcast_S_S2x19 : S_.BroadcastsInDim S2x19 (![] : Fin 0 → Fin S2x19.rank)
  slices_S2x2048_S2x2029_0_0 : S2x2048.Slices ![0, 0] S2x2029
  concatenates_S2x19_S2x2029_S2x2048_d1 : Shape.Concatenates [S2x19, S2x2029] S2x2048 1
  bcast_S_S2x20 : S_.BroadcastsInDim S2x20 (![] : Fin 0 → Fin S2x20.rank)
  slices_S2x2048_S2x2028_0_0 : S2x2048.Slices ![0, 0] S2x2028
  concatenates_S2x20_S2x2028_S2x2048_d1 : Shape.Concatenates [S2x20, S2x2028] S2x2048 1
  bcast_S_S2x21 : S_.BroadcastsInDim S2x21 (![] : Fin 0 → Fin S2x21.rank)
  slices_S2x2048_S2x2027_0_0 : S2x2048.Slices ![0, 0] S2x2027
  concatenates_S2x21_S2x2027_S2x2048_d1 : Shape.Concatenates [S2x21, S2x2027] S2x2048 1
  bcast_S_S2x22 : S_.BroadcastsInDim S2x22 (![] : Fin 0 → Fin S2x22.rank)
  slices_S2x2048_S2x2026_0_0 : S2x2048.Slices ![0, 0] S2x2026
  concatenates_S2x22_S2x2026_S2x2048_d1 : Shape.Concatenates [S2x22, S2x2026] S2x2048 1
  bcast_S_S2x23 : S_.BroadcastsInDim S2x23 (![] : Fin 0 → Fin S2x23.rank)
  slices_S2x2048_S2x2025_0_0 : S2x2048.Slices ![0, 0] S2x2025
  concatenates_S2x23_S2x2025_S2x2048_d1 : Shape.Concatenates [S2x23, S2x2025] S2x2048 1
  bcast_S_S2x24 : S_.BroadcastsInDim S2x24 (![] : Fin 0 → Fin S2x24.rank)
  slices_S2x2048_S2x2024_0_0 : S2x2048.Slices ![0, 0] S2x2024
  concatenates_S2x24_S2x2024_S2x2048_d1 : Shape.Concatenates [S2x24, S2x2024] S2x2048 1
  bcast_S_S2x25 : S_.BroadcastsInDim S2x25 (![] : Fin 0 → Fin S2x25.rank)
  slices_S2x2048_S2x2023_0_0 : S2x2048.Slices ![0, 0] S2x2023
  concatenates_S2x25_S2x2023_S2x2048_d1 : Shape.Concatenates [S2x25, S2x2023] S2x2048 1
  bcast_S_S2x26 : S_.BroadcastsInDim S2x26 (![] : Fin 0 → Fin S2x26.rank)
  slices_S2x2048_S2x2022_0_0 : S2x2048.Slices ![0, 0] S2x2022
  concatenates_S2x26_S2x2022_S2x2048_d1 : Shape.Concatenates [S2x26, S2x2022] S2x2048 1
  bcast_S_S2x27 : S_.BroadcastsInDim S2x27 (![] : Fin 0 → Fin S2x27.rank)
  slices_S2x2048_S2x2021_0_0 : S2x2048.Slices ![0, 0] S2x2021
  concatenates_S2x27_S2x2021_S2x2048_d1 : Shape.Concatenates [S2x27, S2x2021] S2x2048 1
  bcast_S_S2x28 : S_.BroadcastsInDim S2x28 (![] : Fin 0 → Fin S2x28.rank)
  slices_S2x2048_S2x2020_0_0 : S2x2048.Slices ![0, 0] S2x2020
  concatenates_S2x28_S2x2020_S2x2048_d1 : Shape.Concatenates [S2x28, S2x2020] S2x2048 1
  bcast_S_S2x29 : S_.BroadcastsInDim S2x29 (![] : Fin 0 → Fin S2x29.rank)
  slices_S2x2048_S2x2019_0_0 : S2x2048.Slices ![0, 0] S2x2019
  concatenates_S2x29_S2x2019_S2x2048_d1 : Shape.Concatenates [S2x29, S2x2019] S2x2048 1
  bcast_S_S2x30 : S_.BroadcastsInDim S2x30 (![] : Fin 0 → Fin S2x30.rank)
  slices_S2x2048_S2x2018_0_0 : S2x2048.Slices ![0, 0] S2x2018
  concatenates_S2x30_S2x2018_S2x2048_d1 : Shape.Concatenates [S2x30, S2x2018] S2x2048 1
  bcast_S_S2x31 : S_.BroadcastsInDim S2x31 (![] : Fin 0 → Fin S2x31.rank)
  slices_S2x2048_S2x2017_0_0 : S2x2048.Slices ![0, 0] S2x2017
  concatenates_S2x31_S2x2017_S2x2048_d1 : Shape.Concatenates [S2x31, S2x2017] S2x2048 1
  bcast_S_S2x32 : S_.BroadcastsInDim S2x32 (![] : Fin 0 → Fin S2x32.rank)
  slices_S2x2048_S2x2016_0_0 : S2x2048.Slices ![0, 0] S2x2016
  concatenates_S2x32_S2x2016_S2x2048_d1 : Shape.Concatenates [S2x32, S2x2016] S2x2048 1
  bcast_S2x2048_S2x2048x1_0_1 : S2x2048.BroadcastsInDim S2x2048x1 (![0, 1] : Fin 2 → Fin S2x2048x1.rank)
  concatenates_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x16_d2 : Shape.Concatenates [S2x2048x1, S2x2048x1, S2x2048x1, S2x2048x1, S2x2048x1, S2x2048x1, S2x2048x1, S2x2048x1, S2x2048x1, S2x2048x1, S2x2048x1, S2x2048x1, S2x2048x1, S2x2048x1, S2x2048x1, S2x2048x1] S2x2048x16 2
  concatenates_S2x2048x16_S2x2048x16_S2x2048x32_d2 : Shape.Concatenates [S2x2048x16, S2x2048x16] S2x2048x32 2
  shapeCasts_S2x2048x32_S4096x32 : S2x2048x32.ShapeCasts S4096x32
  shapeCasts_S2x2048x32000_S4096x32000 : S2x2048x32000.ShapeCasts S4096x32000
  iota_S512x3200_d1_w32 : S512x3200.Iotas .tc 32 [1]
  inb_S512x32_S512x32_0_0 : ∀ a, (![0, 0] : Fin 2 → Nat) a + S512x32.size a ≤ S512x32.size a
  h_S512x32 : 0 < S512x32.numel
  shapeCasts_S512x32_S512x32 : S512x32.ShapeCasts S512x32
  slices_S512x32_o0_0_S512x1 : S512x32.Slices ![0, 0] S512x1
  broadcasts_S512x1_S512x3200 : S512x1.Broadcasts S512x3200
  slices_S512x32_o0_1_S512x1 : S512x32.Slices ![0, 1] S512x1
  slices_S512x32_o0_2_S512x1 : S512x32.Slices ![0, 2] S512x1
  slices_S512x32_o0_3_S512x1 : S512x32.Slices ![0, 3] S512x1
  slices_S512x32_o0_4_S512x1 : S512x32.Slices ![0, 4] S512x1
  slices_S512x32_o0_5_S512x1 : S512x32.Slices ![0, 5] S512x1
  slices_S512x32_o0_6_S512x1 : S512x32.Slices ![0, 6] S512x1
  slices_S512x32_o0_7_S512x1 : S512x32.Slices ![0, 7] S512x1
  slices_S512x32_o0_8_S512x1 : S512x32.Slices ![0, 8] S512x1
  slices_S512x32_o0_9_S512x1 : S512x32.Slices ![0, 9] S512x1
  slices_S512x32_o0_10_S512x1 : S512x32.Slices ![0, 10] S512x1
  slices_S512x32_o0_11_S512x1 : S512x32.Slices ![0, 11] S512x1
  slices_S512x32_o0_12_S512x1 : S512x32.Slices ![0, 12] S512x1
  slices_S512x32_o0_13_S512x1 : S512x32.Slices ![0, 13] S512x1
  slices_S512x32_o0_14_S512x1 : S512x32.Slices ![0, 14] S512x1
  slices_S512x32_o0_15_S512x1 : S512x32.Slices ![0, 15] S512x1
  slices_S512x32_o0_16_S512x1 : S512x32.Slices ![0, 16] S512x1
  slices_S512x32_o0_17_S512x1 : S512x32.Slices ![0, 17] S512x1
  slices_S512x32_o0_18_S512x1 : S512x32.Slices ![0, 18] S512x1
  slices_S512x32_o0_19_S512x1 : S512x32.Slices ![0, 19] S512x1
  slices_S512x32_o0_20_S512x1 : S512x32.Slices ![0, 20] S512x1
  slices_S512x32_o0_21_S512x1 : S512x32.Slices ![0, 21] S512x1
  slices_S512x32_o0_22_S512x1 : S512x32.Slices ![0, 22] S512x1
  slices_S512x32_o0_23_S512x1 : S512x32.Slices ![0, 23] S512x1
  slices_S512x32_o0_24_S512x1 : S512x32.Slices ![0, 24] S512x1
  slices_S512x32_o0_25_S512x1 : S512x32.Slices ![0, 25] S512x1
  slices_S512x32_o0_26_S512x1 : S512x32.Slices ![0, 26] S512x1
  slices_S512x32_o0_27_S512x1 : S512x32.Slices ![0, 27] S512x1
  slices_S512x32_o0_28_S512x1 : S512x32.Slices ![0, 28] S512x1
  slices_S512x32_o0_29_S512x1 : S512x32.Slices ![0, 29] S512x1
  slices_S512x32_o0_30_S512x1 : S512x32.Slices ![0, 30] S512x1
  slices_S512x32_o0_31_S512x1 : S512x32.Slices ![0, 31] S512x1
  inb_S512x3200_S512x3200_0_0 : ∀ a, (![0, 0] : Fin 2 → Nat) a + S512x3200.size a ≤ S512x3200.size a
  h_S512x3200 : 0 < S512x3200.numel
  shapeCasts_S512x3200_S512x3200 : S512x3200.ShapeCasts S512x3200
  shapeCasts_S4096x32000_S2x2048x32000 : S4096x32000.ShapeCasts S2x2048x32000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S4096x32.size a
  hwx0_0 : ∀ i : grid0.Coords, EltTy.bits .i32 = 32 ∨ (Rect.block (s := S4096x32) S512x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3200.size a ≤ S4096x32000.size a
  hwx0_1 : ∀ i : grid0.Coords, EltTy.bits .f32 = 32 ∨ (Rect.block (s := S4096x32000) S512x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3200.size a ≤ S4096x32000.size a
  hwx0_2 : ∀ i : grid0.Coords, EltTy.bits .f32 = 32 ∨ (Rect.block (s := S4096x32000) S512x3200.size (cc0_transform_2 i) (hinb0_2 i)).WholeWords (EltTy.packing .f32)

variable [Facts₀]

abbrev win0_0 : Pipeline.Window sig grid0 :=
  Pipeline.Window.ofSpec (Memref.whole main_v131) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v132) S512x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v133) S512x3200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S2x2048x32000 : Shape := ⟨3, ![2, 2048, 32000]⟩
abbrev S2x2048 : Shape := ⟨2, ![2, 2048]⟩
abbrev S_ : Shape := ⟨0, ![]⟩
abbrev S2x1 : Shape := ⟨2, ![2, 1]⟩
abbrev S2x2047 : Shape := ⟨2, ![2, 2047]⟩
abbrev S2x2 : Shape := ⟨2, ![2, 2]⟩
abbrev S2x2046 : Shape := ⟨2, ![2, 2046]⟩
abbrev S2x3 : Shape := ⟨2, ![2, 3]⟩
abbrev S2x2045 : Shape := ⟨2, ![2, 2045]⟩
abbrev S2x4 : Shape := ⟨2, ![2, 4]⟩
abbrev S2x2044 : Shape := ⟨2, ![2, 2044]⟩
abbrev S2x5 : Shape := ⟨2, ![2, 5]⟩
abbrev S2x2043 : Shape := ⟨2, ![2, 2043]⟩
abbrev S2x6 : Shape := ⟨2, ![2, 6]⟩
abbrev S2x2042 : Shape := ⟨2, ![2, 2042]⟩
abbrev S2x7 : Shape := ⟨2, ![2, 7]⟩
abbrev S2x2041 : Shape := ⟨2, ![2, 2041]⟩
abbrev S2x8 : Shape := ⟨2, ![2, 8]⟩
abbrev S2x2040 : Shape := ⟨2, ![2, 2040]⟩
abbrev S2x9 : Shape := ⟨2, ![2, 9]⟩
abbrev S2x2039 : Shape := ⟨2, ![2, 2039]⟩
abbrev S2x10 : Shape := ⟨2, ![2, 10]⟩
abbrev S2x2038 : Shape := ⟨2, ![2, 2038]⟩
abbrev S2x11 : Shape := ⟨2, ![2, 11]⟩
abbrev S2x2037 : Shape := ⟨2, ![2, 2037]⟩
abbrev S2x12 : Shape := ⟨2, ![2, 12]⟩
abbrev S2x2036 : Shape := ⟨2, ![2, 2036]⟩
abbrev S2x13 : Shape := ⟨2, ![2, 13]⟩
abbrev S2x2035 : Shape := ⟨2, ![2, 2035]⟩
abbrev S2x14 : Shape := ⟨2, ![2, 14]⟩
abbrev S2x2034 : Shape := ⟨2, ![2, 2034]⟩
abbrev S2x15 : Shape := ⟨2, ![2, 15]⟩
abbrev S2x2033 : Shape := ⟨2, ![2, 2033]⟩
abbrev S2x16 : Shape := ⟨2, ![2, 16]⟩
abbrev S2x2032 : Shape := ⟨2, ![2, 2032]⟩
abbrev S2x17 : Shape := ⟨2, ![2, 17]⟩
abbrev S2x2031 : Shape := ⟨2, ![2, 2031]⟩
abbrev S2x18 : Shape := ⟨2, ![2, 18]⟩
abbrev S2x2030 : Shape := ⟨2, ![2, 2030]⟩
abbrev S2x19 : Shape := ⟨2, ![2, 19]⟩
abbrev S2x2029 : Shape := ⟨2, ![2, 2029]⟩
abbrev S2x20 : Shape := ⟨2, ![2, 20]⟩
abbrev S2x2028 : Shape := ⟨2, ![2, 2028]⟩
abbrev S2x21 : Shape := ⟨2, ![2, 21]⟩
abbrev S2x2027 : Shape := ⟨2, ![2, 2027]⟩
abbrev S2x22 : Shape := ⟨2, ![2, 22]⟩
abbrev S2x2026 : Shape := ⟨2, ![2, 2026]⟩
abbrev S2x23 : Shape := ⟨2, ![2, 23]⟩
abbrev S2x2025 : Shape := ⟨2, ![2, 2025]⟩
abbrev S2x24 : Shape := ⟨2, ![2, 24]⟩
abbrev S2x2024 : Shape := ⟨2, ![2, 2024]⟩
abbrev S2x25 : Shape := ⟨2, ![2, 25]⟩
abbrev S2x2023 : Shape := ⟨2, ![2, 2023]⟩
abbrev S2x26 : Shape := ⟨2, ![2, 26]⟩
abbrev S2x2022 : Shape := ⟨2, ![2, 2022]⟩
abbrev S2x27 : Shape := ⟨2, ![2, 27]⟩
abbrev S2x2021 : Shape := ⟨2, ![2, 2021]⟩
abbrev S2x28 : Shape := ⟨2, ![2, 28]⟩
abbrev S2x2020 : Shape := ⟨2, ![2, 2020]⟩
abbrev S2x29 : Shape := ⟨2, ![2, 29]⟩
abbrev S2x2019 : Shape := ⟨2, ![2, 2019]⟩
abbrev S2x30 : Shape := ⟨2, ![2, 30]⟩
abbrev S2x2018 : Shape := ⟨2, ![2, 2018]⟩
abbrev S2x31 : Shape := ⟨2, ![2, 31]⟩
abbrev S2x2017 : Shape := ⟨2, ![2, 2017]⟩
abbrev S2x32 : Shape := ⟨2, ![2, 32]⟩
abbrev S2x2016 : Shape := ⟨2, ![2, 2016]⟩
abbrev S2x2048x1 : Shape := ⟨3, ![2, 2048, 1]⟩
abbrev S2x2048x16 : Shape := ⟨3, ![2, 2048, 16]⟩
abbrev S2x2048x32 : Shape := ⟨3, ![2, 2048, 32]⟩
abbrev S2 : Shape := ⟨1, ![2]⟩
abbrev S2x1x1 : Shape := ⟨3, ![2, 1, 1]⟩
abbrev S2048 : Shape := ⟨1, ![2048]⟩
abbrev S1x2048x1 : Shape := ⟨3, ![1, 2048, 1]⟩
abbrev S2x2048x32x1 : Shape := ⟨4, ![2, 2048, 32, 1]⟩
abbrev S2x2048x32x3 : Shape := ⟨4, ![2, 2048, 32, 3]⟩

abbrev nBuf : Space → Nat
  | .hbm => 205
  | .vmem => 0
  | .smem => 0
  | _ => 0

abbrev hbmTy0_0 (i : Nat) : BufTy := match i % 128 with
  | 0 => ⟨S2x2048x32000, .f32⟩
  | 1 => ⟨S2x2048, .i32⟩
  | 2 => ⟨S_, .i32⟩
  | 3 => ⟨S2x1, .i32⟩
  | 4 => ⟨S2x2047, .i32⟩
  | 5 => ⟨S2x2048, .i32⟩
  | 6 => ⟨S_, .i32⟩
  | 7 => ⟨S2x2, .i32⟩
  | 8 => ⟨S2x2046, .i32⟩
  | 9 => ⟨S2x2048, .i32⟩
  | 10 => ⟨S_, .i32⟩
  | 11 => ⟨S2x3, .i32⟩
  | 12 => ⟨S2x2045, .i32⟩
  | 13 => ⟨S2x2048, .i32⟩
  | 14 => ⟨S_, .i32⟩
  | 15 => ⟨S2x4, .i32⟩
  | 16 => ⟨S2x2044, .i32⟩
  | 17 => ⟨S2x2048, .i32⟩
  | 18 => ⟨S_, .i32⟩
  | 19 => ⟨S2x5, .i32⟩
  | 20 => ⟨S2x2043, .i32⟩
  | 21 => ⟨S2x2048, .i32⟩
  | 22 => ⟨S_, .i32⟩
  | 23 => ⟨S2x6, .i32⟩
  | 24 => ⟨S2x2042, .i32⟩
  | 25 => ⟨S2x2048, .i32⟩
  | 26 => ⟨S_, .i32⟩
  | 27 => ⟨S2x7, .i32⟩
  | 28 => ⟨S2x2041, .i32⟩
  | 29 => ⟨S2x2048, .i32⟩
  | 30 => ⟨S_, .i32⟩
  | 31 => ⟨S2x8, .i32⟩
  | 32 => ⟨S2x2040, .i32⟩
  | 33 => ⟨S2x2048, .i32⟩
  | 34 => ⟨S_, .i32⟩
  | 35 => ⟨S2x9, .i32⟩
  | 36 => ⟨S2x2039, .i32⟩
  | 37 => ⟨S2x2048, .i32⟩
  | 38 => ⟨S_, .i32⟩
  | 39 => ⟨S2x10, .i32⟩
  | 40 => ⟨S2x2038, .i32⟩
  | 41 => ⟨S2x2048, .i32⟩
  | 42 => ⟨S_, .i32⟩
  | 43 => ⟨S2x11, .i32⟩
  | 44 => ⟨S2x2037, .i32⟩
  | 45 => ⟨S2x2048, .i32⟩
  | 46 => ⟨S_, .i32⟩
  | 47 => ⟨S2x12, .i32⟩
  | 48 => ⟨S2x2036, .i32⟩
  | 49 => ⟨S2x2048, .i32⟩
  | 50 => ⟨S_, .i32⟩
  | 51 => ⟨S2x13, .i32⟩
  | 52 => ⟨S2x2035, .i32⟩
  | 53 => ⟨S2x2048, .i32⟩
  | 54 => ⟨S_, .i32⟩
  | 55 => ⟨S2x14, .i32⟩
  | 56 => ⟨S2x2034, .i32⟩
  | 57 => ⟨S2x2048, .i32⟩
  | 58 => ⟨S_, .i32⟩
  | 59 => ⟨S2x15, .i32⟩
  | 60 => ⟨S2x2033, .i32⟩
  | 61 => ⟨S2x2048, .i32⟩
  | 62 => ⟨S_, .i32⟩
  | 63 => ⟨S2x16, .i32⟩
  | 64 => ⟨S2x2032, .i32⟩
  | 65 => ⟨S2x2048, .i32⟩
  | 66 => ⟨S_, .i32⟩
  | 67 => ⟨S2x17, .i32⟩
  | 68 => ⟨S2x2031, .i32⟩
  | 69 => ⟨S2x2048, .i32⟩
  | 70 => ⟨S_, .i32⟩
  | 71 => ⟨S2x18, .i32⟩
  | 72 => ⟨S2x2030, .i32⟩
  | 73 => ⟨S2x2048, .i32⟩
  | 74 => ⟨S_, .i32⟩
  | 75 => ⟨S2x19, .i32⟩
  | 76 => ⟨S2x2029, .i32⟩
  | 77 => ⟨S2x2048, .i32⟩
  | 78 => ⟨S_, .i32⟩
  | 79 => ⟨S2x20, .i32⟩
  | 80 => ⟨S2x2028, .i32⟩
  | 81 => ⟨S2x2048, .i32⟩
  | 82 => ⟨S_, .i32⟩
  | 83 => ⟨S2x21, .i32⟩
  | 84 => ⟨S2x2027, .i32⟩
  | 85 => ⟨S2x2048, .i32⟩
  | 86 => ⟨S_, .i32⟩
  | 87 => ⟨S2x22, .i32⟩
  | 88 => ⟨S2x2026, .i32⟩
  | 89 => ⟨S2x2048, .i32⟩
  | 90 => ⟨S_, .i32⟩
  | 91 => ⟨S2x23, .i32⟩
  | 92 => ⟨S2x2025, .i32⟩
  | 93 => ⟨S2x2048, .i32⟩
  | 94 => ⟨S_, .i32⟩
  | 95 => ⟨S2x24, .i32⟩
  | 96 => ⟨S2x2024, .i32⟩
  | 97 => ⟨S2x2048, .i32⟩
  | 98 => ⟨S_, .i32⟩
  | 99 => ⟨S2x25, .i32⟩
  | 100 => ⟨S2x2023, .i32⟩
  | 101 => ⟨S2x2048, .i32⟩
  | 102 => ⟨S_, .i32⟩
  | 103 => ⟨S2x26, .i32⟩
  | 104 => ⟨S2x2022, .i32⟩
  | 105 => ⟨S2x2048, .i32⟩
  | 106 => ⟨S_, .i32⟩
  | 107 => ⟨S2x27, .i32⟩
  | 108 => ⟨S2x2021, .i32⟩
  | 109 => ⟨S2x2048, .i32⟩
  | 110 => ⟨S_, .i32⟩
  | 111 => ⟨S2x28, .i32⟩
  | 112 => ⟨S2x2020, .i32⟩
  | 113 => ⟨S2x2048, .i32⟩
  | 114 => ⟨S_, .i32⟩
  | 115 => ⟨S2x29, .i32⟩
  | 116 => ⟨S2x2019, .i32⟩
  | 117 => ⟨S2x2048, .i32⟩
  | 118 => ⟨S_, .i32⟩
  | 119 => ⟨S2x30, .i32⟩
  | 120 => ⟨S2x2018, .i32⟩
  | 121 => ⟨S2x2048, .i32⟩
  | 122 => ⟨S_, .i32⟩
  | 123 => ⟨S2x31, .i32⟩
  | 124 => ⟨S2x2017, .i32⟩
  | 125 => ⟨S2x2048, .i32⟩
  | 126 => ⟨S_, .i32⟩
  | 127 => ⟨S2x32, .i32⟩
  | _ => ⟨S2x2048x32000, .f32⟩

abbrev hbmTy0_1 (i : Nat) : BufTy := match i % 128 with
  | 0 => ⟨S2x2016, .i32⟩
  | 1 => ⟨S2x2048, .i32⟩
  | 2 => ⟨S2x2048x1, .i32⟩
  | 3 => ⟨S2x2048x1, .i32⟩
  | 4 => ⟨S2x2048x1, .i32⟩
  | 5 => ⟨S2x2048x1, .i32⟩
  | 6 => ⟨S2x2048x1, .i32⟩
  | 7 => ⟨S2x2048x1, .i32⟩
  | 8 => ⟨S2x2048x1, .i32⟩
  | 9 => ⟨S2x2048x1, .i32⟩
  | 10 => ⟨S2x2048x1, .i32⟩
  | 11 => ⟨S2x2048x1, .i32⟩
  | 12 => ⟨S2x2048x1, .i32⟩
  | 13 => ⟨S2x2048x1, .i32⟩
  | 14 => ⟨S2x2048x1, .i32⟩
  | 15 => ⟨S2x2048x1, .i32⟩
  | 16 => ⟨S2x2048x1, .i32⟩
  | 17 => ⟨S2x2048x1, .i32⟩
  | 18 => ⟨S2x2048x1, .i32⟩
  | 19 => ⟨S2x2048x1, .i32⟩
  | 20 => ⟨S2x2048x1, .i32⟩
  | 21 => ⟨S2x2048x1, .i32⟩
  | 22 => ⟨S2x2048x1, .i32⟩
  | 23 => ⟨S2x2048x1, .i32⟩
  | 24 => ⟨S2x2048x1, .i32⟩
  | 25 => ⟨S2x2048x1, .i32⟩
  | 26 => ⟨S2x2048x1, .i32⟩
  | 27 => ⟨S2x2048x1, .i32⟩
  | 28 => ⟨S2x2048x1, .i32⟩
  | 29 => ⟨S2x2048x1, .i32⟩
  | 30 => ⟨S2x2048x1, .i32⟩
  | 31 => ⟨S2x2048x1, .i32⟩
  | 32 => ⟨S2x2048x1, .i32⟩
  | 33 => ⟨S2x2048x1, .i32⟩
  | 34 => ⟨S2x2048x16, .i32⟩
  | 35 => ⟨S2x2048x16, .i32⟩
  | 36 => ⟨S2x2048x32, .i32⟩
  | 37 => ⟨S2, .i32⟩
  | 38 => ⟨S2x1x1, .i32⟩
  | 39 => ⟨S2048, .i32⟩
  | 40 => ⟨S1x2048x1, .i32⟩
  | 41 => ⟨S_, .i1⟩
  | 42 => ⟨S2x2048x32000, .i1⟩
  | 43 => ⟨S_, .i32⟩
  | 44 => ⟨S2x1x1, .i32⟩
  | 45 => ⟨S2x1x1, .i1⟩
  | 46 => ⟨S_, .i32⟩
  | 47 => ⟨S2x1x1, .i32⟩
  | 48 => ⟨S2x1x1, .i32⟩
  | 49 => ⟨S2x1x1, .i32⟩
  | 50 => ⟨S_, .i32⟩
  | 51 => ⟨S1x2048x1, .i32⟩
  | 52 => ⟨S1x2048x1, .i1⟩
  | 53 => ⟨S_, .i32⟩
  | 54 => ⟨S1x2048x1, .i32⟩
  | 55 => ⟨S1x2048x1, .i32⟩
  | 56 => ⟨S1x2048x1, .i32⟩
  | 57 => ⟨S_, .i32⟩
  | 58 => ⟨S2x2048x32, .i32⟩
  | 59 => ⟨S2x2048x32, .i1⟩
  | 60 => ⟨S_, .i32⟩
  | 61 => ⟨S2x2048x32, .i32⟩
  | 62 => ⟨S2x2048x32, .i32⟩
  | 63 => ⟨S2x2048x32, .i32⟩
  | 64 => ⟨S2x2048x32, .i32⟩
  | 65 => ⟨S2x2048x32, .i32⟩
  | 66 => ⟨S2x2048x32x1, .i32⟩
  | 67 => ⟨S2x2048x32x1, .i32⟩
  | 68 => ⟨S2x2048x32x1, .i32⟩
  | 69 => ⟨S2x2048x32x3, .i32⟩
  | 70 => ⟨S_, .i1⟩
  | 71 => ⟨S2x2048x32, .i1⟩
  | 72 => ⟨S2x2048x32000, .i1⟩
  | 73 => ⟨S_, .f32⟩
  | 74 => ⟨S2x2048x32000, .f32⟩
  | 75 => ⟨S2x2048x32000, .f32⟩
  | 76 => ⟨S2x2048x32000, .f32⟩
  | _ => ⟨S2x2048x32000, .f32⟩

abbrev hbmTy (i : Nat) : BufTy := match i / 128 with
  | 0 => hbmTy0_0 i
  | 1 => hbmTy0_1 i
  | _ => ⟨S2x2048x32000, .f32⟩

abbrev bufTy : (tb : Table) → Fin (tcTables nBuf tb) → BufTy
  | .hbm, ⟨i, _⟩ => hbmTy i
  | _, _ => ⟨S2x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_12 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_16 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_17 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_18 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_19 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_20 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_21 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_22 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_23 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_24 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_25 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_26 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_27 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_28 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_29 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_30 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_c_31 : Ref sig .tc := ⟨.hbm, 169, rfl⟩
abbrev main_v135 : Ref sig .tc := ⟨.hbm, 170, rfl⟩
abbrev main_c_32 : Ref sig .tc := ⟨.hbm, 171, rfl⟩
abbrev main_v136 : Ref sig .tc := ⟨.hbm, 172, rfl⟩
abbrev main_v137 : Ref sig .tc := ⟨.hbm, 173, rfl⟩
abbrev main_c_33 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_c_34 : Ref sig .tc := ⟨.hbm, 178, rfl⟩
abbrev main_v141 : Ref sig .tc := ⟨.hbm, 179, rfl⟩
abbrev main_v142 : Ref sig .tc := ⟨.hbm, 180, rfl⟩
abbrev main_c_35 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_c_36 : Ref sig .tc := ⟨.hbm, 185, rfl⟩
abbrev main_v146 : Ref sig .tc := ⟨.hbm, 186, rfl⟩
abbrev main_v147 : Ref sig .tc := ⟨.hbm, 187, rfl⟩
abbrev main_c_37 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_c_38 : Ref sig .tc := ⟨.hbm, 198, rfl⟩
abbrev main_v157 : Ref sig .tc := ⟨.hbm, 199, rfl⟩
abbrev main_v158 : Ref sig .tc := ⟨.hbm, 200, rfl⟩
abbrev main_cst : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩

abbrev nD : Nat := 1
abbrev τ : Topo := Topo.v7x

variable {F : FTy → Type} [FloatOps F]

class Facts₀ : Prop where
  bcast_S_S2x1 : S_.BroadcastsInDim S2x1 (![] : Fin 0 → Fin S2x1.rank)
  slices_S2x2048_S2x2047_0_0 : S2x2048.Slices ![0, 0] S2x2047
  concatenates_S2x1_S2x2047_S2x2048_d1 : Shape.Concatenates [S2x1, S2x2047] S2x2048 1
  bcast_S_S2x2 : S_.BroadcastsInDim S2x2 (![] : Fin 0 → Fin S2x2.rank)
  slices_S2x2048_S2x2046_0_0 : S2x2048.Slices ![0, 0] S2x2046
  concatenates_S2x2_S2x2046_S2x2048_d1 : Shape.Concatenates [S2x2, S2x2046] S2x2048 1
  bcast_S_S2x3 : S_.BroadcastsInDim S2x3 (![] : Fin 0 → Fin S2x3.rank)
  slices_S2x2048_S2x2045_0_0 : S2x2048.Slices ![0, 0] S2x2045
  concatenates_S2x3_S2x2045_S2x2048_d1 : Shape.Concatenates [S2x3, S2x2045] S2x2048 1
  bcast_S_S2x4 : S_.BroadcastsInDim S2x4 (![] : Fin 0 → Fin S2x4.rank)
  slices_S2x2048_S2x2044_0_0 : S2x2048.Slices ![0, 0] S2x2044
  concatenates_S2x4_S2x2044_S2x2048_d1 : Shape.Concatenates [S2x4, S2x2044] S2x2048 1
  bcast_S_S2x5 : S_.BroadcastsInDim S2x5 (![] : Fin 0 → Fin S2x5.rank)
  slices_S2x2048_S2x2043_0_0 : S2x2048.Slices ![0, 0] S2x2043
  concatenates_S2x5_S2x2043_S2x2048_d1 : Shape.Concatenates [S2x5, S2x2043] S2x2048 1
  bcast_S_S2x6 : S_.BroadcastsInDim S2x6 (![] : Fin 0 → Fin S2x6.rank)
  slices_S2x2048_S2x2042_0_0 : S2x2048.Slices ![0, 0] S2x2042
  concatenates_S2x6_S2x2042_S2x2048_d1 : Shape.Concatenates [S2x6, S2x2042] S2x2048 1
  bcast_S_S2x7 : S_.BroadcastsInDim S2x7 (![] : Fin 0 → Fin S2x7.rank)
  slices_S2x2048_S2x2041_0_0 : S2x2048.Slices ![0, 0] S2x2041
  concatenates_S2x7_S2x2041_S2x2048_d1 : Shape.Concatenates [S2x7, S2x2041] S2x2048 1
  bcast_S_S2x8 : S_.BroadcastsInDim S2x8 (![] : Fin 0 → Fin S2x8.rank)
  slices_S2x2048_S2x2040_0_0 : S2x2048.Slices ![0, 0] S2x2040
  concatenates_S2x8_S2x2040_S2x2048_d1 : Shape.Concatenates [S2x8, S2x2040] S2x2048 1
  bcast_S_S2x9 : S_.BroadcastsInDim S2x9 (![] : Fin 0 → Fin S2x9.rank)
  slices_S2x2048_S2x2039_0_0 : S2x2048.Slices ![0, 0] S2x2039
  concatenates_S2x9_S2x2039_S2x2048_d1 : Shape.Concatenates [S2x9, S2x2039] S2x2048 1
  bcast_S_S2x10 : S_.BroadcastsInDim S2x10 (![] : Fin 0 → Fin S2x10.rank)
  slices_S2x2048_S2x2038_0_0 : S2x2048.Slices ![0, 0] S2x2038
  concatenates_S2x10_S2x2038_S2x2048_d1 : Shape.Concatenates [S2x10, S2x2038] S2x2048 1
  bcast_S_S2x11 : S_.BroadcastsInDim S2x11 (![] : Fin 0 → Fin S2x11.rank)
  slices_S2x2048_S2x2037_0_0 : S2x2048.Slices ![0, 0] S2x2037
  concatenates_S2x11_S2x2037_S2x2048_d1 : Shape.Concatenates [S2x11, S2x2037] S2x2048 1
  bcast_S_S2x12 : S_.BroadcastsInDim S2x12 (![] : Fin 0 → Fin S2x12.rank)
  slices_S2x2048_S2x2036_0_0 : S2x2048.Slices ![0, 0] S2x2036
  concatenates_S2x12_S2x2036_S2x2048_d1 : Shape.Concatenates [S2x12, S2x2036] S2x2048 1
  bcast_S_S2x13 : S_.BroadcastsInDim S2x13 (![] : Fin 0 → Fin S2x13.rank)
  slices_S2x2048_S2x2035_0_0 : S2x2048.Slices ![0, 0] S2x2035
  concatenates_S2x13_S2x2035_S2x2048_d1 : Shape.Concatenates [S2x13, S2x2035] S2x2048 1
  bcast_S_S2x14 : S_.BroadcastsInDim S2x14 (![] : Fin 0 → Fin S2x14.rank)
  slices_S2x2048_S2x2034_0_0 : S2x2048.Slices ![0, 0] S2x2034
  concatenates_S2x14_S2x2034_S2x2048_d1 : Shape.Concatenates [S2x14, S2x2034] S2x2048 1
  bcast_S_S2x15 : S_.BroadcastsInDim S2x15 (![] : Fin 0 → Fin S2x15.rank)
  slices_S2x2048_S2x2033_0_0 : S2x2048.Slices ![0, 0] S2x2033
  concatenates_S2x15_S2x2033_S2x2048_d1 : Shape.Concatenates [S2x15, S2x2033] S2x2048 1
  bcast_S_S2x16 : S_.BroadcastsInDim S2x16 (![] : Fin 0 → Fin S2x16.rank)
  slices_S2x2048_S2x2032_0_0 : S2x2048.Slices ![0, 0] S2x2032
  concatenates_S2x16_S2x2032_S2x2048_d1 : Shape.Concatenates [S2x16, S2x2032] S2x2048 1
  bcast_S_S2x17 : S_.BroadcastsInDim S2x17 (![] : Fin 0 → Fin S2x17.rank)
  slices_S2x2048_S2x2031_0_0 : S2x2048.Slices ![0, 0] S2x2031
  concatenates_S2x17_S2x2031_S2x2048_d1 : Shape.Concatenates [S2x17, S2x2031] S2x2048 1
  bcast_S_S2x18 : S_.BroadcastsInDim S2x18 (![] : Fin 0 → Fin S2x18.rank)
  slices_S2x2048_S2x2030_0_0 : S2x2048.Slices ![0, 0] S2x2030
  concatenates_S2x18_S2x2030_S2x2048_d1 : Shape.Concatenates [S2x18, S2x2030] S2x2048 1
  bcast_S_S2x19 : S_.BroadcastsInDim S2x19 (![] : Fin 0 → Fin S2x19.rank)
  slices_S2x2048_S2x2029_0_0 : S2x2048.Slices ![0, 0] S2x2029
  concatenates_S2x19_S2x2029_S2x2048_d1 : Shape.Concatenates [S2x19, S2x2029] S2x2048 1
  bcast_S_S2x20 : S_.BroadcastsInDim S2x20 (![] : Fin 0 → Fin S2x20.rank)
  slices_S2x2048_S2x2028_0_0 : S2x2048.Slices ![0, 0] S2x2028
  concatenates_S2x20_S2x2028_S2x2048_d1 : Shape.Concatenates [S2x20, S2x2028] S2x2048 1
  bcast_S_S2x21 : S_.BroadcastsInDim S2x21 (![] : Fin 0 → Fin S2x21.rank)
  slices_S2x2048_S2x2027_0_0 : S2x2048.Slices ![0, 0] S2x2027
  concatenates_S2x21_S2x2027_S2x2048_d1 : Shape.Concatenates [S2x21, S2x2027] S2x2048 1
  bcast_S_S2x22 : S_.BroadcastsInDim S2x22 (![] : Fin 0 → Fin S2x22.rank)
  slices_S2x2048_S2x2026_0_0 : S2x2048.Slices ![0, 0] S2x2026
  concatenates_S2x22_S2x2026_S2x2048_d1 : Shape.Concatenates [S2x22, S2x2026] S2x2048 1
  bcast_S_S2x23 : S_.BroadcastsInDim S2x23 (![] : Fin 0 → Fin S2x23.rank)
  slices_S2x2048_S2x2025_0_0 : S2x2048.Slices ![0, 0] S2x2025
  concatenates_S2x23_S2x2025_S2x2048_d1 : Shape.Concatenates [S2x23, S2x2025] S2x2048 1
  bcast_S_S2x24 : S_.BroadcastsInDim S2x24 (![] : Fin 0 → Fin S2x24.rank)
  slices_S2x2048_S2x2024_0_0 : S2x2048.Slices ![0, 0] S2x2024
  concatenates_S2x24_S2x2024_S2x2048_d1 : Shape.Concatenates [S2x24, S2x2024] S2x2048 1
  bcast_S_S2x25 : S_.BroadcastsInDim S2x25 (![] : Fin 0 → Fin S2x25.rank)
  slices_S2x2048_S2x2023_0_0 : S2x2048.Slices ![0, 0] S2x2023
  concatenates_S2x25_S2x2023_S2x2048_d1 : Shape.Concatenates [S2x25, S2x2023] S2x2048 1
  bcast_S_S2x26 : S_.BroadcastsInDim S2x26 (![] : Fin 0 → Fin S2x26.rank)
  slices_S2x2048_S2x2022_0_0 : S2x2048.Slices ![0, 0] S2x2022
  concatenates_S2x26_S2x2022_S2x2048_d1 : Shape.Concatenates [S2x26, S2x2022] S2x2048 1
  bcast_S_S2x27 : S_.BroadcastsInDim S2x27 (![] : Fin 0 → Fin S2x27.rank)
  slices_S2x2048_S2x2021_0_0 : S2x2048.Slices ![0, 0] S2x2021
  concatenates_S2x27_S2x2021_S2x2048_d1 : Shape.Concatenates [S2x27, S2x2021] S2x2048 1
  bcast_S_S2x28 : S_.BroadcastsInDim S2x28 (![] : Fin 0 → Fin S2x28.rank)
  slices_S2x2048_S2x2020_0_0 : S2x2048.Slices ![0, 0] S2x2020
  concatenates_S2x28_S2x2020_S2x2048_d1 : Shape.Concatenates [S2x28, S2x2020] S2x2048 1
  bcast_S_S2x29 : S_.BroadcastsInDim S2x29 (![] : Fin 0 → Fin S2x29.rank)
  slices_S2x2048_S2x2019_0_0 : S2x2048.Slices ![0, 0] S2x2019
  concatenates_S2x29_S2x2019_S2x2048_d1 : Shape.Concatenates [S2x29, S2x2019] S2x2048 1
  bcast_S_S2x30 : S_.BroadcastsInDim S2x30 (![] : Fin 0 → Fin S2x30.rank)
  slices_S2x2048_S2x2018_0_0 : S2x2048.Slices ![0, 0] S2x2018
  concatenates_S2x30_S2x2018_S2x2048_d1 : Shape.Concatenates [S2x30, S2x2018] S2x2048 1
  bcast_S_S2x31 : S_.BroadcastsInDim S2x31 (![] : Fin 0 → Fin S2x31.rank)
  slices_S2x2048_S2x2017_0_0 : S2x2048.Slices ![0, 0] S2x2017
  concatenates_S2x31_S2x2017_S2x2048_d1 : Shape.Concatenates [S2x31, S2x2017] S2x2048 1
  bcast_S_S2x32 : S_.BroadcastsInDim S2x32 (![] : Fin 0 → Fin S2x32.rank)
  slices_S2x2048_S2x2016_0_0 : S2x2048.Slices ![0, 0] S2x2016
  concatenates_S2x32_S2x2016_S2x2048_d1 : Shape.Concatenates [S2x32, S2x2016] S2x2048 1
  bcast_S2x2048_S2x2048x1_0_1 : S2x2048.BroadcastsInDim S2x2048x1 (![0, 1] : Fin 2 → Fin S2x2048x1.rank)
  concatenates_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x16_d2 : Shape.Concatenates [S2x2048x1, S2x2048x1, S2x2048x1, S2x2048x1, S2x2048x1, S2x2048x1, S2x2048x1, S2x2048x1, S2x2048x1, S2x2048x1, S2x2048x1, S2x2048x1, S2x2048x1, S2x2048x1, S2x2048x1, S2x2048x1] S2x2048x16 2
  concatenates_S2x2048x16_S2x2048x16_S2x2048x32_d2 : Shape.Concatenates [S2x2048x16, S2x2048x16] S2x2048x32 2
  bcast_S2_S2x1x1_0 : S2.BroadcastsInDim S2x1x1 (![0] : Fin 1 → Fin S2x1x1.rank)
  bcast_S2048_S1x2048x1_1 : S2048.BroadcastsInDim S1x2048x1 (![1] : Fin 1 → Fin S1x2048x1.rank)
  bcast_S_S2x2048x32000 : S_.BroadcastsInDim S2x2048x32000 (![] : Fin 0 → Fin S2x2048x32000.rank)
  bcast_S_S2x1x1 : S_.BroadcastsInDim S2x1x1 (![] : Fin 0 → Fin S2x1x1.rank)
  bcast_S_S1x2048x1 : S_.BroadcastsInDim S1x2048x1 (![] : Fin 0 → Fin S1x2048x1.rank)
  bcast_S_S2x2048x32 : S_.BroadcastsInDim S2x2048x32 (![] : Fin 0 → Fin S2x2048x32.rank)
  bcast_S2x1x1_S2x2048x32_0_1_2 : S2x1x1.BroadcastsInDim S2x2048x32 (![0, 1, 2] : Fin 3 → Fin S2x2048x32.rank)
  bcast_S1x2048x1_S2x2048x32_0_1_2 : S1x2048x1.BroadcastsInDim S2x2048x32 (![0, 1, 2] : Fin 3 → Fin S2x2048x32.rank)
  bcast_S2x2048x32_S2x2048x32x1_0_1_2 : S2x2048x32.BroadcastsInDim S2x2048x32x1 (![0, 1, 2] : Fin 3 → Fin S2x2048x32x1.rank)
  concatenates_S2x2048x32x1_S2x2048x32x1_S2x2048x32x1_S2x2048x32x3_d3 : Shape.Concatenates [S2x2048x32x1, S2x2048x32x1, S2x2048x32x1] S2x2048x32x3 3
  scatter_S2x2048x32000_S2x2048x32x3_S2x2048x32_n_012_012_3_wf : ScatterDims.WF S2x2048x32000 S2x2048x32x3 S2x2048x32 [] [0, 1, 2] [0, 1, 2] 3

variable [Facts₀]

def scatter_S2x2048x32000_S2x2048x32x3_S2x2048x32_n_012_012_3 : ScatterDims S2x2048x32000 S2x2048x32x3 S2x2048x32 where
  updateWindowDims := []
  insertedWindowDims := [0, 1, 2]
  scatterDimsToOperandDims := [0, 1, 2]
  indexVectorDim := 3
  wf := scatter_S2x2048x32000_S2x2048x32x3_S2x2048x32_n_012_012_3_wf

class Facts : Prop extends Facts₀ where

variable [Facts]
-- ==== Proof.RefRunA.lean ====
/-
  The reference program's run, read window by window: first half. @main is 203 host operations in four windows. The first
  two windows build thirty of the thirty-two shifted copies of the token ids (each a block of the out-of-vocabulary
  value in front of a prefix of the ids); the third builds the last two, appends a unit axis to every copy, stacks them
  sixteen and sixteen and joins the halves, and prepares the batch and position coordinates of the scatter. After each
  window every buffer a later window reads holds its stage — the value the operation writes as a function of the two
  arguments. No window writes an argument.
-/
import proofs.«400046_j37288906064558_2_alg».proof.Proof.RefOps
import proofs.«400046_j37288906064558_2_alg».proof.Proof.RefRead
import Idealize.ShloMosaic.Lib.StableHlo.Run
import Idealize.ShloMosaic.Lib.Pipeline.Frame

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (V : Valuation τ sig (Elt F))

/-! ## No window writes an argument -/

theorem w0_arg0 : after (ops_part0 (F := F)) V (Proc.devRef .tc main_arg0) = V (Proc.devRef .tc main_arg0) :=
  after_of_forall_not_mem (b := (Proc.devRef .tc main_arg0)) _ _ (List.forall_iff_forall_mem.mp (by
    simp only [ops_part0, List.Forall, nullary_writes, unary_writes, binary_writes, ternary_writes, quaternary_writes, reshape_writes, binaryIndexed_writes, nary_writes, Finset.mem_singleton]
    repeat' apply And.intro
    all_goals exact devRef_ne_of_ne (by decide)))
theorem w0_arg1 : after (ops_part0 (F := F)) V (Proc.devRef .tc main_arg1) = V (Proc.devRef .tc main_arg1) :=
  after_of_forall_not_mem (b := (Proc.devRef .tc main_arg1)) _ _ (List.forall_iff_forall_mem.mp (by
    simp only [ops_part0, List.Forall, nullary_writes, unary_writes, binary_writes, ternary_writes, quaternary_writes, reshape_writes, binaryIndexed_writes, nary_writes, Finset.mem_singleton]
    repeat' apply And.intro
    all_goals exact devRef_ne_of_ne (by decide)))
theorem w1_arg0 : after (ops_part1 (F := F)) V (Proc.devRef .tc main_arg0) = V (Proc.devRef .tc main_arg0) :=
  after_of_forall_not_mem (b := (Proc.devRef .tc main_arg0)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_arg1 : after (ops_part1 (F := F)) V (Proc.devRef .tc main_arg1) = V (Proc.devRef .tc main_arg1) :=
  after_of_forall_not_mem (b := (Proc.devRef .tc main_arg1)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w2_arg0 : after (ops_part2 (F := F)) V (Proc.devRef .tc main_arg0) = V (Proc.devRef .tc main_arg0) :=
  after_of_forall_not_mem (b := (Proc.devRef .tc main_arg0)) _ _ (List.forall_iff_forall_mem.mp (by
    simp only [ops_part2, List.Forall, nullary_writes, unary_writes, binary_writes, ternary_writes, quaternary_writes, reshape_writes, binaryIndexed_writes, nary_writes, Finset.mem_singleton]
    repeat' apply And.intro
    all_goals exact devRef_ne_of_ne (by decide)))
theorem w2_arg1 : after (ops_part2 (F := F)) V (Proc.devRef .tc main_arg1) = V (Proc.devRef .tc main_arg1) :=
  after_of_forall_not_mem (b := (Proc.devRef .tc main_arg1)) _ _ (List.forall_iff_forall_mem.mp (by
    simp only [ops_part2, List.Forall, nullary_writes, unary_writes, binary_writes, ternary_writes, quaternary_writes, reshape_writes, binaryIndexed_writes, nary_writes, Finset.mem_singleton]
    repeat' apply And.intro
    all_goals exact devRef_ne_of_ne (by decide)))
theorem w3_arg0 : after (ops_part3 (F := F)) V (Proc.devRef .tc main_arg0) = V (Proc.devRef .tc main_arg0) :=
  after_of_forall_not_mem (b := (Proc.devRef .tc main_arg0)) _ _ (List.forall_iff_forall_mem.mp (by
    simp only [ops_part3, List.Forall, nullary_writes, unary_writes, binary_writes, ternary_writes, quaternary_writes, reshape_writes, binaryIndexed_writes, nary_writes, Finset.mem_singleton]
    repeat' apply And.intro
    all_goals exact devRef_ne_of_ne (by decide)))
theorem w3_arg1 : after (ops_part3 (F := F)) V (Proc.devRef .tc main_arg1) = V (Proc.devRef .tc main_arg1) :=
  after_of_forall_not_mem (b := (Proc.devRef .tc main_arg1)) _ _ (List.forall_iff_forall_mem.mp (by
    simp only [ops_part3, List.Forall, nullary_writes, unary_writes, binary_writes, ternary_writes, quaternary_writes, reshape_writes, binaryIndexed_writes, nary_writes, Finset.mem_singleton]
    repeat' apply And.intro
    all_goals exact devRef_ne_of_ne (by decide)))

/-! ## Window 0: the shifted copies 1 … 15 -/

set_option maxHeartbeats 2000000 in
theorem w0_s1 : after (ops_part0 (F := F)) V (Proc.devRef .tc main_v2) = val_main_v2 (F := F) (V (Proc.devRef .tc main_arg1)) := by
  after_results <;> rfl
set_option maxHeartbeats 2000000 in
theorem w0_s2 : after (ops_part0 (F := F)) V (Proc.devRef .tc main_v5) = val_main_v5 (F := F) (V (Proc.devRef .tc main_arg1)) := by
  after_results <;> rfl
set_option maxHeartbeats 2000000 in
theorem w0_s3 : after (ops_part0 (F := F)) V (Proc.devRef .tc main_v8) = val_main_v8 (F := F) (V (Proc.devRef .tc main_arg1)) := by
  after_results <;> rfl
set_option maxHeartbeats 2000000 in
theorem w0_s4 : after (ops_part0 (F := F)) V (Proc.devRef .tc main_v11) = val_main_v11 (F := F) (V (Proc.devRef .tc main_arg1)) := by
  after_results <;> rfl
set_option maxHeartbeats 2000000 in
theorem w0_s5 : after (ops_part0 (F := F)) V (Proc.devRef .tc main_v14) = val_main_v14 (F := F) (V (Proc.devRef .tc main_arg1)) := by
  after_results <;> rfl
set_option maxHeartbeats 2000000 in
theorem w0_s6 : after (ops_part0 (F := F)) V (Proc.devRef .tc main_v17) = val_main_v17 (F := F) (V (Proc.devRef .tc main_arg1)) := by
  after_results <;> rfl
set_option maxHeartbeats 2000000 in
theorem w0_s7 : after (ops_part0 (F := F)) V (Proc.devRef .tc main_v20) = val_main_v20 (F := F) (V (Proc.devRef .tc main_arg1)) := by
  after_results <;> rfl
set_option maxHeartbeats 2000000 in
theorem w0_s8 : after (ops_part0 (F := F)) V (Proc.devRef .tc main_v23) = val_main_v23 (F := F) (V (Proc.devRef .tc main_arg1)) := by
  after_results <;> rfl
set_option maxHeartbeats 2000000 in
theorem w0_s9 : after (ops_part0 (F := F)) V (Proc.devRef .tc main_v26) = val_main_v26 (F := F) (V (Proc.devRef .tc main_arg1)) := by
  after_results <;> rfl
set_option maxHeartbeats 2000000 in
theorem w0_s10 : after (ops_part0 (F := F)) V (Proc.devRef .tc main_v29) = val_main_v29 (F := F) (V (Proc.devRef .tc main_arg1)) := by
  after_results <;> rfl
set_option maxHeartbeats 2000000 in
theorem w0_s11 : after (ops_part0 (F := F)) V (Proc.devRef .tc main_v32) = val_main_v32 (F := F) (V (Proc.devRef .tc main_arg1)) := by
  after_results <;> rfl
set_option maxHeartbeats 2000000 in
theorem w0_s12 : after (ops_part0 (F := F)) V (Proc.devRef .tc main_v35) = val_main_v35 (F := F) (V (Proc.devRef .tc main_arg1)) := by
  after_results <;> rfl
set_option maxHeartbeats 2000000 in
theorem w0_s13 : after (ops_part0 (F := F)) V (Proc.devRef .tc main_v38) = val_main_v38 (F := F) (V (Proc.devRef .tc main_arg1)) := by
  after_results <;> rfl
set_option maxHeartbeats 2000000 in
theorem w0_s14 : after (ops_part0 (F := F)) V (Proc.devRef .tc main_v41) = val_main_v41 (F := F) (V (Proc.devRef .tc main_arg1)) := by
  after_results <;> rfl
set_option maxHeartbeats 2000000 in
theorem w0_s15 : after (ops_part0 (F := F)) V (Proc.devRef .tc main_v44) = val_main_v44 (F := F) (V (Proc.devRef .tc main_arg1)) := by
  after_results <;> rfl

/-! ## Window 1: the shifted copies 16 … 30; the first fifteen are not written -/

set_option maxHeartbeats 2000000 in
theorem w1_s16 : after (ops_part1 (F := F)) V (Proc.devRef .tc main_v47) = val_main_v47 (F := F) (V (Proc.devRef .tc main_arg1)) := by
  after_results <;> rfl
set_option maxHeartbeats 2000000 in
theorem w1_s17 : after (ops_part1 (F := F)) V (Proc.devRef .tc main_v50) = val_main_v50 (F := F) (V (Proc.devRef .tc main_arg1)) := by
  after_results <;> rfl
set_option maxHeartbeats 2000000 in
theorem w1_s18 : after (ops_part1 (F := F)) V (Proc.devRef .tc main_v53) = val_main_v53 (F := F) (V (Proc.devRef .tc main_arg1)) := by
  after_results <;> rfl
set_option maxHeartbeats 2000000 in
theorem w1_s19 : after (ops_part1 (F := F)) V (Proc.devRef .tc main_v56) = val_main_v56 (F := F) (V (Proc.devRef .tc main_arg1)) := by
  after_results <;> rfl
set_option maxHeartbeats 2000000 in
theorem w1_s20 : after (ops_part1 (F := F)) V (Proc.devRef .tc main_v59) = val_main_v59 (F := F) (V (Proc.devRef .tc main_arg1)) := by
  after_results <;> rfl
set_option maxHeartbeats 2000000 in
theorem w1_s21 : after (ops_part1 (F := F)) V (Proc.devRef .tc main_v62) = val_main_v62 (F := F) (V (Proc.devRef .tc main_arg1)) := by
  after_results <;> rfl
set_option maxHeartbeats 2000000 in
theorem w1_s22 : after (ops_part1 (F := F)) V (Proc.devRef .tc main_v65) = val_main_v65 (F := F) (V (Proc.devRef .tc main_arg1)) := by
  after_results <;> rfl
set_option maxHeartbeats 2000000 in
theorem w1_s23 : after (ops_part1 (F := F)) V (Proc.devRef .tc main_v68) = val_main_v68 (F := F) (V (Proc.devRef .tc main_arg1)) := by
  after_results <;> rfl
set_option maxHeartbeats 2000000 in
theorem w1_s24 : after (ops_part1 (F := F)) V (Proc.devRef .tc main_v71) = val_main_v71 (F := F) (V (Proc.devRef .tc main_arg1)) := by
  after_results <;> rfl
set_option maxHeartbeats 2000000 in
theorem w1_s25 : after (ops_part1 (F := F)) V (Proc.devRef .tc main_v74) = val_main_v74 (F := F) (V (Proc.devRef .tc main_arg1)) := by
  after_results <;> rfl
set_option maxHeartbeats 2000000 in
theorem w1_s26 : after (ops_part1 (F := F)) V (Proc.devRef .tc main_v77) = val_main_v77 (F := F) (V (Proc.devRef .tc main_arg1)) := by
  after_results <;> rfl
set_option maxHeartbeats 2000000 in
theorem w1_s27 : after (ops_part1 (F := F)) V (Proc.devRef .tc main_v80) = val_main_v80 (F := F) (V (Proc.devRef .tc main_arg1)) := by
  after_results <;> rfl
set_option maxHeartbeats 2000000 in
theorem w1_s28 : after (ops_part1 (F := F)) V (Proc.devRef .tc main_v83) = val_main_v83 (F := F) (V (Proc.devRef .tc main_arg1)) := by
  after_results <;> rfl
set_option maxHeartbeats 2000000 in
theorem w1_s29 : after (ops_part1 (F := F)) V (Proc.devRef .tc main_v86) = val_main_v86 (F := F) (V (Proc.devRef .tc main_arg1)) := by
  after_results <;> rfl
set_option maxHeartbeats 2000000 in
theorem w1_s30 : after (ops_part1 (F := F)) V (Proc.devRef .tc main_v89) = val_main_v89 (F := F) (V (Proc.devRef .tc main_arg1)) := by
  after_results <;> rfl
theorem w1_k1 : after (ops_part1 (F := F)) V (Proc.devRef .tc main_v2) = V (Proc.devRef .tc main_v2) :=
  after_of_forall_not_mem (b := (Proc.devRef .tc main_v2)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k2 : after (ops_part1 (F := F)) V (Proc.devRef .tc main_v5) = V (Proc.devRef .tc main_v5) :=
  after_of_forall_not_mem (b := (Proc.devRef .tc main_v5)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k3 : after (ops_part1 (F := F)) V (Proc.devRef .tc main_v8) = V (Proc.devRef .tc main_v8) :=
  after_of_forall_not_mem (b := (Proc.devRef .tc main_v8)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k4 : after (ops_part1 (F := F)) V (Proc.devRef .tc main_v11) = V (Proc.devRef .tc main_v11) :=
  after_of_forall_not_mem (b := (Proc.devRef .tc main_v11)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k5 : after (ops_part1 (F := F)) V (Proc.devRef .tc main_v14) = V (Proc.devRef .tc main_v14) :=
  after_of_forall_not_mem (b := (Proc.devRef .tc main_v14)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k6 : after (ops_part1 (F := F)) V (Proc.devRef .tc main_v17) = V (Proc.devRef .tc main_v17) :=
  after_of_forall_not_mem (b := (Proc.devRef .tc main_v17)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k7 : after (ops_part1 (F := F)) V (Proc.devRef .tc main_v20) = V (Proc.devRef .tc main_v20) :=
  after_of_forall_not_mem (b := (Proc.devRef .tc main_v20)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k8 : after (ops_part1 (F := F)) V (Proc.devRef .tc main_v23) = V (Proc.devRef .tc main_v23) :=
  after_of_forall_not_mem (b := (Proc.devRef .tc main_v23)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k9 : after (ops_part1 (F := F)) V (Proc.devRef .tc main_v26) = V (Proc.devRef .tc main_v26) :=
  after_of_forall_not_mem (b := (Proc.devRef .tc main_v26)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k10 : after (ops_part1 (F := F)) V (Proc.devRef .tc main_v29) = V (Proc.devRef .tc main_v29) :=
  after_of_forall_not_mem (b := (Proc.devRef .tc main_v29)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k11 : after (ops_part1 (F := F)) V (Proc.devRef .tc main_v32) = V (Proc.devRef .tc main_v32) :=
  after_of_forall_not_mem (b := (Proc.devRef .tc main_v32)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k12 : after (ops_part1 (F := F)) V (Proc.devRef .tc main_v35) = V (Proc.devRef .tc main_v35) :=
  after_of_forall_not_mem (b := (Proc.devRef .tc main_v35)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k13 : after (ops_part1 (F := F)) V (Proc.devRef .tc main_v38) = V (Proc.devRef .tc main_v38) :=
  after_of_forall_not_mem (b := (Proc.devRef .tc main_v38)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k14 : after (ops_part1 (F := F)) V (Proc.devRef .tc main_v41) = V (Proc.devRef .tc main_v41) :=
  after_of_forall_not_mem (b := (Proc.devRef .tc main_v41)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))
theorem w1_k15 : after (ops_part1 (F := F)) V (Proc.devRef .tc main_v44) = V (Proc.devRef .tc main_v44) :=
  after_of_forall_not_mem (b := (Proc.devRef .tc main_v44)) _ _ (List.forall_iff_forall_mem.mp (by
    simp only [ops_part1, List.Forall, nullary_writes, unary_writes, binary_writes, ternary_writes, quaternary_writes, reshape_writes, binaryIndexed_writes, nary_writes, Finset.mem_singleton]
    repeat' apply And.intro
    all_goals exact devRef_ne_of_ne (by decide)))

/-! ## Window 2: the last two shifted copies, the stack of all thirty-two, the coordinates' constants

The window is read in four stretches, so that each sixteen-way concatenation stands alone: the forty operations before
them (two shifted copies, then every copy with a unit axis appended), the two concatenations one by one, and the eighteen
operations after them. -/

set_option maxHeartbeats 40000000 in
/-- Operations 121 … 160: the shifted copies 31 and 32, and each of the thirty-two copies with a trailing unit axis. -/
abbrev stretchA : List (HloOp τ sig (Elt F)) :=
  ( nullary main_c_29 (constantI S_ 32 32000#32)
  :: unary main_c_29 main_v90 (broadcastInDim S2x31 ![] bcast_S_S2x31 : (⟨S_, .i32⟩ : BufTy).Contents (Elt F) → (⟨S2x31, .i32⟩ : BufTy).Contents (Elt F))
  :: unary main_arg1 main_v91 ((extractStridedSlice S2x2017 ![0, 0] · slices_S2x2048_S2x2017_0_0) : (⟨S2x2048, .i32⟩ : BufTy).Contents (Elt F) → (⟨S2x2017, .i32⟩ : BufTy).Contents (Elt F))
  :: binary main_v90 main_v91 main_v92 ((fun a b => concatenate S2x2048 1 [⟨S2x31, a⟩, ⟨S2x2017, b⟩] concatenates_S2x31_S2x2017_S2x2048_d1) : (⟨S2x31, .i32⟩ : BufTy).Contents (Elt F) → (⟨S2x2017, .i32⟩ : BufTy).Contents (Elt F) → (⟨S2x2048, .i32⟩ : BufTy).Contents (Elt F))
  :: nullary main_c_30 (constantI S_ 32 32000#32)
  :: unary main_c_30 main_v93 (broadcastInDim S2x32 ![] bcast_S_S2x32 : (⟨S_, .i32⟩ : BufTy).Contents (Elt F) → (⟨S2x32, .i32⟩ : BufTy).Contents (Elt F))
  :: unary main_arg1 main_v94 ((extractStridedSlice S2x2016 ![0, 0] · slices_S2x2048_S2x2016_0_0) : (⟨S2x2048, .i32⟩ : BufTy).Contents (Elt F) → (⟨S2x2016, .i32⟩ : BufTy).Contents (Elt F))
  :: binary main_v93 main_v94 main_v95 ((fun a b => concatenate S2x2048 1 [⟨S2x32, a⟩, ⟨S2x2016, b⟩] concatenates_S2x32_S2x2016_S2x2048_d1) : (⟨S2x32, .i32⟩ : BufTy).Contents (Elt F) → (⟨S2x2016, .i32⟩ : BufTy).Contents (Elt F) → (⟨S2x2048, .i32⟩ : BufTy).Contents (Elt F))
  :: unary main_v2 main_v96 (broadcastInDim S2x2048x1 ![0, 1] bcast_S2x2048_S2x2048x1_0_1 : (⟨S2x2048, .i32⟩ : BufTy).Contents (Elt F) → (⟨S2x2048x1, .i32⟩ : BufTy).Contents (Elt F))
  :: unary main_v5 main_v97 (broadcastInDim S2x2048x1 ![0, 1] bcast_S2x2048_S2x2048x1_0_1 : (⟨S2x2048, .i32⟩ : BufTy).Contents (Elt F) → (⟨S2x2048x1, .i32⟩ : BufTy).Contents (Elt F))
  :: unary main_v8 main_v98 (broadcastInDim S2x2048x1 ![0, 1] bcast_S2x2048_S2x2048x1_0_1 : (⟨S2x2048, .i32⟩ : BufTy).Contents (Elt F) → (⟨S2x2048x1, .i32⟩ : BufTy).Contents (Elt F))
  :: unary main_v11 main_v99 (broadcastInDim S2x2048x1 ![0, 1] bcast_S2x2048_S2x2048x1_0_1 : (⟨S2x2048, .i32⟩ : BufTy).Contents (Elt F) → (⟨S2x2048x1, .i32⟩ : BufTy).Contents (Elt F))
  :: unary main_v14 main_v100 (broadcastInDim S2x2048x1 ![0, 1] bcast_S2x2048_S2x2048x1_0_1 : (⟨S2x2048, .i32⟩ : BufTy).Contents (Elt F) → (⟨S2x2048x1, .i32⟩ : BufTy).Contents (Elt F))
  :: unary main_v17 main_v101 (broadcastInDim S2x2048x1 ![0, 1] bcast_S2x2048_S2x2048x1_0_1 : (⟨S2x2048, .i32⟩ : BufTy).Contents (Elt F) → (⟨S2x2048x1, .i32⟩ : BufTy).Contents (Elt F))
  :: unary main_v20 main_v102 (broadcastInDim S2x2048x1 ![0, 1] bcast_S2x2048_S2x2048x1_0_1 : (⟨S2x2048, .i32⟩ : BufTy).Contents (Elt F) → (⟨S2x2048x1, .i32⟩ : BufTy).Contents (Elt F))
  :: unary main_v23 main_v103 (broadcastInDim S2x2048x1 ![0, 1] bcast_S2x2048_S2x2048x1_0_1 : (⟨S2x2048, .i32⟩ : BufTy).Contents (Elt F) → (⟨S2x2048x1, .i32⟩ : BufTy).Contents (Elt F))
  :: unary main_v26 main_v104 (broadcastInDim S2x2048x1 ![0, 1] bcast_S2x2048_S2x2048x1_0_1 : (⟨S2x2048, .i32⟩ : BufTy).Contents (Elt F) → (⟨S2x2048x1, .i32⟩ : BufTy).Contents (Elt F))
  :: unary main_v29 main_v105 (broadcastInDim S2x2048x1 ![0, 1] bcast_S2x2048_S2x2048x1_0_1 : (⟨S2x2048, .i32⟩ : BufTy).Contents (Elt F) → (⟨S2x2048x1, .i32⟩ : BufTy).Contents (Elt F))
  :: unary main_v32 main_v106 (broadcastInDim S2x2048x1 ![0, 1] bcast_S2x2048_S2x2048x1_0_1 : (⟨S2x2048, .i32⟩ : BufTy).Contents (Elt F) → (⟨S2x2048x1, .i32⟩ : BufTy).Contents (Elt F))
  :: unary main_v35 main_v107 (broadcastInDim S2x2048x1 ![0, 1] bcast_S2x2048_S2x2048x1_0_1 : (⟨S2x2048, .i32⟩ : BufTy).Contents (Elt F) → (⟨S2x2048x1, .i32⟩ : BufTy).Contents (Elt F))
  :: unary main_v38 main_v108 (broadcastInDim S2x2048x1 ![0, 1] bcast_S2x2048_S2x2048x1_0_1 : (⟨S2x2048, .i32⟩ : BufTy).Contents (Elt F) → (⟨S2x2048x1, .i32⟩ : BufTy).Contents (Elt F))
  :: unary main_v41 main_v109 (broadcastInDim S2x2048x1 ![0, 1] bcast_S2x2048_S2x2048x1_0_1 : (⟨S2x2048, .i32⟩ : BufTy).Contents (Elt F) → (⟨S2x2048x1, .i32⟩ : BufTy).Contents (Elt F))
  :: unary main_v44 main_v110 (broadcastInDim S2x2048x1 ![0, 1] bcast_S2x2048_S2x2048x1_0_1 : (⟨S2x2048, .i32⟩ : BufTy).Contents (Elt F) → (⟨S2x2048x1, .i32⟩ : BufTy).Contents (Elt F))
  :: unary main_v47 main_v111 (broadcastInDim S2x2048x1 ![0, 1] bcast_S2x2048_S2x2048x1_0_1 : (⟨S2x2048, .i32⟩ : BufTy).Contents (Elt F) → (⟨S2x2048x1, .i32⟩ : BufTy).Contents (Elt F))
  :: unary main_v50 main_v112 (broadcastInDim S2x2048x1 ![0, 1] bcast_S2x2048_S2x2048x1_0_1 : (⟨S2x2048, .i32⟩ : BufTy).Contents (Elt F) → (⟨S2x2048x1, .i32⟩ : BufTy).Contents (Elt F))
  :: unary main_v53 main_v113 (broadcastInDim S2x2048x1 ![0, 1] bcast_S2x2048_S2x2048x1_0_1 : (⟨S2x2048, .i32⟩ : BufTy).Contents (Elt F) → (⟨S2x2048x1, .i32⟩ : BufTy).Contents (Elt F))
  :: unary main_v56 main_v114 (broadcastInDim S2x2048x1 ![0, 1] bcast_S2x2048_S2x2048x1_0_1 : (⟨S2x2048, .i32⟩ : BufTy).Contents (Elt F) → (⟨S2x2048x1, .i32⟩ : BufTy).Contents (Elt F))
  :: unary main_v59 main_v115 (broadcastInDim S2x2048x1 ![0, 1] bcast_S2x2048_S2x2048x1_0_1 : (⟨S2x2048, .i32⟩ : BufTy).Contents (Elt F) → (⟨S2x2048x1, .i32⟩ : BufTy).Contents (Elt F))
  :: unary main_v62 main_v116 (broadcastInDim S2x2048x1 ![0, 1] bcast_S2x2048_S2x2048x1_0_1 : (⟨S2x2048, .i32⟩ : BufTy).Contents (Elt F) → (⟨S2x2048x1, .i32⟩ : BufTy).Contents (Elt F))
  :: unary main_v65 main_v117 (broadcastInDim S2x2048x1 ![0, 1] bcast_S2x2048_S2x2048x1_0_1 : (⟨S2x2048, .i32⟩ : BufTy).Contents (Elt F) → (⟨S2x2048x1, .i32⟩ : BufTy).Contents (Elt F))
  :: unary main_v68 main_v118 (broadcastInDim S2x2048x1 ![0, 1] bcast_S2x2048_S2x2048x1_0_1 : (⟨S2x2048, .i32⟩ : BufTy).Contents (Elt F) → (⟨S2x2048x1, .i32⟩ : BufTy).Contents (Elt F))
  :: unary main_v71 main_v119 (broadcastInDim S2x2048x1 ![0, 1] bcast_S2x2048_S2x2048x1_0_1 : (⟨S2x2048, .i32⟩ : BufTy).Contents (Elt F) → (⟨S2x2048x1, .i32⟩ : BufTy).Contents (Elt F))
  :: unary main_v74 main_v120 (broadcastInDim S2x2048x1 ![0, 1] bcast_S2x2048_S2x2048x1_0_1 : (⟨S2x2048, .i32⟩ : BufTy).Contents (Elt F) → (⟨S2x2048x1, .i32⟩ : BufTy).Contents (Elt F))
  :: unary main_v77 main_v121 (broadcastInDim S2x2048x1 ![0, 1] bcast_S2x2048_S2x2048x1_0_1 : (⟨S2x2048, .i32⟩ : BufTy).Contents (Elt F) → (⟨S2x2048x1, .i32⟩ : BufTy).Contents (Elt F))
  :: unary main_v80 main_v122 (broadcastInDim S2x2048x1 ![0, 1] bcast_S2x2048_S2x2048x1_0_1 : (⟨S2x2048, .i32⟩ : BufTy).Contents (Elt F) → (⟨S2x2048x1, .i32⟩ : BufTy).Contents (Elt F))
  :: unary main_v83 main_v123 (broadcastInDim S2x2048x1 ![0, 1] bcast_S2x2048_S2x2048x1_0_1 : (⟨S2x2048, .i32⟩ : BufTy).Contents (Elt F) → (⟨S2x2048x1, .i32⟩ : BufTy).Contents (Elt F))
  :: unary main_v86 main_v124 (broadcastInDim S2x2048x1 ![0, 1] bcast_S2x2048_S2x2048x1_0_1 : (⟨S2x2048, .i32⟩ : BufTy).Contents (Elt F) → (⟨S2x2048x1, .i32⟩ : BufTy).Contents (Elt F))
  :: unary main_v89 main_v125 (broadcastInDim S2x2048x1 ![0, 1] bcast_S2x2048_S2x2048x1_0_1 : (⟨S2x2048, .i32⟩ : BufTy).Contents (Elt F) → (⟨S2x2048x1, .i32⟩ : BufTy).Contents (Elt F))
  :: unary main_v92 main_v126 (broadcastInDim S2x2048x1 ![0, 1] bcast_S2x2048_S2x2048x1_0_1 : (⟨S2x2048, .i32⟩ : BufTy).Contents (Elt F) → (⟨S2x2048x1, .i32⟩ : BufTy).Contents (Elt F))
  :: unary main_v95 main_v127 (broadcastInDim S2x2048x1 ![0, 1] bcast_S2x2048_S2x2048x1_0_1 : (⟨S2x2048, .i32⟩ : BufTy).Contents (Elt F) → (⟨S2x2048x1, .i32⟩ : BufTy).Contents (Elt F))
  :: [] )
/-- Operation 161: the first sixteen, side by side. -/
abbrev stretchB1 : List (HloOp τ sig (Elt F)) :=
  ( nary ![main_v96, main_v97, main_v98, main_v99, main_v100, main_v101, main_v102, main_v103, main_v104, main_v105, main_v106, main_v107, main_v108, main_v109, main_v110, main_v111] main_v128 (fun u => concatenate S2x2048x16 2 [⟨S2x2048x1, u 0⟩, ⟨S2x2048x1, u 1⟩, ⟨S2x2048x1, u 2⟩, ⟨S2x2048x1, u 3⟩, ⟨S2x2048x1, u 4⟩, ⟨S2x2048x1, u 5⟩, ⟨S2x2048x1, u 6⟩, ⟨S2x2048x1, u 7⟩, ⟨S2x2048x1, u 8⟩, ⟨S2x2048x1, u 9⟩, ⟨S2x2048x1, u 10⟩, ⟨S2x2048x1, u 11⟩, ⟨S2x2048x1, u 12⟩, ⟨S2x2048x1, u 13⟩, ⟨S2x2048x1, u 14⟩, ⟨S2x2048x1, u 15⟩] concatenates_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x16_d2)
  :: [] )
/-- Operation 162: the last sixteen. -/
abbrev stretchB2 : List (HloOp τ sig (Elt F)) :=
  ( nary ![main_v112, main_v113, main_v114, main_v115, main_v116, main_v117, main_v118, main_v119, main_v120, main_v121, main_v122, main_v123, main_v124, main_v125, main_v126, main_v127] main_v129 (fun u => concatenate S2x2048x16 2 [⟨S2x2048x1, u 0⟩, ⟨S2x2048x1, u 1⟩, ⟨S2x2048x1, u 2⟩, ⟨S2x2048x1, u 3⟩, ⟨S2x2048x1, u 4⟩, ⟨S2x2048x1, u 5⟩, ⟨S2x2048x1, u 6⟩, ⟨S2x2048x1, u 7⟩, ⟨S2x2048x1, u 8⟩, ⟨S2x2048x1, u 9⟩, ⟨S2x2048x1, u 10⟩, ⟨S2x2048x1, u 11⟩, ⟨S2x2048x1, u 12⟩, ⟨S2x2048x1, u 13⟩, ⟨S2x2048x1, u 14⟩, ⟨S2x2048x1, u 15⟩] concatenates_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x1_S2x2048x16_d2)
  :: [] )
set_option maxHeartbeats 40000000 in
/-- Operations 163 … 180: the two halves joined, and the batch and position coordinates. -/
abbrev stretchD : List (HloOp τ sig (Elt F)) :=
  ( binary main_v128 main_v129 main_v130 ((fun a b => concatenate S2x2048x32 2 [⟨S2x2048x16, a⟩, ⟨S2x2048x16, b⟩] concatenates_S2x2048x16_S2x2048x16_S2x2048x32_d2) : (⟨S2x2048x16, .i32⟩ : BufTy).Contents (Elt F) → (⟨S2x2048x16, .i32⟩ : BufTy).Contents (Elt F) → (⟨S2x2048x32, .i32⟩ : BufTy).Contents (Elt F))
  :: nullary main_v131 (iotaInDim S2 32 0)
  :: unary main_v131 main_v132 (broadcastInDim S2x1x1 ![0] bcast_S2_S2x1x1_0 : (⟨S2, .i32⟩ : BufTy).Contents (Elt F) → (⟨S2x1x1, .i32⟩ : BufTy).Contents (Elt F))
  :: nullary main_v133 (iotaInDim S2048 32 0)
  :: unary main_v133 main_v134 (broadcastInDim S1x2048x1 ![1] bcast_S2048_S1x2048x1_1 : (⟨S2048, .i32⟩ : BufTy).Contents (Elt F) → (⟨S1x2048x1, .i32⟩ : BufTy).Contents (Elt F))
  :: nullary main_c_31 (constantI S_ 1 0#1)
  :: unary main_c_31 main_v135 (broadcastInDim S2x2048x32000 ![] bcast_S_S2x2048x32000 : (⟨S_, .i1⟩ : BufTy).Contents (Elt F) → (⟨S2x2048x32000, .i1⟩ : BufTy).Contents (Elt F))
  :: nullary main_c_32 (constantI S_ 32 0#32)
  :: unary main_c_32 main_v136 (broadcastInDim S2x1x1 ![] bcast_S_S2x1x1 : (⟨S_, .i32⟩ : BufTy).Contents (Elt F) → (⟨S2x1x1, .i32⟩ : BufTy).Contents (Elt F))
  :: binary main_v132 main_v136 main_v137 (cmpi .slt : (⟨S2x1x1, .i32⟩ : BufTy).Contents (Elt F) → (⟨S2x1x1, .i32⟩ : BufTy).Contents (Elt F) → (⟨S2x1x1, .i1⟩ : BufTy).Contents (Elt F))
  :: nullary main_c_33 (constantI S_ 32 2#32)
  :: unary main_c_33 main_v138 (broadcastInDim S2x1x1 ![] bcast_S_S2x1x1 : (⟨S_, .i32⟩ : BufTy).Contents (Elt F) → (⟨S2x1x1, .i32⟩ : BufTy).Contents (Elt F))
  :: binary main_v132 main_v138 main_v139 (addi : (⟨S2x1x1, .i32⟩ : BufTy).Contents (Elt F) → (⟨S2x1x1, .i32⟩ : BufTy).Contents (Elt F) → (⟨S2x1x1, .i32⟩ : BufTy).Contents (Elt F))
  :: ternary main_v137 main_v139 main_v132 main_v140 (select : (⟨S2x1x1, .i1⟩ : BufTy).Contents (Elt F) → (⟨S2x1x1, .i32⟩ : BufTy).Contents (Elt F) → (⟨S2x1x1, .i32⟩ : BufTy).Contents (Elt F) → (⟨S2x1x1, .i32⟩ : BufTy).Contents (Elt F))
  :: nullary main_c_34 (constantI S_ 32 0#32)
  :: unary main_c_34 main_v141 (broadcastInDim S1x2048x1 ![] bcast_S_S1x2048x1 : (⟨S_, .i32⟩ : BufTy).Contents (Elt F) → (⟨S1x2048x1, .i32⟩ : BufTy).Contents (Elt F))
  :: binary main_v134 main_v141 main_v142 (cmpi .slt : (⟨S1x2048x1, .i32⟩ : BufTy).Contents (Elt F) → (⟨S1x2048x1, .i32⟩ : BufTy).Contents (Elt F) → (⟨S1x2048x1, .i1⟩ : BufTy).Contents (Elt F))
  :: nullary main_c_35 (constantI S_ 32 2048#32)
  :: [] )

set_option maxRecDepth 65536 in
set_option maxHeartbeats 4000000 in
theorem part2_split : (ops_part2 (F := F)) = stretchA ++ (stretchB1 ++ (stretchB2 ++ stretchD)) := rfl

theorem after_part2 (X : Valuation τ sig (Elt F)) :
    after (ops_part2 (F := F)) X = after stretchD (after stretchB2 (after stretchB1 (after stretchA X))) := by
  rw [part2_split, StableHlo.after_append, StableHlo.after_append, StableHlo.after_append]

set_option maxHeartbeats 2000000 in
theorem a_b1 (ids : (⟨S2x2048, .i32⟩ : BufTy).Contents (Elt F)) (h : V (Proc.devRef .tc main_v2) = val_main_v2 (F := F) ids) :
    after (stretchA (F := F)) V (Proc.devRef .tc main_v96) = val_main_v96 (F := F) ids := by
  after_results; rw [h]; rfl
set_option maxHeartbeats 2000000 in
theorem a_b2 (ids : (⟨S2x2048, .i32⟩ : BufTy).Contents (Elt F)) (h : V (Proc.devRef .tc main_v5) = val_main_v5 (F := F) ids) :
    after (stretchA (F := F)) V (Proc.devRef .tc main_v97) = val_main_v97 (F := F) ids := by
  after_results; rw [h]; rfl
set_option maxHeartbeats 2000000 in
theorem a_b3 (ids : (⟨S2x2048, .i32⟩ : BufTy).Contents (Elt F)) (h : V (Proc.devRef .tc main_v8) = val_main_v8 (F := F) ids) :
    after (stretchA (F := F)) V (Proc.devRef .tc main_v98) = val_main_v98 (F := F) ids := by
  after_results; rw [h]; rfl
set_option maxHeartbeats 2000000 in
theorem a_b4 (ids : (⟨S2x2048, .i32⟩ : BufTy).Contents (Elt F)) (h : V (Proc.devRef .tc main_v11) = val_main_v11 (F := F) ids) :
    after (stretchA (F := F)) V (Proc.devRef .tc main_v99) = val_main_v99 (F := F) ids := by
  after_results; rw [h]; rfl
set_option maxHeartbeats 2000000 in
theorem a_b5 (ids : (⟨S2x2048, .i32⟩ : BufTy).Contents (Elt F)) (h : V (Proc.devRef .tc main_v14) = val_main_v14 (F := F) ids) :
    after (stretchA (F := F)) V (Proc.devRef .tc main_v100) = val_main_v100 (F := F) ids := by
  after_results; rw [h]; rfl
set_option maxHeartbeats 2000000 in
theorem a_b6 (ids : (⟨S2x2048, .i32⟩ : BufTy).Contents (Elt F)) (h : V (Proc.devRef .tc main_v17) = val_main_v17 (F := F) ids) :
    after (stretchA (F := F)) V (Proc.devRef .tc main_v101) = val_main_v101 (F := F) ids := by
  after_results; rw [h]; rfl
set_option maxHeartbeats 2000000 in
theorem a_b7 (ids : (⟨S2x2048, .i32⟩ : BufTy).Contents (Elt F)) (h : V (Proc.devRef .tc main_v20) = val_main_v20 (F := F) ids) :
    after (stretchA (F := F)) V (Proc.devRef .tc main_v102) = val_main_v102 (F := F) ids := by
  after_results; rw [h]; rfl
set_option maxHeartbeats 2000000 in
theorem a_b8 (ids : (⟨S2x2048, .i32⟩ : BufTy).Contents (Elt F)) (h : V (Proc.devRef .tc main_v23) = val_main_v23 (F := F) ids) :
    after (stretchA (F := F)) V (Proc.devRef .tc main_v103) = val_main_v103 (F := F) ids := by
  after_results; rw [h]; rfl
set_option maxHeartbeats 2000000 in
theorem a_b9 (ids : (⟨S2x2048, .i32⟩ : BufTy).Contents (Elt F)) (h : V (Proc.devRef .tc main_v26) = val_main_v26 (F := F) ids) :
    after (stretchA (F := F)) V (Proc.devRef .tc main_v104) = val_main_v104 (F := F) ids := by
  after_results; rw [h]; rfl
set_option maxHeartbeats 2000000 in
theorem a_b10 (ids : (⟨S2x2048, .i32⟩ : BufTy).Contents (Elt F)) (h : V (Proc.devRef .tc main_v29) = val_main_v29 (F := F) ids) :
    after (stretchA (F := F)) V (Proc.devRef .tc main_v105) = val_main_v105 (F := F) ids := by
  after_results; rw [h]; rfl
set_option maxHeartbeats 2000000 in
theorem a_b11 (ids : (⟨S2x2048, .i32⟩ : BufTy).Contents (Elt F)) (h : V (Proc.devRef .tc main_v32) = val_main_v32 (F := F) ids) :
    after (stretchA (F := F)) V (Proc.devRef .tc main_v106) = val_main_v106 (F := F) ids := by
  after_results; rw [h]; rfl
set_option maxHeartbeats 2000000 in
theorem a_b12 (ids : (⟨S2x2048, .i32⟩ : BufTy).Contents (Elt F)) (h : V (Proc.devRef .tc main_v35) = val_main_v35 (F := F) ids) :
    after (stretchA (F := F)) V (Proc.devRef .tc main_v107) = val_main_v107 (F := F) ids := by
  after_results; rw [h]; rfl
set_option maxHeartbeats 2000000 in
theorem a_b13 (ids : (⟨S2x2048, .i32⟩ : BufTy).Contents (Elt F)) (h : V (Proc.devRef .tc main_v38) = val_main_v38 (F := F) ids) :
    after (stretchA (F := F)) V (Proc.devRef .tc main_v108) = val_main_v108 (F := F) ids := by
  after_results; rw [h]; rfl
set_option maxHeartbeats 2000000 in
theorem a_b14 (ids : (⟨S2x2048, .i32⟩ : BufTy).Contents (Elt F)) (h : V (Proc.devRef .tc main_v41) = val_main_v41 (F := F) ids) :
    after (stretchA (F := F)) V (Proc.devRef .tc main_v109) = val_main_v109 (F := F) ids := by
  after_results; rw [h]; rfl
set_option maxHeartbeats 2000000 in
theorem a_b15 (ids : (⟨S2x2048, .i32⟩ : BufTy).Contents (Elt F)) (h : V (Proc.devRef .tc main_v44) = val_main_v44 (F := F) ids) :
    after (stretchA (F := F)) V (Proc.devRef .tc main_v110) = val_main_v110 (F := F) ids := by
  after_results; rw [h]; rfl
set_option maxHeartbeats 2000000 in
theorem a_b16 (ids : (⟨S2x2048, .i32⟩ : BufTy).Contents (Elt F)) (h : V (Proc.devRef .tc main_v47) = val_main_v47 (F := F) ids) :
    after (stretchA (F := F)) V (Proc.devRef .tc main_v111) = val_main_v111 (F := F) ids := by
  after_results; rw [h]; rfl
set_option maxHeartbeats 2000000 in
theorem a_b17 (ids : (⟨S2x2048, .i32⟩ : BufTy).Contents (Elt F)) (h : V (Proc.devRef .tc main_v50) = val_main_v50 (F := F) ids) :
    after (stretchA (F := F)) V (Proc.devRef .tc main_v112) = val_main_v112 (F := F) ids := by
  after_results; rw [h]; rfl
set_option maxHeartbeats 2000000 in
theorem a_b18 (ids : (⟨S2x2048, .i32⟩ : BufTy).Contents (Elt F)) (h : V (Proc.devRef .tc main_v53) = val_main_v53 (F := F) ids) :
    after (stretchA (F := F)) V (Proc.devRef .tc main_v113) = val_main_v113 (F := F) ids := by
  after_results; rw [h]; rfl
set_option maxHeartbeats 2000000 in
theorem a_b19 (ids : (⟨S2x2048, .i32⟩ : BufTy).Contents (Elt F)) (h : V (Proc.devRef .tc main_v56) = val_main_v56 (F := F) ids) :
    after (stretchA (F := F)) V (Proc.devRef .tc main_v114) = val_main_v114 (F := F) ids := by
  after_results; rw [h]; rfl
set_option maxHeartbeats 2000000 in
theorem a_b20 (ids : (⟨S2x2048, .i32⟩ : BufTy).Contents (Elt F)) (h : V (Proc.devRef .tc main_v59) = val_main_v59 (F := F) ids) :
    after (stretchA (F := F)) V (Proc.devRef .tc main_v115) = val_main_v115 (F := F) ids := by
  after_results; rw [h]; rfl
set_option maxHeartbeats 2000000 in
theorem a_b21 (ids : (⟨S2x2048, .i32⟩ : BufTy).Contents (Elt F)) (h : V (Proc.devRef .tc main_v62) = val_main_v62 (F := F) ids) :
    after (stretchA (F := F)) V (Proc.devRef .tc main_v116) = val_main_v116 (F := F) ids := by
  after_results; rw [h]; rfl
set_option maxHeartbeats 2000000 in
theorem a_b22 (ids : (⟨S2x2048, .i32⟩ : BufTy).Contents (Elt F)) (h : V (Proc.devRef .tc main_v65) = val_main_v65 (F := F) ids) :
    after (stretchA (F := F)) V (Proc.devRef .tc main_v117) = val_main_v117 (F := F) ids := by
  after_results; rw [h]; rfl
set_option maxHeartbeats 2000000 in
theorem a_b23 (ids : (⟨S2x2048, .i32⟩ : BufTy).Contents (Elt F)) (h : V (Proc.devRef .tc main_v68) = val_main_v68 (F := F) ids) :
    after (stretchA (F := F)) V (Proc.devRef .tc main_v118) = val_main_v118 (F := F) ids := by
  after_results; rw [h]; rfl
set_option maxHeartbeats 2000000 in
theorem a_b24 (ids : (⟨S2x2048, .i32⟩ : BufTy).Contents (Elt F)) (h : V (Proc.devRef .tc main_v71) = val_main_v71 (F := F) ids) :
    after (stretchA (F := F)) V (Proc.devRef .tc main_v119) = val_main_v119 (F := F) ids := by
  after_results; rw [h]; rfl
set_option maxHeartbeats 2000000 in
theorem a_b25 (ids : (⟨S2x2048, .i32⟩ : BufTy).Contents (Elt F)) (h : V (Proc.devRef .tc main_v74) = val_main_v74 (F := F) ids) :
    after (stretchA (F := F)) V (Proc.devRef .tc main_v120) = val_main_v120 (F := F) ids := by
  after_results; rw [h]; rfl
set_option maxHeartbeats 2000000 in
theorem a_b26 (ids : (⟨S2x2048, .i32⟩ : BufTy).Contents (Elt F)) (h : V (Proc.devRef .tc main_v77) = val_main_v77 (F := F) ids) :
    after (stretchA (F := F)) V (Proc.devRef .tc main_v121) = val_main_v121 (F := F) ids := by
  after_results; rw [h]; rfl
set_option maxHeartbeats 2000000 in
theorem a_b27 (ids : (⟨S2x2048, .i32⟩ : BufTy).Contents (Elt F)) (h : V (Proc.devRef .tc main_v80) = val_main_v80 (F := F) ids) :
    after (stretchA (F := F)) V (Proc.devRef .tc main_v122) = val_main_v122 (F := F) ids := by
  after_results; rw [h]; rfl
set_option maxHeartbeats 2000000 in
theorem a_b28 (ids : (⟨S2x2048, .i32⟩ : BufTy).Contents (Elt F)) (h : V (Proc.devRef .tc main_v83) = val_main_v83 (F := F) ids) :
    after (stretchA (F := F)) V (Proc.devRef .tc main_v123) = val_main_v123 (F := F) ids := by
  after_results; rw [h]; rfl
set_option maxHeartbeats 2000000 in
theorem a_b29 (ids : (⟨S2x2048, .i32⟩ : BufTy).Contents (Elt F)) (h : V (Proc.devRef .tc main_v86) = val_main_v86 (F := F) ids) :
    after (stretchA (F := F)) V (Proc.devRef .tc main_v124) = val_main_v124 (F := F) ids := by
  after_results; rw [h]; rfl
set_option maxHeartbeats 2000000 in
theorem a_b30 (ids : (⟨S2x2048, .i32⟩ : BufTy).Contents (Elt F)) (h : V (Proc.devRef .tc main_v89) = val_main_v89 (F := F) ids) :
    after (stretchA (F := F)) V (Proc.devRef .tc main_v125) = val_main_v125 (F := F) ids := by
  after_results; rw [h]; rfl
set_option maxHeartbeats 2000000 in
theorem a_b31 (ids : (⟨S2x2048, .i32⟩ : BufTy).Contents (Elt F)) (h : V (Proc.devRef .tc main_arg1) = ids) :
    after (stretchA (F := F)) V (Proc.devRef .tc main_v126) = val_main_v126 (F := F) ids := by
  after_results; rw [h]; rfl
set_option maxHeartbeats 2000000 in
theorem a_b32 (ids : (⟨S2x2048, .i32⟩ : BufTy).Contents (Elt F)) (h : V (Proc.devRef .tc main_arg1) = ids) :
    after (stretchA (F := F)) V (Proc.devRef .tc main_v127) = val_main_v127 (F := F) ids := by
  after_results; rw [h]; rfl

set_option maxHeartbeats 4000000 in
theorem b1_v128 (ids : (⟨S2x2048, .i32⟩ : BufTy).Contents (Elt F))
    (h1 : V (Proc.devRef .tc main_v96) = val_main_v96 (F := F) ids)
    (h2 : V (Proc.devRef .tc main_v97) = val_main_v97 (F := F) ids)
    (h3 : V (Proc.devRef .tc main_v98) = val_main_v98 (F := F) ids)
    (h4 : V (Proc.devRef .tc main_v99) = val_main_v99 (F := F) ids)
    (h5 : V (Proc.devRef .tc main_v100) = val_main_v100 (F := F) ids)
    (h6 : V (Proc.devRef .tc main_v101) = val_main_v101 (F := F) ids)
    (h7 : V (Proc.devRef .tc main_v102) = val_main_v102 (F := F) ids)
    (h8 : V (Proc.devRef .tc main_v103) = val_main_v103 (F := F) ids)
    (h9 : V (Proc.devRef .tc main_v104) = val_main_v104 (F := F) ids)
    (h10 : V (Proc.devRef .tc main_v105) = val_main_v105 (F := F) ids)
    (h11 : V (Proc.devRef .tc main_v106) = val_main_v106 (F := F) ids)
    (h12 : V (Proc.devRef .tc main_v107) = val_main_v107 (F := F) ids)
    (h13 : V (Proc.devRef .tc main_v108) = val_main_v108 (F := F) ids)
    (h14 : V (Proc.devRef .tc main_v109) = val_main_v109 (F := F) ids)
    (h15 : V (Proc.devRef .tc main_v110) = val_main_v110 (F := F) ids)
    (h16 : V (Proc.devRef .tc main_v111) = val_main_v111 (F := F) ids) :
    after (stretchB1 (F := F)) V (Proc.devRef .tc main_v128) = val_main_v128 (F := F) ids := by
  simp only [after_cons, after_nil]
  rw [nary_result]
  show concatenate S2x2048x16 2 [⟨S2x2048x1, V (Proc.devRef .tc main_v96)⟩, ⟨S2x2048x1, V (Proc.devRef .tc main_v97)⟩, ⟨S2x2048x1, V (Proc.devRef .tc main_v98)⟩, ⟨S2x2048x1, V (Proc.devRef .tc main_v99)⟩, ⟨S2x2048x1, V (Proc.devRef .tc main_v100)⟩, ⟨S2x2048x1, V (Proc.devRef .tc main_v101)⟩, ⟨S2x2048x1, V (Proc.devRef .tc main_v102)⟩, ⟨S2x2048x1, V (Proc.devRef .tc main_v103)⟩, ⟨S2x2048x1, V (Proc.devRef .tc main_v104)⟩, ⟨S2x2048x1, V (Proc.devRef .tc main_v105)⟩, ⟨S2x2048x1, V (Proc.devRef .tc main_v106)⟩, ⟨S2x2048x1, V (Proc.devRef .tc main_v107)⟩, ⟨S2x2048x1, V (Proc.devRef .tc main_v108)⟩, ⟨S2x2048x1, V (Proc.devRef .tc main_v109)⟩, ⟨S2x2048x1, V (Proc.devRef .tc main_v110)⟩, ⟨S2x2048x1, V (Proc.devRef .tc main_v111)⟩] _ = _
  rw [h1, h2, h3, h4, h5, h6, h7, h8, h9, h10, h11, h12, h13, h14, h15, h16]
  rfl
theorem b1_k17 : after (stretchB1 (F := F)) V (Proc.devRef .tc main_v112) = V (Proc.devRef .tc main_v112) :=
  after_of_forall_not_mem (b := (Proc.devRef .tc main_v112)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k18 : after (stretchB1 (F := F)) V (Proc.devRef .tc main_v113) = V (Proc.devRef .tc main_v113) :=
  after_of_forall_not_mem (b := (Proc.devRef .tc main_v113)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k19 : after (stretchB1 (F := F)) V (Proc.devRef .tc main_v114) = V (Proc.devRef .tc main_v114) :=
  after_of_forall_not_mem (b := (Proc.devRef .tc main_v114)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k20 : after (stretchB1 (F := F)) V (Proc.devRef .tc main_v115) = V (Proc.devRef .tc main_v115) :=
  after_of_forall_not_mem (b := (Proc.devRef .tc main_v115)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k21 : after (stretchB1 (F := F)) V (Proc.devRef .tc main_v116) = V (Proc.devRef .tc main_v116) :=
  after_of_forall_not_mem (b := (Proc.devRef .tc main_v116)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k22 : after (stretchB1 (F := F)) V (Proc.devRef .tc main_v117) = V (Proc.devRef .tc main_v117) :=
  after_of_forall_not_mem (b := (Proc.devRef .tc main_v117)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k23 : after (stretchB1 (F := F)) V (Proc.devRef .tc main_v118) = V (Proc.devRef .tc main_v118) :=
  after_of_forall_not_mem (b := (Proc.devRef .tc main_v118)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k24 : after (stretchB1 (F := F)) V (Proc.devRef .tc main_v119) = V (Proc.devRef .tc main_v119) :=
  after_of_forall_not_mem (b := (Proc.devRef .tc main_v119)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k25 : after (stretchB1 (F := F)) V (Proc.devRef .tc main_v120) = V (Proc.devRef .tc main_v120) :=
  after_of_forall_not_mem (b := (Proc.devRef .tc main_v120)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k26 : after (stretchB1 (F := F)) V (Proc.devRef .tc main_v121) = V (Proc.devRef .tc main_v121) :=
  after_of_forall_not_mem (b := (Proc.devRef .tc main_v121)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k27 : after (stretchB1 (F := F)) V (Proc.devRef .tc main_v122) = V (Proc.devRef .tc main_v122) :=
  after_of_forall_not_mem (b := (Proc.devRef .tc main_v122)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k28 : after (stretchB1 (F := F)) V (Proc.devRef .tc main_v123) = V (Proc.devRef .tc main_v123) :=
  after_of_forall_not_mem (b := (Proc.devRef .tc main_v123)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k29 : after (stretchB1 (F := F)) V (Proc.devRef .tc main_v124) = V (Proc.devRef .tc main_v124) :=
  after_of_forall_not_mem (b := (Proc.devRef .tc main_v124)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k30 : after (stretchB1 (F := F)) V (Proc.devRef .tc main_v125) = V (Proc.devRef .tc main_v125) :=
  after_of_forall_not_mem (b := (Proc.devRef .tc main_v125)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k31 : after (stretchB1 (F := F)) V (Proc.devRef .tc main_v126) = V (Proc.devRef .tc main_v126) :=
  after_of_forall_not_mem (b := (Proc.devRef .tc main_v126)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))
theorem b1_k32 : after (stretchB1 (F := F)) V (Proc.devRef .tc main_v127) = V (Proc.devRef .tc main_v127) :=
  after_of_forall_not_mem (b := (Proc.devRef .tc main_v127)) _ _ (List.forall_iff_forall_mem.mp (by
    simp only [stretchB1, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))

set_option maxHeartbeats 4000000 in
theorem b2_v129 (ids : (⟨S2x2048, .i32⟩ : BufTy).Contents (Elt F))
    (h17 : V (Proc.devRef .tc main_v112) = val_main_v112 (F := F) ids)
    (h18 : V (Proc.devRef .tc main_v113) = val_main_v113 (F := F) ids)
    (h19 : V (Proc.devRef .tc main_v114) = val_main_v114 (F := F) ids)
    (h20 : V (Proc.devRef .tc main_v115) = val_main_v115 (F := F) ids)
    (h21 : V (Proc.devRef .tc main_v116) = val_main_v116 (F := F) ids)
    (h22 : V (Proc.devRef .tc main_v117) = val_main_v117 (F := F) ids)
    (h23 : V (Proc.devRef .tc main_v118) = val_main_v118 (F := F) ids)
    (h24 : V (Proc.devRef .tc main_v119) = val_main_v119 (F := F) ids)
    (h25 : V (Proc.devRef .tc main_v120) = val_main_v120 (F := F) ids)
    (h26 : V (Proc.devRef .tc main_v121) = val_main_v121 (F := F) ids)
    (h27 : V (Proc.devRef .tc main_v122) = val_main_v122 (F := F) ids)
    (h28 : V (Proc.devRef .tc main_v123) = val_main_v123 (F := F) ids)
    (h29 : V (Proc.devRef .tc main_v124) = val_main_v124 (F := F) ids)
    (h30 : V (Proc.devRef .tc main_v125) = val_main_v125 (F := F) ids)
    (h31 : V (Proc.devRef .tc main_v126) = val_main_v126 (F := F) ids)
    (h32 : V (Proc.devRef .tc main_v127) = val_main_v127 (F := F) ids) :
    after (stretchB2 (F := F)) V (Proc.devRef .tc main_v129) = val_main_v129 (F := F) ids := by
  simp only [after_cons, after_nil]
  rw [nary_result]
  show concatenate S2x2048x16 2 [⟨S2x2048x1, V (Proc.devRef .tc main_v112)⟩, ⟨S2x2048x1, V (Proc.devRef .tc main_v113)⟩, ⟨S2x2048x1, V (Proc.devRef .tc main_v114)⟩, ⟨S2x2048x1, V (Proc.devRef .tc main_v115)⟩, ⟨S2x2048x1, V (Proc.devRef .tc main_v116)⟩, ⟨S2x2048x1, V (Proc.devRef .tc main_v117)⟩, ⟨S2x2048x1, V (Proc.devRef .tc main_v118)⟩, ⟨S2x2048x1, V (Proc.devRef .tc main_v119)⟩, ⟨S2x2048x1, V (Proc.devRef .tc main_v120)⟩, ⟨S2x2048x1, V (Proc.devRef .tc main_v121)⟩, ⟨S2x2048x1, V (Proc.devRef .tc main_v122)⟩, ⟨S2x2048x1, V (Proc.devRef .tc main_v123)⟩, ⟨S2x2048x1, V (Proc.devRef .tc main_v124)⟩, ⟨S2x2048x1, V (Proc.devRef .tc main_v125)⟩, ⟨S2x2048x1, V (Proc.devRef .tc main_v126)⟩, ⟨S2x2048x1, V (Proc.devRef .tc main_v127)⟩] _ = _
  rw [h17, h18, h19, h20, h21, h22, h23, h24, h25, h26, h27, h28, h29, h30, h31, h32]
  rfl
theorem b2_k128 : after (stretchB2 (F := F)) V (Proc.devRef .tc main_v128) = V (Proc.devRef .tc main_v128) :=
  after_of_forall_not_mem (b := (Proc.devRef .tc main_v128)) _ _ (List.forall_iff_forall_mem.mp (by
    simp only [stretchB2, List.Forall, nullary_writes, unary_writes, binary_writes, ternary_writes, quaternary_writes, reshape_writes, binaryIndexed_writes, nary_writes, Finset.mem_singleton]
    first | exact devRef_ne_of_ne (by decide) | (repeat' apply And.intro; all_goals exact devRef_ne_of_ne (by decide))))

set_option maxHeartbeats 2000000 in
theorem d_v130 (ids : (⟨S2x2048, .i32⟩ : BufTy).Contents (Elt F))
    (h128 : V (Proc.devRef .tc main_v128) = val_main_v128 (F := F) ids) (h129 : V (Proc.devRef .tc main_v129) = val_main_v129 (F := F) ids) :
    after (stretchD (F := F)) V (Proc.devRef .tc main_v130) = val_main_v130 (F := F) ids := by
  after_results; rw [h128, h129]; rfl
set_option maxHeartbeats 2000000 in
theorem d_v134 : after (stretchD (F := F)) V (Proc.devRef .tc main_v134) = val_main_v134 (F := F) := by
  after_results <;> rfl
set_option maxHeartbeats 2000000 in
theorem d_v135 : after (stretchD (F := F)) V (Proc.devRef .tc main_v135) = val_main_v135 (F := F) := by
  after_results <;> rfl
set_option maxHeartbeats 2000000 in
theorem d_v140 : after (stretchD (F := F)) V (Proc.devRef .tc main_v140) = val_main_v140 (F := F) := by
  after_results <;> rfl
set_option maxHeartbeats 2000000 in
theorem d_v142 : after (stretchD (F := F)) V (Proc.devRef .tc main_v142) = val_main_v142 (F := F) := by
  after_results <;> rfl
set_option maxHeartbeats 2000000 in
theorem d_c_35 : after (stretchD (F := F)) V (Proc.devRef .tc main_c_35) = val_main_c_35 (F := F) := by
  after_results <;> rfl

/-- The whole window: with the thirty copies of the earlier windows in place, the stacked array is its stage. -/
theorem w2_v130 (ids : (⟨S2x2048, .i32⟩ : BufTy).Contents (Elt F))
    (h1 : V (Proc.devRef .tc main_v2) = val_main_v2 (F := F) ids)
    (h2 : V (Proc.devRef .tc main_v5) = val_main_v5 (F := F) ids)
    (h3 : V (Proc.devRef .tc main_v8) = val_main_v8 (F := F) ids)
    (h4 : V (Proc.devRef .tc main_v11) = val_main_v11 (F := F) ids)
    (h5 : V (Proc.devRef .tc main_v14) = val_main_v14 (F := F) ids)
    (h6 : V (Proc.devRef .tc main_v17) = val_main_v17 (F := F) ids)
    (h7 : V (Proc.devRef .tc main_v20) = val_main_v20 (F := F) ids)
    (h8 : V (Proc.devRef .tc main_v23) = val_main_v23 (F := F) ids)
    (h9 : V (Proc.devRef .tc main_v26) = val_main_v26 (F := F) ids)
    (h10 : V (Proc.devRef .tc main_v29) = val_main_v29 (F := F) ids)
    (h11 : V (Proc.devRef .tc main_v32) = val_main_v32 (F := F) ids)
    (h12 : V (Proc.devRef .tc main_v35) = val_main_v35 (F := F) ids)
    (h13 : V (Proc.devRef .tc main_v38) = val_main_v38 (F := F) ids)
    (h14 : V (Proc.devRef .tc main_v41) = val_main_v41 (F := F) ids)
    (h15 : V (Proc.devRef .tc main_v44) = val_main_v44 (F := F) ids)
    (h16 : V (Proc.devRef .tc main_v47) = val_main_v47 (F := F) ids)
    (h17 : V (Proc.devRef .tc main_v50) = val_main_v50 (F := F) ids)
    (h18 : V (Proc.devRef .tc main_v53) = val_main_v53 (F := F) ids)
    (h19 : V (Proc.devRef .tc main_v56) = val_main_v56 (F := F) ids)
    (h20 : V (Proc.devRef .tc main_v59) = val_main_v59 (F := F) ids)
    (h21 : V (Proc.devRef .tc main_v62) = val_main_v62 (F := F) ids)
    (h22 : V (Proc.devRef .tc main_v65) = val_main_v65 (F := F) ids)
    (h23 : V (Proc.devRef .tc main_v68) = val_main_v68 (F := F) ids)
    (h24 : V (Proc.devRef .tc main_v71) = val_main_v71 (F := F) ids)
    (h25 : V (Proc.devRef .tc main_v74) = val_main_v74 (F := F) ids)
    (h26 : V (Proc.devRef .tc main_v77) = val_main_v77 (F := F) ids)
    (h27 : V (Proc.devRef .tc main_v80) = val_main_v80 (F := F) ids)
    (h28 : V (Proc.devRef .tc main_v83) = val_main_v83 (F := F) ids)
    (h29 : V (Proc.devRef .tc main_v86) = val_main_v86 (F := F) ids)
    (h30 : V (Proc.devRef .tc main_v89) = val_main_v89 (F := F) ids)
    (harg : V (Proc.devRef .tc main_arg1) = ids) :
    after (ops_part2 (F := F)) V (Proc.devRef .tc main_v130) = val_main_v130 (F := F) ids := by
  rw [after_part2]
  refine d_v130 _ ids ((b2_k128 _).trans (b1_v128 _ ids
      (a_b1 V ids h1)
      (a_b2 V ids h2)
      (a_b3 V ids h3)
      (a_b4 V ids h4)
      (a_b5 V ids h5)
      (a_b6 V ids h6)
      (a_b7 V ids h7)
      (a_b8 V ids h8)
      (a_b9 V ids h9)
      (a_b10 V ids h10)
      (a_b11 V ids h11)
      (a_b12 V ids h12)
      (a_b13 V ids h13)
      (a_b14 V ids h14)
      (a_b15 V ids h15)
      (a_b16 V ids h16))) (b2_v129 _ ids
      ((b1_k17 _).trans (a_b17 V ids h17))
      ((b1_k18 _).trans (a_b18 V ids h18))
      ((b1_k19 _).trans (a_b19 V ids h19))
      ((b1_k20 _).trans (a_b20 V ids h20))
      ((b1_k21 _).trans (a_b21 V ids h21))
      ((b1_k22 _).trans (a_b22 V ids h22))
      ((b1_k23 _).trans (a_b23 V ids h23))
      ((b1_k24 _).trans (a_b24 V ids h24))
      ((b1_k25 _).trans (a_b25 V ids h25))
      ((b1_k26 _).trans (a_b26 V ids h26))
      ((b1_k27 _).trans (a_b27 V ids h27))
      ((b1_k28 _).trans (a_b28 V ids h28))
      ((b1_k29 _).trans (a_b29 V ids h29))
      ((b1_k30 _).trans (a_b30 V ids h30))
      ((b1_k31 _).trans (a_b31 V ids harg))
      ((b1_k32 _).trans (a_b32 V ids harg)))

theorem w2_v134 : after (ops_part2 (F := F)) V (Proc.devRef .tc main_v134) = val_main_v134 (F := F) := by
  rw [after_part2]; exact d_v134 _
theorem w2_v135 : after (ops_part2 (F := F)) V (Proc.devRef .tc main_v135) = val_main_v135 (F := F) := by
  rw [after_part2]; exact d_v135 _
theorem w2_v140 : after (ops_part2 (F := F)) V (Proc.devRef .tc main_v140) = val_main_v140 (F := F) := by
  rw [after_part2]; exact d_v140 _
theorem w2_v142 : after (ops_part2 (F := F)) V (Proc.devRef .tc main_v142) = val_main_v142 (F := F) := by
  rw [after_part2]; exact d_v142 _
theorem w2_c_35 : after (ops_part2 (F := F)) V (Proc.devRef .tc main_c_35) = val_main_c_35 (F := F) := by
  rw [after_part2]; exact d_c_35 _

end Cert.ReferenceIdeal.RunH

end
-- ==== Proof.RefRunB.lean ====
/-
  The reference program's run, second half: its last window read in stretches, the four windows put in a row, and the
  run itself — every weakly fair execution of @main terminates with the result buffer at the last stage of the two
  arguments, which no operation writes.
-/
import proofs.«400046_j37288906064558_2_alg».proof.Proof.RefRunA
import Idealize.ShloMosaic.Lib.StableHlo.Run
import Idealize.ShloMosaic.Lib.Pipeline.Frame

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (V : Valuation τ sig (Elt F))

/-! ## Window 3: the index vectors, the scatter, the quotient, the select

Again in stretches, the three-way concatenation of the index components standing alone. -/

set_option maxHeartbeats 40000000 in
/-- Operations 181 … 195: the three index components, normalised and given a trailing unit axis. -/
abbrev stretchE : List (HloOp τ sig (Elt F)) :=
  ( unary main_c_35 main_v143 (broadcastInDim S1x2048x1 ![] bcast_S_S1x2048x1 : (⟨S_, .i32⟩ : BufTy).Contents (Elt F) → (⟨S1x2048x1, .i32⟩ : BufTy).Contents (Elt F))
  :: binary main_v134 main_v143 main_v144 (addi : (⟨S1x2048x1, .i32⟩ : BufTy).Contents (Elt F) → (⟨S1x2048x1, .i32⟩ : BufTy).Contents (Elt F) → (⟨S1x2048x1, .i32⟩ : BufTy).Contents (Elt F))
  :: ternary main_v142 main_v144 main_v134 main_v145 (select : (⟨S1x2048x1, .i1⟩ : BufTy).Contents (Elt F) → (⟨S1x2048x1, .i32⟩ : BufTy).Contents (Elt F) → (⟨S1x2048x1, .i32⟩ : BufTy).Contents (Elt F) → (⟨S1x2048x1, .i32⟩ : BufTy).Contents (Elt F))
  :: nullary main_c_36 (constantI S_ 32 0#32)
  :: unary main_c_36 main_v146 (broadcastInDim S2x2048x32 ![] bcast_S_S2x2048x32 : (⟨S_, .i32⟩ : BufTy).Contents (Elt F) → (⟨S2x2048x32, .i32⟩ : BufTy).Contents (Elt F))
  :: binary main_v130 main_v146 main_v147 (cmpi .slt : (⟨S2x2048x32, .i32⟩ : BufTy).Contents (Elt F) → (⟨S2x2048x32, .i32⟩ : BufTy).Contents (Elt F) → (⟨S2x2048x32, .i1⟩ : BufTy).Contents (Elt F))
  :: nullary main_c_37 (constantI S_ 32 32000#32)
  :: unary main_c_37 main_v148 (broadcastInDim S2x2048x32 ![] bcast_S_S2x2048x32 : (⟨S_, .i32⟩ : BufTy).Contents (Elt F) → (⟨S2x2048x32, .i32⟩ : BufTy).Contents (Elt F))
  :: binary main_v130 main_v148 main_v149 (addi : (⟨S2x2048x32, .i32⟩ : BufTy).Contents (Elt F) → (⟨S2x2048x32, .i32⟩ : BufTy).Contents (Elt F) → (⟨S2x2048x32, .i32⟩ : BufTy).Contents (Elt F))
  :: ternary main_v147 main_v149 main_v130 main_v150 (select : (⟨S2x2048x32, .i1⟩ : BufTy).Contents (Elt F) → (⟨S2x2048x32, .i32⟩ : BufTy).Contents (Elt F) → (⟨S2x2048x32, .i32⟩ : BufTy).Contents (Elt F) → (⟨S2x2048x32, .i32⟩ : BufTy).Contents (Elt F))
  :: unary main_v140 main_v151 (broadcastInDim S2x2048x32 ![0, 1, 2] bcast_S2x1x1_S2x2048x32_0_1_2 : (⟨S2x1x1, .i32⟩ : BufTy).Contents (Elt F) → (⟨S2x2048x32, .i32⟩ : BufTy).Contents (Elt F))
  :: unary main_v145 main_v152 (broadcastInDim S2x2048x32 ![0, 1, 2] bcast_S1x2048x1_S2x2048x32_0_1_2 : (⟨S1x2048x1, .i32⟩ : BufTy).Contents (Elt F) → (⟨S2x2048x32, .i32⟩ : BufTy).Contents (Elt F))
  :: unary main_v151 main_v153 (broadcastInDim S2x2048x32x1 ![0, 1, 2] bcast_S2x2048x32_S2x2048x32x1_0_1_2 : (⟨S2x2048x32, .i32⟩ : BufTy).Contents (Elt F) → (⟨S2x2048x32x1, .i32⟩ : BufTy).Contents (Elt F))
  :: unary main_v152 main_v154 (broadcastInDim S2x2048x32x1 ![0, 1, 2] bcast_S2x2048x32_S2x2048x32x1_0_1_2 : (⟨S2x2048x32, .i32⟩ : BufTy).Contents (Elt F) → (⟨S2x2048x32x1, .i32⟩ : BufTy).Contents (Elt F))
  :: unary main_v150 main_v155 (broadcastInDim S2x2048x32x1 ![0, 1, 2] bcast_S2x2048x32_S2x2048x32x1_0_1_2 : (⟨S2x2048x32, .i32⟩ : BufTy).Contents (Elt F) → (⟨S2x2048x32x1, .i32⟩ : BufTy).Contents (Elt F))
  :: [] )
/-- Operation 196: the three components side by side. -/
abbrev stretchG : List (HloOp τ sig (Elt F)) :=
  ( nary ![main_v153, main_v154, main_v155] main_v156 (fun u => concatenate S2x2048x32x3 3 [⟨S2x2048x32x1, u 0⟩, ⟨S2x2048x32x1, u 1⟩, ⟨S2x2048x32x1, u 2⟩] concatenates_S2x2048x32x1_S2x2048x32x1_S2x2048x32x1_S2x2048x32x3_d3)
  :: [] )
/-- Operations 197 … 203: the scatter of `true`, the quotient by the penalty, the select. -/
abbrev stretchH : List (HloOp τ sig (Elt F)) :=
  ( nullary main_c_38 (constantI S_ 1 1#1)
  :: unary main_c_38 main_v157 (broadcastInDim S2x2048x32 ![] bcast_S_S2x2048x32 : (⟨S_, .i1⟩ : BufTy).Contents (Elt F) → (⟨S2x2048x32, .i1⟩ : BufTy).Contents (Elt F))
  :: ternary main_v135 main_v156 main_v157 main_v158 ((fun x i u => Host.scatter scatter_S2x2048x32000_S2x2048x32x3_S2x2048x32_n_012_012_3 (fun _ b => b) x i u) : (⟨S2x2048x32000, .i1⟩ : BufTy).Contents (Elt F) → (⟨S2x2048x32x3, .i32⟩ : BufTy).Contents (Elt F) → (⟨S2x2048x32, .i1⟩ : BufTy).Contents (Elt F) → (⟨S2x2048x32000, .i1⟩ : BufTy).Contents (Elt F))
  :: nullary main_cst (constant S_ .f32 0x3F99999A#32)
  :: unary main_cst main_v159 (broadcastInDim S2x2048x32000 ![] bcast_S_S2x2048x32000 : (⟨S_, .f32⟩ : BufTy).Contents (Elt F) → (⟨S2x2048x32000, .f32⟩ : BufTy).Contents (Elt F))
  :: binary main_arg0 main_v159 main_v160 (Host.divf : (⟨S2x2048x32000, .f32⟩ : BufTy).Contents (Elt F) → (⟨S2x2048x32000, .f32⟩ : BufTy).Contents (Elt F) → (⟨S2x2048x32000, .f32⟩ : BufTy).Contents (Elt F))
  :: TRef.ternary (TRef.of (T := ⟨S2x2048x32000, .i1⟩) main_v158) (TRef.of (T := ⟨S2x2048x32000, .f32⟩) main_v160) (TRef.of (T := ⟨S2x2048x32000, .f32⟩) main_arg0) (TRef.of (T := ⟨S2x2048x32000, .f32⟩) main_v161) select
  :: [] )

set_option maxRecDepth 65536 in
set_option maxHeartbeats 4000000 in
theorem part3_split : (ops_part3 (F := F)) = stretchE ++ (stretchG ++ stretchH) := rfl

theorem after_part3 (X : Valuation τ sig (Elt F)) :
    after (ops_part3 (F := F)) X = after stretchH (after stretchG (after stretchE X)) := by
  rw [part3_split, StableHlo.after_append, StableHlo.after_append]

set_option maxHeartbeats 2000000 in
theorem e_v153 (h140 : V (Proc.devRef .tc main_v140) = val_main_v140 (F := F)) :
    after (stretchE (F := F)) V (Proc.devRef .tc main_v153) = val_main_v153 (F := F) := by
  after_results; rw [h140]; rfl
set_option maxHeartbeats 2000000 in
theorem e_v154 (h134 : V (Proc.devRef .tc main_v134) = val_main_v134 (F := F)) (h142 : V (Proc.devRef .tc main_v142) = val_main_v142 (F := F))
    (hc35 : V (Proc.devRef .tc main_c_35) = val_main_c_35 (F := F)) :
    after (stretchE (F := F)) V (Proc.devRef .tc main_v154) = val_main_v154 (F := F) := by
  after_results; rw [h134, h142, hc35]; rfl
set_option maxHeartbeats 2000000 in
theorem e_v155 (ids : (⟨S2x2048, .i32⟩ : BufTy).Contents (Elt F)) (h130 : V (Proc.devRef .tc main_v130) = val_main_v130 (F := F) ids) :
    after (stretchE (F := F)) V (Proc.devRef .tc main_v155) = val_main_v155 (F := F) ids := by
  after_results; rw [h130]; rfl
theorem e_k135 : after (stretchE (F := F)) V (Proc.devRef .tc main_v135) = V (Proc.devRef .tc main_v135) :=
  after_of_forall_not_mem (b := (Proc.devRef .tc main_v135)) _ _ (List.forall_iff_forall_mem.mp (by
    simp only [stretchE, List.Forall, nullary_writes, unary_writes, binary_writes, ternary_writes, quaternary_writes, reshape_writes, binaryIndexed_writes, nary_writes, Finset.mem_singleton]
    repeat' apply And.intro
    all_goals exact devRef_ne_of_ne (by decide)))
theorem e_karg0 : after (stretchE (F := F)) V (Proc.devRef .tc main_arg0) = V (Proc.devRef .tc main_arg0) :=
  after_of_forall_not_mem (b := (Proc.devRef .tc main_arg0)) _ _ (List.forall_iff_forall_mem.mp (by
    simp only [stretchE, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 2000000 in
theorem g_v156 (ids : (⟨S2x2048, .i32⟩ : BufTy).Contents (Elt F)) (h153 : V (Proc.devRef .tc main_v153) = val_main_v153 (F := F))
    (h154 : V (Proc.devRef .tc main_v154) = val_main_v154 (F := F)) (h155 : V (Proc.devRef .tc main_v155) = val_main_v155 (F := F) ids) :
    after (stretchG (F := F)) V (Proc.devRef .tc main_v156) = val_main_v156 (F := F) ids := by
  simp only [after_cons, after_nil]
  rw [nary_result]
  show concatenate S2x2048x32x3 3 [⟨S2x2048x32x1, V (Proc.devRef .tc main_v153)⟩, ⟨S2x2048x32x1, V (Proc.devRef .tc main_v154)⟩, ⟨S2x2048x32x1, V (Proc.devRef .tc main_v155)⟩] _ = _
  rw [h153, h154, h155]
  rfl
theorem g_k135 : after (stretchG (F := F)) V (Proc.devRef .tc main_v135) = V (Proc.devRef .tc main_v135) :=
  after_of_forall_not_mem (b := (Proc.devRef .tc main_v135)) _ _ (List.forall_iff_forall_mem.mp (by
    simp only [stretchG, List.Forall, nullary_writes, unary_writes, binary_writes, ternary_writes, quaternary_writes, reshape_writes, binaryIndexed_writes, nary_writes, Finset.mem_singleton]
    repeat' apply And.intro
    all_goals exact devRef_ne_of_ne (by decide)))
theorem g_karg0 : after (stretchG (F := F)) V (Proc.devRef .tc main_arg0) = V (Proc.devRef .tc main_arg0) :=
  after_of_forall_not_mem (b := (Proc.devRef .tc main_arg0)) _ _ (List.forall_iff_forall_mem.mp (by
    simp only [stretchG, List.Forall, nullary_writes, unary_writes, binary_writes, ternary_writes, quaternary_writes, reshape_writes, binaryIndexed_writes, nary_writes, Finset.mem_singleton]
    repeat' apply And.intro
    all_goals exact devRef_ne_of_ne (by decide)))

set_option maxHeartbeats 4000000 in
theorem h_v161 (x0 : (⟨S2x2048x32000, .f32⟩ : BufTy).Contents (Elt F)) (ids : (⟨S2x2048, .i32⟩ : BufTy).Contents (Elt F))
    (h156 : V (Proc.devRef .tc main_v156) = val_main_v156 (F := F) ids) (h135 : V (Proc.devRef .tc main_v135) = val_main_v135 (F := F))
    (harg0 : V (Proc.devRef .tc main_arg0) = x0) :
    after (stretchH (F := F)) V (Proc.devRef .tc main_v161) = val_main_v161 (F := F) x0 ids := by
  after_results
  simp only [TRef.ofBuf, TRef.toBuf, cast_eq]
  rw [h156, h135, harg0]
  rfl

/-- The whole window. -/
theorem w3_v161 (x0 : (⟨S2x2048x32000, .f32⟩ : BufTy).Contents (Elt F)) (ids : (⟨S2x2048, .i32⟩ : BufTy).Contents (Elt F))
    (h130 : V (Proc.devRef .tc main_v130) = val_main_v130 (F := F) ids) (h134 : V (Proc.devRef .tc main_v134) = val_main_v134 (F := F))
    (h135 : V (Proc.devRef .tc main_v135) = val_main_v135 (F := F)) (h140 : V (Proc.devRef .tc main_v140) = val_main_v140 (F := F))
    (h142 : V (Proc.devRef .tc main_v142) = val_main_v142 (F := F)) (hc35 : V (Proc.devRef .tc main_c_35) = val_main_c_35 (F := F))
    (harg0 : V (Proc.devRef .tc main_arg0) = x0) :
    after (ops_part3 (F := F)) V (Proc.devRef .tc main_v161) = val_main_v161 (F := F) x0 ids := by
  rw [after_part3]
  exact h_v161 _ x0 ids
    (g_v156 _ ids (e_v153 V h140) (e_v154 V h134 h142 hc35) (e_v155 V ids h130))
    ((g_k135 _).trans ((e_k135 V).trans h135))
    ((g_karg0 _).trans ((e_karg0 V).trans harg0))

/-! ## The four windows in a row -/

variable (L : Valuation τ sig (Elt F))

theorem arg0_kept : after (ops (F := F)) L (Proc.devRef .tc main_arg0) = L (Proc.devRef .tc main_arg0) := by
  simp only [ops, StableHlo.after_append]
  rw [w3_arg0, w2_arg0, w1_arg0, w0_arg0]

theorem arg1_kept : after (ops (F := F)) L (Proc.devRef .tc main_arg1) = L (Proc.devRef .tc main_arg1) := by
  simp only [ops, StableHlo.after_append]
  rw [w3_arg1, w2_arg1, w1_arg1, w0_arg1]

/-- After all 203 operations the result buffer holds the last stage of the two arguments. -/
theorem value : after (ops (F := F)) L (Proc.devRef .tc main_v161)
    = val_main_v161 (F := F) (L (Proc.devRef .tc main_arg0)) (L (Proc.devRef .tc main_arg1)) := by
  simp only [ops, StableHlo.after_append]
  refine w3_v161 _ _ _ ?_ (w2_v134 _) (w2_v135 _) (w2_v140 _) (w2_v142 _) (w2_c_35 _) ?_
  · refine w2_v130 _ _
      ((w1_k1 _).trans (w0_s1 L))
      ((w1_k2 _).trans (w0_s2 L))
      ((w1_k3 _).trans (w0_s3 L))
      ((w1_k4 _).trans (w0_s4 L))
      ((w1_k5 _).trans (w0_s5 L))
      ((w1_k6 _).trans (w0_s6 L))
      ((w1_k7 _).trans (w0_s7 L))
      ((w1_k8 _).trans (w0_s8 L))
      ((w1_k9 _).trans (w0_s9 L))
      ((w1_k10 _).trans (w0_s10 L))
      ((w1_k11 _).trans (w0_s11 L))
      ((w1_k12 _).trans (w0_s12 L))
      ((w1_k13 _).trans (w0_s13 L))
      ((w1_k14 _).trans (w0_s14 L))
      ((w1_k15 _).trans (w0_s15 L))
      ((w1_s16 _).trans (congrArg _ (w0_arg1 L)))
      ((w1_s17 _).trans (congrArg _ (w0_arg1 L)))
      ((w1_s18 _).trans (congrArg _ (w0_arg1 L)))
      ((w1_s19 _).trans (congrArg _ (w0_arg1 L)))
      ((w1_s20 _).trans (congrArg _ (w0_arg1 L)))
      ((w1_s21 _).trans (congrArg _ (w0_arg1 L)))
      ((w1_s22 _).trans (congrArg _ (w0_arg1 L)))
      ((w1_s23 _).trans (congrArg _ (w0_arg1 L)))
      ((w1_s24 _).trans (congrArg _ (w0_arg1 L)))
      ((w1_s25 _).trans (congrArg _ (w0_arg1 L)))
      ((w1_s26 _).trans (congrArg _ (w0_arg1 L)))
      ((w1_s27 _).trans (congrArg _ (w0_arg1 L)))
      ((w1_s28 _).trans (congrArg _ (w0_arg1 L)))
      ((w1_s29 _).trans (congrArg _ (w0_arg1 L)))
      ((w1_s30 _).trans (congrArg _ (w0_arg1 L)))
      ((w1_arg1 _).trans (w0_arg1 L))
  · rw [w2_arg0, w1_arg0, w0_arg0]

/-! ## The run -/

/-- On every device, from any memory with zero counters: every weakly fair execution of @main terminates with the result
    at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
          = val_main_v161 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v161).trans (value _), (h c main_arg0).trans (arg0_kept _), (h c main_arg1).trans (arg1_kept _)⟩)
    (run_seq scopedRefs_eq scopedSems_eq defs main (fun _ => ops) main_eq (fun _ => ops_sub) m ρ (fun _ => ops_fresh))

end Cert.ReferenceIdeal.RunH

end
-- ==== Proof.FrameK.lean ====
/-
  The frame of `Kernel`'s @main, written out for a program whose one pallas_call sits between a long stretch of
  host operations (the 32 shifted copies of the token ids, stacked and flattened to [4096, 32]) and one closing
  reshape. The kernel body reads two whole input blocks — a [512, 32] block of shifted ids and a [512, 3200] block
  of logits — and stores one whole [512, 3200] output block; it keeps nothing between grid points. So after the body
  the output's staging buffer holds the one stored value, a pure function of the two input blocks and of the grid
  point (the column offset of the block enters the comparison against the ids), and the pipeline's proof data can
  name every buffer exactly. The run is then the library's launch theorem for a region with host lines after it.
-/
import proofs.«400046_j37288906064558_2_alg».proof.Proof.Gen.Kernel.Launch
import proofs.«400046_j37288906064558_2_alg».proof.Proof.Gen.Kernel.Skeleton
import proofs.«400046_j37288906064558_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` when the region is entered: the launch memory after the host operations
    that come before the region. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the pipeline's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays are written by no host line -/

/-- No host operation before the region writes the logits argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the token ids. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The closing reshape does not write the logits argument either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor the token ids. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ids window's current staging buffer holds its block at every point: where the point fetches it, because it was
    just fetched; where it does not (the block index depends on the row tile only), because the body left it there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the logits window, fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run that ends with every buffer outside the pipeline as the closing reshape leaves it ends, in particular, with
    both argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's accesses -/

/-- The whole [512, 32] block of shifted ids. -/
abbrev rIds : Rect S512x32 := Rect.unit (s := S512x32) ![0, 0] S512x32.size inb_S512x32_S512x32_0_0
/-- The whole [512, 3200] block of logits (and of the output). -/
abbrev rBlk : Rect S512x3200 := Rect.unit (s := S512x3200) ![0, 0] S512x3200.size inb_S512x3200_S512x3200_0_0

/-! ## What the body leaves in the output window's buffer -/

/-- The output block after the body at grid coordinates `i`: the one stored value, computed from the loaded ids block
    `w` and the loaded logits block `x`. The column offset `3200 · i₁` enters through the first payload. -/
def outBlk (i : grid0.Coords) (w : Vec F S512x32 .i32) (x : Vec F S512x3200 .f32) : Vec F S512x3200 .f32 :=
  View.canon [⟨rBlk, k0_pay1 (k0_pay2 i) (k0_pay3 (View.ld w rIds))
    (k0_pay6 (k0_pay2 i) (k0_pay3 (View.ld w rIds)) (k0_pay4 i (View.ld w rIds)) (k0_pay5 (View.ld w rIds)))
    (k0_pay7 (k0_pay3 (View.ld w rIds))) (View.ld x rBlk)⟩]

/-- The one store covers the buffer. -/
theorem cover_out (p0 : Vec F S512x3200 .f32) (y : S512x3200.Idx) :
    ∃ pc ∈ ([⟨rBlk, p0⟩] : List (View.Piece (Elt F) S512x3200 .f32)), y ∈ pc.1.set :=
  View.cover_of_tiled [⟨rBlk, p0⟩] S512x3200.size (by rfl) y

/-! ## The body's triple -/

set_option maxHeartbeats 4000000 in
/-- The kernel body on whole staging memrefs — the two inputs' at contents `w`, `x`, the output's at anything — runs
    to the continuation with the inputs' as they were and the output's at `outBlk i w x`. -/
theorem sound_kernel (c : Dev nD) (E : Set ℕ) (i : grid0.Coords) (arg2 : Memref sig .tc .vmem S512x32 .i32) (harg2 : arg2.IsWhole)
    (arg3 : Memref sig .tc .vmem S512x3200 .f32) (harg3 : arg3.IsWhole) (arg4 : Memref sig .tc .vmem S512x3200 .f32) (harg4 : arg4.IsWhole)
    (w : Vec F S512x32 .i32) (x : Vec F S512x3200 .f32) (K : PUnit → sProp 𝕄) :
    iprop(owns (c : Thread nD τ) arg2 fullShare w ∗ owns (c : Thread nD τ) arg3 fullShare x ∗ (∃ d, owns (c : Thread nD τ) arg4 fullShare d)
        ∗ (iprop(owns (c : Thread nD τ) arg2 fullShare w ∗ owns (c : Thread nD τ) arg3 fullShare x ∗ owns (c : Thread nD τ) arg4 fullShare (outBlk i w x)) -∗ K ⟨⟩))
      ⊢ wp frame (wpE (defs₀ (F := F)) Variants.none c none) E (cc0__dampen_kernel i arg2 harg2 arg3 harg3 arg4 harg4) K := by
  simp only [cc0__dampen_kernel_eq_skeleton]; unfold cc0__dampen_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them; after the body at point `t`
    each input's buffer at its block and the output's at `outBlk` of the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `Kernel`, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.FrameKI.lean ====
/-
  The frame of `KernelIdeal`'s @main, written out for a program whose one pallas_call sits between a long stretch of
  host operations (the 32 shifted copies of the token ids, stacked and flattened to [4096, 32]) and one closing
  reshape. The kernel body reads two whole input blocks — a [512, 32] block of shifted ids and a [512, 3200] block
  of logits — and stores one whole [512, 3200] output block; it keeps nothing between grid points. So after the body
  the output's staging buffer holds the one stored value, a pure function of the two input blocks and of the grid
  point (the column offset of the block enters the comparison against the ids), and the pipeline's proof data can
  name every buffer exactly. The run is then the library's launch theorem for a region with host lines after it.
-/
import proofs.«400046_j37288906064558_2_alg».proof.Proof.Gen.KernelIdeal.Launch
import proofs.«400046_j37288906064558_2_alg».proof.Proof.Gen.KernelIdeal.Skeleton
import proofs.«400046_j37288906064558_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` when the region is entered: the launch memory after the host operations
    that come before the region. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The closing reshape touches only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the pipeline's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The argument arrays are written by no host line -/

/-- No host operation before the region writes the logits argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor the token ids. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The closing reshape does not write the logits argument either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nor the token ids. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ids window's current staging buffer holds its block at every point: where the point fetches it, because it was
    just fetched; where it does not (the block index depends on the row tile only), because the body left it there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the logits window, fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run that ends with every buffer outside the pipeline as the closing reshape leaves it ends, in particular, with
    both argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's accesses -/

/-- The whole [512, 32] block of shifted ids. -/
abbrev rIds : Rect S512x32 := Rect.unit (s := S512x32) ![0, 0] S512x32.size inb_S512x32_S512x32_0_0
/-- The whole [512, 3200] block of logits (and of the output). -/
abbrev rBlk : Rect S512x3200 := Rect.unit (s := S512x3200) ![0, 0] S512x3200.size inb_S512x3200_S512x3200_0_0

/-! ## What the body leaves in the output window's buffer -/

/-- The output block after the body at grid coordinates `i`: the one stored value, computed from the loaded ids block
    `w` and the loaded logits block `x`. The column offset `3200 · i₁` enters through the first payload. -/
def outBlk (i : grid0.Coords) (w : Vec F S512x32 .i32) (x : Vec F S512x3200 .f32) : Vec F S512x3200 .f32 :=
  View.canon [⟨rBlk, k0_pay1 (k0_pay2 i) (k0_pay3 (View.ld w rIds))
    (k0_pay6 (k0_pay2 i) (k0_pay3 (View.ld w rIds)) (k0_pay4 i (View.ld w rIds)) (k0_pay5 (View.ld w rIds)))
    (k0_pay7 (k0_pay3 (View.ld w rIds))) (View.ld x rBlk)⟩]

/-- The one store covers the buffer. -/
theorem cover_out (p0 : Vec F S512x3200 .f32) (y : S512x3200.Idx) :
    ∃ pc ∈ ([⟨rBlk, p0⟩] : List (View.Piece (Elt F) S512x3200 .f32)), y ∈ pc.1.set :=
  View.cover_of_tiled [⟨rBlk, p0⟩] S512x3200.size (by rfl) y

/-! ## The body's triple -/

set_option maxHeartbeats 4000000 in
/-- The kernel body on whole staging memrefs — the two inputs' at contents `w`, `x`, the output's at anything — runs
    to the continuation with the inputs' as they were and the output's at `outBlk i w x`. -/
theorem sound_kernel (c : Dev nD) (E : Set ℕ) (i : grid0.Coords) (arg2 : Memref sig .tc .vmem S512x32 .i32) (harg2 : arg2.IsWhole)
    (arg3 : Memref sig .tc .vmem S512x3200 .f32) (harg3 : arg3.IsWhole) (arg4 : Memref sig .tc .vmem S512x3200 .f32) (harg4 : arg4.IsWhole)
    (w : Vec F S512x32 .i32) (x : Vec F S512x3200 .f32) (K : PUnit → sProp 𝕄) :
    iprop(owns (c : Thread nD τ) arg2 fullShare w ∗ owns (c : Thread nD τ) arg3 fullShare x ∗ (∃ d, owns (c : Thread nD τ) arg4 fullShare d)
        ∗ (iprop(owns (c : Thread nD τ) arg2 fullShare w ∗ owns (c : Thread nD τ) arg3 fullShare x ∗ owns (c : Thread nD τ) arg4 fullShare (outBlk i w x)) -∗ K ⟨⟩))
      ⊢ wp frame (wpE (defs₀ (F := F)) Variants.none c none) E (cc0__dampen_kernel i arg2 harg2 arg3 harg3 arg4 harg4) K := by
  simp only [cc0__dampen_kernel_eq_skeleton]; unfold cc0__dampen_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them; after the body at point `t`
    each input's buffer at its block and the output's at `outBlk` of the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outBlk (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim of `KernelIdeal`, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.KHost.lean ====
/-
  What the host operations of `KernelIdeal`'s @main compute around its one kernel region.

  Before the region, 166 operations: thirty-two times [the constant 32000, its broadcast to [2, k], the first
  2048 − k columns of the token ids, the two joined along the columns] — the ids shifted right by k = 1 … 32 places,
  the vacated columns filled with 32000 —, each shifted copy given a trailing unit axis, the thirty-two stacked along
  that axis (two sixteen-way joins, then one two-way join) to [2, 2048, 32] and flattened to [4096, 32]; the logits
  flattened to [4096, 32000], and a copy of that. After the region, one operation: the kernel's [4096, 32000]
  result unflattened to [2, 2048, 32000].

  The reference program builds the same [2, 2048, 32] stack by the same operations, stage by stage
  (`val_main_v2`, `val_main_v5`, …, `val_main_v130`). So the flattened stack the region finds is the reference's
  stack flattened, the flattened logits are the logits argument flattened, and @main's result is the region's output
  array unflattened.

  The 166 operations are read in pieces: the line is three consecutive windows (shifted copies 1 … 15; 16 … 30; the
  rest), and the last window is cut once more before the two sixteen-way joins. Within a piece every statement is
  about ONE buffer, for an arbitrary valuation before the piece; a buffer no operation of a piece writes passes
  through it unchanged.
-/
import proofs.«400046_j37288906064558_2_alg».proof.Proof.FrameKI
import proofs.«400046_j37288906064558_2_alg».proof.Proof.RefRead
import Idealize.ShloMosaic.Lib.StableHlo.Run
import Idealize.ShloMosaic.Lib.Pipeline.Value
import Idealize.ShloMosaic.Lib.Pipeline.Frame

set_option maxRecDepth 16384

noncomputable section

namespace Cert.KernelIdeal.KHost

open Idealize.ShloMosaic Idealize.ShloMosaic.TcCoe Idealize.ShloMosaic.StableHlo
open Idealize.SL.Sem
open Cert.KernelIdeal Cert.KernelIdeal.Gen
open Cert.ReferenceIdeal.ReadP

variable {F : FTy → Type} [FloatOps F] [Named F]

/-- One buffer after a literal line of operations, walked backwards from the last: an operation's result at its own
    buffer is its function's value of the buffers before it, at any other buffer what was there. -/
local macro "results_loop" : tactic =>
  `(tactic| repeat (first
      | rw [nullary_result] | rw [unary_result] | rw [binary_result] | rw [reshape_result] | rw [nary_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

/-! ## The line in pieces -/

/-- The operations before the region are the three windows, in order. -/
theorem hostOps0_windows :
    (hostOps0 : List (HloOp τ sig (Elt F))) = main_part0_ops0 ++ (main_part1_ops0 ++ main_part2_ops0) := rfl

/-- The last window, cut before the two sixteen-way joins: the last two shifted copies and the thirty-two
    trailing unit axes; then the joins, the flattenings and the copy. -/
theorem part2_cut : (main_part2_ops0 : List (HloOp τ sig (Elt F)))
    = List.take 40 main_part2_ops0 ++ List.drop 40 main_part2_ops0 := (List.take_append_drop 40 _).symm

/-! ## What each piece writes, and what therefore passes through it -/

/-- The buffers the first window writes. -/
def W0 : List (Ref sig .tc) := [main_c, main_v0, main_v1, main_v2, main_c_0, main_v3, main_v4, main_v5, main_c_1, main_v6, main_v7, main_v8, main_c_2, main_v9, main_v10, main_v11, main_c_3, main_v12, main_v13, main_v14, main_c_4, main_v15, main_v16, main_v17, main_c_5, main_v18, main_v19, main_v20, main_c_6, main_v21, main_v22, main_v23, main_c_7, main_v24, main_v25, main_v26, main_c_8, main_v27, main_v28, main_v29, main_c_9, main_v30, main_v31, main_v32, main_c_10, main_v33, main_v34, main_v35, main_c_11, main_v36, main_v37, main_v38, main_c_12, main_v39, main_v40, main_v41, main_c_13, main_v42, main_v43, main_v44]
/-- The buffers the second window writes. -/
def W1 : List (Ref sig .tc) := [main_c_14, main_v45, main_v46, main_v47, main_c_15, main_v48, main_v49, main_v50, main_c_16, main_v51, main_v52, main_v53, main_c_17, main_v54, main_v55, main_v56, main_c_18, main_v57, main_v58, main_v59, main_c_19, main_v60, main_v61, main_v62, main_c_20, main_v63, main_v64, main_v65, main_c_21, main_v66, main_v67, main_v68, main_c_22, main_v69, main_v70, main_v71, main_c_23, main_v72, main_v73, main_v74, main_c_24, main_v75, main_v76, main_v77, main_c_25, main_v78, main_v79, main_v80, main_c_26, main_v81, main_v82, main_v83, main_c_27, main_v84, main_v85, main_v86, main_c_28, main_v87, main_v88, main_v89]
/-- The buffers the last window writes before the sixteen-way joins. -/
def W2 : List (Ref sig .tc) := [main_c_29, main_v90, main_v91, main_v92, main_c_30, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127]

theorem w0_writes : (main_part0_ops0 : List (HloOp τ sig (Elt F))).Forall fun op =>
    op.writes ⊆ (W0.map (Proc.devRef (τ := τ) .tc)).toFinset := by
  simp only [main_part0_ops0, List.Forall, nullary_writes, unary_writes, binary_writes, Finset.singleton_subset_iff, List.mem_toFinset]
  repeat' apply And.intro
  all_goals exact List.mem_map_of_mem (by decide)
theorem w1_writes : (main_part1_ops0 : List (HloOp τ sig (Elt F))).Forall fun op =>
    op.writes ⊆ (W1.map (Proc.devRef (τ := τ) .tc)).toFinset := by
  simp only [main_part1_ops0, List.Forall, nullary_writes, unary_writes, binary_writes, Finset.singleton_subset_iff, List.mem_toFinset]
  repeat' apply And.intro
  all_goals exact List.mem_map_of_mem (by decide)
theorem w2_writes : (List.take 40 main_part2_ops0 : List (HloOp τ sig (Elt F))).Forall fun op =>
    op.writes ⊆ (W2.map (Proc.devRef (τ := τ) .tc)).toFinset := by
  simp only [main_part2_ops0, List.take_succ_cons, List.take_zero, List.Forall, nullary_writes, unary_writes, binary_writes,
    Finset.singleton_subset_iff, List.mem_toFinset]
  repeat' apply And.intro
  all_goals exact List.mem_map_of_mem (by decide)

variable (V : Valuation τ sig (Elt F))

/-- A buffer the first window does not write passes through it. -/
theorem w0_keep (r : Ref sig .tc) (hr : r ∉ W0) :
    after (main_part0_ops0 (F := F)) V (Proc.devRef .tc r) = V (Proc.devRef .tc r) :=
  after_of_writes_sub _ V w0_writes hr
/-- A buffer the second window does not write passes through it. -/
theorem w1_keep (r : Ref sig .tc) (hr : r ∉ W1) :
    after (main_part1_ops0 (F := F)) V (Proc.devRef .tc r) = V (Proc.devRef .tc r) :=
  after_of_writes_sub _ V w1_writes hr
/-- A buffer the last window does not write before its sixteen-way joins passes through that stretch. -/
theorem w2_keep (r : Ref sig .tc) (hr : r ∉ W2) :
    after (List.take 40 (main_part2_ops0 (F := F))) V (Proc.devRef .tc r) = V (Proc.devRef .tc r) :=
  after_of_writes_sub _ V w2_writes hr

/-! ## The first window: shifted copies 1 … 15, each the reference's stage of the ids before the window -/

set_option maxHeartbeats 2000000 in
theorem w0_s1 : after (main_part0_ops0 (F := F)) V (Proc.devRef .tc main_v2)
    = val_main_v2 (F := F) (V (Proc.devRef .tc main_arg1)) := by
  after_results <;> rfl
set_option maxHeartbeats 2000000 in
theorem w0_s2 : after (main_part0_ops0 (F := F)) V (Proc.devRef .tc main_v5)
    = val_main_v5 (F := F) (V (Proc.devRef .tc main_arg1)) := by
  after_results <;> rfl
set_option maxHeartbeats 2000000 in
theorem w0_s3 : after (main_part0_ops0 (F := F)) V (Proc.devRef .tc main_v8)
    = val_main_v8 (F := F) (V (Proc.devRef .tc main_arg1)) := by
  after_results <;> rfl
set_option maxHeartbeats 2000000 in
theorem w0_s4 : after (main_part0_ops0 (F := F)) V (Proc.devRef .tc main_v11)
    = val_main_v11 (F := F) (V (Proc.devRef .tc main_arg1)) := by
  after_results <;> rfl
set_option maxHeartbeats 2000000 in
theorem w0_s5 : after (main_part0_ops0 (F := F)) V (Proc.devRef .tc main_v14)
    = val_main_v14 (F := F) (V (Proc.devRef .tc main_arg1)) := by
  after_results <;> rfl
set_option maxHeartbeats 2000000 in
theorem w0_s6 : after (main_part0_ops0 (F := F)) V (Proc.devRef .tc main_v17)
    = val_main_v17 (F := F) (V (Proc.devRef .tc main_arg1)) := by
  after_results <;> rfl
set_option maxHeartbeats 2000000 in
theorem w0_s7 : after (main_part0_ops0 (F := F)) V (Proc.devRef .tc main_v20)
    = val_main_v20 (F := F) (V (Proc.devRef .tc main_arg1)) := by
  after_results <;> rfl
set_option maxHeartbeats 2000000 in
theorem w0_s8 : after (main_part0_ops0 (F := F)) V (Proc.devRef .tc main_v23)
    = val_main_v23 (F := F) (V (Proc.devRef .tc main_arg1)) := by
  after_results <;> rfl
set_option maxHeartbeats 2000000 in
theorem w0_s9 : after (main_part0_ops0 (F := F)) V (Proc.devRef .tc main_v26)
    = val_main_v26 (F := F) (V (Proc.devRef .tc main_arg1)) := by
  after_results <;> rfl
set_option maxHeartbeats 2000000 in
theorem w0_s10 : after (main_part0_ops0 (F := F)) V (Proc.devRef .tc main_v29)
    = val_main_v29 (F := F) (V (Proc.devRef .tc main_arg1)) := by
  after_results <;> rfl
set_option maxHeartbeats 2000000 in
theorem w0_s11 : after (main_part0_ops0 (F := F)) V (Proc.devRef .tc main_v32)
    = val_main_v32 (F := F) (V (Proc.devRef .tc main_arg1)) := by
  after_results <;> rfl
set_option maxHeartbeats 2000000 in
theorem w0_s12 : after (main_part0_ops0 (F := F)) V (Proc.devRef .tc main_v35)
    = val_main_v35 (F := F) (V (Proc.devRef .tc main_arg1)) := by
  after_results <;> rfl
set_option maxHeartbeats 2000000 in
theorem w0_s13 : after (main_part0_ops0 (F := F)) V (Proc.devRef .tc main_v38)
    = val_main_v38 (F := F) (V (Proc.devRef .tc main_arg1)) := by
  after_results <;> rfl
set_option maxHeartbeats 2000000 in
theorem w0_s14 : after (main_part0_ops0 (F := F)) V (Proc.devRef .tc main_v41)
    = val_main_v41 (F := F) (V (Proc.devRef .tc main_arg1)) := by
  after_results <;> rfl
set_option maxHeartbeats 2000000 in
theorem w0_s15 : after (main_part0_ops0 (F := F)) V (Proc.devRef .tc main_v44)
    = val_main_v44 (F := F) (V (Proc.devRef .tc main_arg1)) := by
  after_results <;> rfl

/-! ## The second window: shifted copies 16 … 30 -/

set_option maxHeartbeats 2000000 in
theorem w1_s16 : after (main_part1_ops0 (F := F)) V (Proc.devRef .tc main_v47)
    = val_main_v47 (F := F) (V (Proc.devRef .tc main_arg1)) := by
  after_results <;> rfl
set_option maxHeartbeats 2000000 in
theorem w1_s17 : after (main_part1_ops0 (F := F)) V (Proc.devRef .tc main_v50)
    = val_main_v50 (F := F) (V (Proc.devRef .tc main_arg1)) := by
  after_results <;> rfl
set_option maxHeartbeats 2000000 in
theorem w1_s18 : after (main_part1_ops0 (F := F)) V (Proc.devRef .tc main_v53)
    = val_main_v53 (F := F) (V (Proc.devRef .tc main_arg1)) := by
  after_results <;> rfl
set_option maxHeartbeats 2000000 in
theorem w1_s19 : after (main_part1_ops0 (F := F)) V (Proc.devRef .tc main_v56)
    = val_main_v56 (F := F) (V (Proc.devRef .tc main_arg1)) := by
  after_results <;> rfl
set_option maxHeartbeats 2000000 in
theorem w1_s20 : after (main_part1_ops0 (F := F)) V (Proc.devRef .tc main_v59)
    = val_main_v59 (F := F) (V (Proc.devRef .tc main_arg1)) := by
  after_results <;> rfl
set_option maxHeartbeats 2000000 in
theorem w1_s21 : after (main_part1_ops0 (F := F)) V (Proc.devRef .tc main_v62)
    = val_main_v62 (F := F) (V (Proc.devRef .tc main_arg1)) := by
  after_results <;> rfl
set_option maxHeartbeats 2000000 in
theorem w1_s22 : after (main_part1_ops0 (F := F)) V (Proc.devRef .tc main_v65)
    = val_main_v65 (F := F) (V (Proc.devRef .tc main_arg1)) := by
  after_results <;> rfl
set_option maxHeartbeats 2000000 in
theorem w1_s23 : after (main_part1_ops0 (F := F)) V (Proc.devRef .tc main_v68)
    = val_main_v68 (F := F) (V (Proc.devRef .tc main_arg1)) := by
  after_results <;> rfl
set_option maxHeartbeats 2000000 in
theorem w1_s24 : after (main_part1_ops0 (F := F)) V (Proc.devRef .tc main_v71)
    = val_main_v71 (F := F) (V (Proc.devRef .tc main_arg1)) := by
  after_results <;> rfl
set_option maxHeartbeats 2000000 in
theorem w1_s25 : after (main_part1_ops0 (F := F)) V (Proc.devRef .tc main_v74)
    = val_main_v74 (F := F) (V (Proc.devRef .tc main_arg1)) := by
  after_results <;> rfl
set_option maxHeartbeats 2000000 in
theorem w1_s26 : after (main_part1_ops0 (F := F)) V (Proc.devRef .tc main_v77)
    = val_main_v77 (F := F) (V (Proc.devRef .tc main_arg1)) := by
  after_results <;> rfl
set_option maxHeartbeats 2000000 in
theorem w1_s27 : after (main_part1_ops0 (F := F)) V (Proc.devRef .tc main_v80)
    = val_main_v80 (F := F) (V (Proc.devRef .tc main_arg1)) := by
  after_results <;> rfl
set_option maxHeartbeats 2000000 in
theorem w1_s28 : after (main_part1_ops0 (F := F)) V (Proc.devRef .tc main_v83)
    = val_main_v83 (F := F) (V (Proc.devRef .tc main_arg1)) := by
  after_results <;> rfl
set_option maxHeartbeats 2000000 in
theorem w1_s29 : after (main_part1_ops0 (F := F)) V (Proc.devRef .tc main_v86)
    = val_main_v86 (F := F) (V (Proc.devRef .tc main_arg1)) := by
  after_results <;> rfl
set_option maxHeartbeats 2000000 in
theorem w1_s30 : after (main_part1_ops0 (F := F)) V (Proc.devRef .tc main_v89)
    = val_main_v89 (F := F) (V (Proc.devRef .tc main_arg1)) := by
  after_results <;> rfl

/-! ## The last window before the joins: copies 31 and 32, and each copy with its trailing unit axis

Copy k ≤ 30 is found in place (a hypothesis on the valuation before the window); copies 31 and 32 are computed here
from the ids. -/

set_option maxHeartbeats 2000000 in
theorem w2_b0 (ids : (⟨S2x2048, .i32⟩ : BufTy).Contents (Elt F))
    (h : V (Proc.devRef .tc main_v2) = val_main_v2 (F := F) ids) :
    after (List.take 40 (main_part2_ops0 (F := F))) V (Proc.devRef .tc main_v96) = val_main_v96 (F := F) ids := by
  simp only [main_part2_ops0, List.take_succ_cons, List.take_zero, after_cons, after_nil]
  results_loop
  rw [h]; rfl
set_option maxHeartbeats 2000000 in
theorem w2_b1 (ids : (⟨S2x2048, .i32⟩ : BufTy).Contents (Elt F))
    (h : V (Proc.devRef .tc main_v5) = val_main_v5 (F := F) ids) :
    after (List.take 40 (main_part2_ops0 (F := F))) V (Proc.devRef .tc main_v97) = val_main_v97 (F := F) ids := by
  simp only [main_part2_ops0, List.take_succ_cons, List.take_zero, after_cons, after_nil]
  results_loop
  rw [h]; rfl
set_option maxHeartbeats 2000000 in
theorem w2_b2 (ids : (⟨S2x2048, .i32⟩ : BufTy).Contents (Elt F))
    (h : V (Proc.devRef .tc main_v8) = val_main_v8 (F := F) ids) :
    after (List.take 40 (main_part2_ops0 (F := F))) V (Proc.devRef .tc main_v98) = val_main_v98 (F := F) ids := by
  simp only [main_part2_ops0, List.take_succ_cons, List.take_zero, after_cons, after_nil]
  results_loop
  rw [h]; rfl
set_option maxHeartbeats 2000000 in
theorem w2_b3 (ids : (⟨S2x2048, .i32⟩ : BufTy).Contents (Elt F))
    (h : V (Proc.devRef .tc main_v11) = val_main_v11 (F := F) ids) :
    after (List.take 40 (main_part2_ops0 (F := F))) V (Proc.devRef .tc main_v99) = val_main_v99 (F := F) ids := by
  simp only [main_part2_ops0, List.take_succ_cons, List.take_zero, after_cons, after_nil]
  results_loop
  rw [h]; rfl
set_option maxHeartbeats 2000000 in
theorem w2_b4 (ids : (⟨S2x2048, .i32⟩ : BufTy).Contents (Elt F))
    (h : V (Proc.devRef .tc main_v14) = val_main_v14 (F := F) ids) :
    after (List.take 40 (main_part2_ops0 (F := F))) V (Proc.devRef .tc main_v100) = val_main_v100 (F := F) ids := by
  simp only [main_part2_ops0, List.take_succ_cons, List.take_zero, after_cons, after_nil]
  results_loop
  rw [h]; rfl
set_option maxHeartbeats 2000000 in
theorem w2_b5 (ids : (⟨S2x2048, .i32⟩ : BufTy).Contents (Elt F))
    (h : V (Proc.devRef .tc main_v17) = val_main_v17 (F := F) ids) :
    after (List.take 40 (main_part2_ops0 (F := F))) V (Proc.devRef .tc main_v101) = val_main_v101 (F := F) ids := by
  simp only [main_part2_ops0, List.take_succ_cons, List.take_zero, after_cons, after_nil]
  results_loop
  rw [h]; rfl
set_option maxHeartbeats 2000000 in
theorem w2_b6 (ids : (⟨S2x2048, .i32⟩ : BufTy).Contents (Elt F))
    (h : V (Proc.devRef .tc main_v20) = val_main_v20 (F := F) ids) :
    after (List.take 40 (main_part2_ops0 (F := F))) V (Proc.devRef .tc main_v102) = val_main_v102 (F := F) ids := by
  simp only [main_part2_ops0, List.take_succ_cons, List.take_zero, after_cons, after_nil]
  results_loop
  rw [h]; rfl
set_option maxHeartbeats 2000000 in
theorem w2_b7 (ids : (⟨S2x2048, .i32⟩ : BufTy).Contents (Elt F))
    (h : V (Proc.devRef .tc main_v23) = val_main_v23 (F := F) ids) :
    after (List.take 40 (main_part2_ops0 (F := F))) V (Proc.devRef .tc main_v103) = val_main_v103 (F := F) ids := by
  simp only [main_part2_ops0, List.take_succ_cons, List.take_zero, after_cons, after_nil]
  results_loop
  rw [h]; rfl
set_option maxHeartbeats 2000000 in
theorem w2_b8 (ids : (⟨S2x2048, .i32⟩ : BufTy).Contents (Elt F))
    (h : V (Proc.devRef .tc main_v26) = val_main_v26 (F := F) ids) :
    after (List.take 40 (main_part2_ops0 (F := F))) V (Proc.devRef .tc main_v104) = val_main_v104 (F := F) ids := by
  simp only [main_part2_ops0, List.take_succ_cons, List.take_zero, after_cons, after_nil]
  results_loop
  rw [h]; rfl
set_option maxHeartbeats 2000000 in
theorem w2_b9 (ids : (⟨S2x2048, .i32⟩ : BufTy).Contents (Elt F))
    (h : V (Proc.devRef .tc main_v29) = val_main_v29 (F := F) ids) :
    after (List.take 40 (main_part2_ops0 (F := F))) V (Proc.devRef .tc main_v105) = val_main_v105 (F := F) ids := by
  simp only [main_part2_ops0, List.take_succ_cons, List.take_zero, after_cons, after_nil]
  results_loop
  rw [h]; rfl
set_option maxHeartbeats 2000000 in
theorem w2_b10 (ids : (⟨S2x2048, .i32⟩ : BufTy).Contents (Elt F))
    (h : V (Proc.devRef .tc main_v32) = val_main_v32 (F := F) ids) :
    after (List.take 40 (main_part2_ops0 (F := F))) V (Proc.devRef .tc main_v106) = val_main_v106 (F := F) ids := by
  simp only [main_part2_ops0, List.take_succ_cons, List.take_zero, after_cons, after_nil]
  results_loop
  rw [h]; rfl
set_option maxHeartbeats 2000000 in
theorem w2_b11 (ids : (⟨S2x2048, .i32⟩ : BufTy).Contents (Elt F))
    (h : V (Proc.devRef .tc main_v35) = val_main_v35 (F := F) ids) :
    after (List.take 40 (main_part2_ops0 (F := F))) V (Proc.devRef .tc main_v107) = val_main_v107 (F := F) ids := by
  simp only [main_part2_ops0, List.take_succ_cons, List.take_zero, after_cons, after_nil]
  results_loop
  rw [h]; rfl
set_option maxHeartbeats 2000000 in
theorem w2_b12 (ids : (⟨S2x2048, .i32⟩ : BufTy).Contents (Elt F))
    (h : V (Proc.devRef .tc main_v38) = val_main_v38 (F := F) ids) :
    after (List.take 40 (main_part2_ops0 (F := F))) V (Proc.devRef .tc main_v108) = val_main_v108 (F := F) ids := by
  simp only [main_part2_ops0, List.take_succ_cons, List.take_zero, after_cons, after_nil]
  results_loop
  rw [h]; rfl
set_option maxHeartbeats 2000000 in
theorem w2_b13 (ids : (⟨S2x2048, .i32⟩ : BufTy).Contents (Elt F))
    (h : V (Proc.devRef .tc main_v41) = val_main_v41 (F := F) ids) :
    after (List.take 40 (main_part2_ops0 (F := F))) V (Proc.devRef .tc main_v109) = val_main_v109 (F := F) ids := by
  simp only [main_part2_ops0, List.take_succ_cons, List.take_zero, after_cons, after_nil]
  results_loop
  rw [h]; rfl
set_option maxHeartbeats 2000000 in
theorem w2_b14 (ids : (⟨S2x2048, .i32⟩ : BufTy).Contents (Elt F))
    (h : V (Proc.devRef .tc main_v44) = val_main_v44 (F := F) ids) :
    after (List.take 40 (main_part2_ops0 (F := F))) V (Proc.devRef .tc main_v110) = val_main_v110 (F := F) ids := by
  simp only [main_part2_ops0, List.take_succ_cons, List.take_zero, after_cons, after_nil]
  results_loop
  rw [h]; rfl
set_option maxHeartbeats 2000000 in
theorem w2_b15 (ids : (⟨S2x2048, .i32⟩ : BufTy).Contents (Elt F))
    (h : V (Proc.devRef .tc main_v47) = val_main_v47 (F := F) ids) :
    after (List.take 40 (main_part2_ops0 (F := F))) V (Proc.devRef .tc main_v111) = val_main_v111 (F := F) ids := by
  simp only [main_part2_ops0, List.take_succ_cons, List.take_zero, after_cons, after_nil]
  results_loop
  rw [h]; rfl
set_option maxHeartbeats 2000000 in
theorem w2_b16 (ids : (⟨S2x2048, .i32⟩ : BufTy).Contents (Elt F))
    (h : V (Proc.devRef .tc main_v50) = val_main_v50 (F := F) ids) :
    after (List.take 40 (main_part2_ops0 (F := F))) V (Proc.devRef .tc main_v112) = val_main_v112 (F := F) ids := by
  simp only [main_part2_ops0, List.take_succ_cons, List.take_zero, after_cons, after_nil]
  results_loop
  rw [h]; rfl
set_option maxHeartbeats 2000000 in
theorem w2_b17 (ids : (⟨S2x2048, .i32⟩ : BufTy).Contents (Elt F))
    (h : V (Proc.devRef .tc main_v53) = val_main_v53 (F := F) ids) :
    after (List.take 40 (main_part2_ops0 (F := F))) V (Proc.devRef .tc main_v113) = val_main_v113 (F := F) ids := by
  simp only [main_part2_ops0, List.take_succ_cons, List.take_zero, after_cons, after_nil]
  results_loop
  rw [h]; rfl
set_option maxHeartbeats 2000000 in
theorem w2_b18 (ids : (⟨S2x2048, .i32⟩ : BufTy).Contents (Elt F))
    (h : V (Proc.devRef .tc main_v56) = val_main_v56 (F := F) ids) :
    after (List.take 40 (main_part2_ops0 (F := F))) V (Proc.devRef .tc main_v114) = val_main_v114 (F := F) ids := by
  simp only [main_part2_ops0, List.take_succ_cons, List.take_zero, after_cons, after_nil]
  results_loop
  rw [h]; rfl
set_option maxHeartbeats 2000000 in
theorem w2_b19 (ids : (⟨S2x2048, .i32⟩ : BufTy).Contents (Elt F))
    (h : V (Proc.devRef .tc main_v59) = val_main_v59 (F := F) ids) :
    after (List.take 40 (main_part2_ops0 (F := F))) V (Proc.devRef .tc main_v115) = val_main_v115 (F := F) ids := by
  simp only [main_part2_ops0, List.take_succ_cons, List.take_zero, after_cons, after_nil]
  results_loop
  rw [h]; rfl
set_option maxHeartbeats 2000000 in
theorem w2_b20 (ids : (⟨S2x2048, .i32⟩ : BufTy).Contents (Elt F))
    (h : V (Proc.devRef .tc main_v62) = val_main_v62 (F := F) ids) :
    after (List.take 40 (main_part2_ops0 (F := F))) V (Proc.devRef .tc main_v116) = val_main_v116 (F := F) ids := by
  simp only [main_part2_ops0, List.take_succ_cons, List.take_zero, after_cons, after_nil]
  results_loop
  rw [h]; rfl
set_option maxHeartbeats 2000000 in
theorem w2_b21 (ids : (⟨S2x2048, .i32⟩ : BufTy).Contents (Elt F))
    (h : V (Proc.devRef .tc main_v65) = val_main_v65 (F := F) ids) :
    after (List.take 40 (main_part2_ops0 (F := F))) V (Proc.devRef .tc main_v117) = val_main_v117 (F := F) ids := by
  simp only [main_part2_ops0, List.take_succ_cons, List.take_zero, after_cons, after_nil]
  results_loop
  rw [h]; rfl
set_option maxHeartbeats 2000000 in
theorem w2_b22 (ids : (⟨S2x2048, .i32⟩ : BufTy).Contents (Elt F))
    (h : V (Proc.devRef .tc main_v68) = val_main_v68 (F := F) ids) :
    after (List.take 40 (main_part2_ops0 (F := F))) V (Proc.devRef .tc main_v118) = val_main_v118 (F := F) ids := by
  simp only [main_part2_ops0, List.take_succ_cons, List.take_zero, after_cons, after_nil]
  results_loop
  rw [h]; rfl
set_option maxHeartbeats 2000000 in
theorem w2_b23 (ids : (⟨S2x2048, .i32⟩ : BufTy).Contents (Elt F))
    (h : V (Proc.devRef .tc main_v71) = val_main_v71 (F := F) ids) :
    after (List.take 40 (main_part2_ops0 (F := F))) V (Proc.devRef .tc main_v119) = val_main_v119 (F := F) ids := by
  simp only [main_part2_ops0, List.take_succ_cons, List.take_zero, after_cons, after_nil]
  results_loop
  rw [h]; rfl
set_option maxHeartbeats 2000000 in
theorem w2_b24 (ids : (⟨S2x2048, .i32⟩ : BufTy).Contents (Elt F))
    (h : V (Proc.devRef .tc main_v74) = val_main_v74 (F := F) ids) :
    after (List.take 40 (main_part2_ops0 (F := F))) V (Proc.devRef .tc main_v120) = val_main_v120 (F := F) ids := by
  simp only [main_part2_ops0, List.take_succ_cons, List.take_zero, after_cons, after_nil]
  results_loop
  rw [h]; rfl
set_option maxHeartbeats 2000000 in
theorem w2_b25 (ids : (⟨S2x2048, .i32⟩ : BufTy).Contents (Elt F))
    (h : V (Proc.devRef .tc main_v77) = val_main_v77 (F := F) ids) :
    after (List.take 40 (main_part2_ops0 (F := F))) V (Proc.devRef .tc main_v121) = val_main_v121 (F := F) ids := by
  simp only [main_part2_ops0, List.take_succ_cons, List.take_zero, after_cons, after_nil]
  results_loop
  rw [h]; rfl
set_option maxHeartbeats 2000000 in
theorem w2_b26 (ids : (⟨S2x2048, .i32⟩ : BufTy).Contents (Elt F))
    (h : V (Proc.devRef .tc main_v80) = val_main_v80 (F := F) ids) :
    after (List.take 40 (main_part2_ops0 (F := F))) V (Proc.devRef .tc main_v122) = val_main_v122 (F := F) ids := by
  simp only [main_part2_ops0, List.take_succ_cons, List.take_zero, after_cons, after_nil]
  results_loop
  rw [h]; rfl
set_option maxHeartbeats 2000000 in
theorem w2_b27 (ids : (⟨S2x2048, .i32⟩ : BufTy).Contents (Elt F))
    (h : V (Proc.devRef .tc main_v83) = val_main_v83 (F := F) ids) :
    after (List.take 40 (main_part2_ops0 (F := F))) V (Proc.devRef .tc main_v123) = val_main_v123 (F := F) ids := by
  simp only [main_part2_ops0, List.take_succ_cons, List.take_zero, after_cons, after_nil]
  results_loop
  rw [h]; rfl
set_option maxHeartbeats 2000000 in
theorem w2_b28 (ids : (⟨S2x2048, .i32⟩ : BufTy).Contents (Elt F))
    (h : V (Proc.devRef .tc main_v86) = val_main_v86 (F := F) ids) :
    after (List.take 40 (main_part2_ops0 (F := F))) V (Proc.devRef .tc main_v124) = val_main_v124 (F := F) ids := by
  simp only [main_part2_ops0, List.take_succ_cons, List.take_zero, after_cons, after_nil]
  results_loop
  rw [h]; rfl
set_option maxHeartbeats 2000000 in
theorem w2_b29 (ids : (⟨S2x2048, .i32⟩ : BufTy).Contents (Elt F))
    (h : V (Proc.devRef .tc main_v89) = val_main_v89 (F := F) ids) :
    after (List.take 40 (main_part2_ops0 (F := F))) V (Proc.devRef .tc main_v125) = val_main_v125 (F := F) ids := by
  simp only [main_part2_ops0, List.take_succ_cons, List.take_zero, after_cons, after_nil]
  results_loop
  rw [h]; rfl
set_option maxHeartbeats 2000000 in
theorem w2_b30 (ids : (⟨S2x2048, .i32⟩ : BufTy).Contents (Elt F))
    (harg : V (Proc.devRef .tc main_arg1) = ids) :
    after (List.take 40 (main_part2_ops0 (F := F))) V (Proc.devRef .tc main_v126) = val_main_v126 (F := F) ids := by
  simp only [main_part2_ops0, List.take_succ_cons, List.take_zero, after_cons, after_nil]
  results_loop
  rw [harg]; rfl
set_option maxHeartbeats 2000000 in
theorem w2_b31 (ids : (⟨S2x2048, .i32⟩ : BufTy).Contents (Elt F))
    (harg : V (Proc.devRef .tc main_arg1) = ids) :
    after (List.take 40 (main_part2_ops0 (F := F))) V (Proc.devRef .tc main_v127) = val_main_v127 (F := F) ids := by
  simp only [main_part2_ops0, List.take_succ_cons, List.take_zero, after_cons, after_nil]
  results_loop
  rw [harg]; rfl

/-! ## The joins, the flattenings -/

set_option maxHeartbeats 8000000 in
/-- With the thirty-two copies in place, each with its trailing unit axis, the flattened stack is the reference's
    stack flattened. -/
theorem w2_top (ids : (⟨S2x2048, .i32⟩ : BufTy).Contents (Elt F))
    (b0 : V (Proc.devRef .tc main_v96) = val_main_v96 (F := F) ids)
    (b1 : V (Proc.devRef .tc main_v97) = val_main_v97 (F := F) ids)
    (b2 : V (Proc.devRef .tc main_v98) = val_main_v98 (F := F) ids)
    (b3 : V (Proc.devRef .tc main_v99) = val_main_v99 (F := F) ids)
    (b4 : V (Proc.devRef .tc main_v100) = val_main_v100 (F := F) ids)
    (b5 : V (Proc.devRef .tc main_v101) = val_main_v101 (F := F) ids)
    (b6 : V (Proc.devRef .tc main_v102) = val_main_v102 (F := F) ids)
    (b7 : V (Proc.devRef .tc main_v103) = val_main_v103 (F := F) ids)
    (b8 : V (Proc.devRef .tc main_v104) = val_main_v104 (F := F) ids)
    (b9 : V (Proc.devRef .tc main_v105) = val_main_v105 (F := F) ids)
    (b10 : V (Proc.devRef .tc main_v106) = val_main_v106 (F := F) ids)
    (b11 : V (Proc.devRef .tc main_v107) = val_main_v107 (F := F) ids)
    (b12 : V (Proc.devRef .tc main_v108) = val_main_v108 (F := F) ids)
    (b13 : V (Proc.devRef .tc main_v109) = val_main_v109 (F := F) ids)
    (b14 : V (Proc.devRef .tc main_v110) = val_main_v110 (F := F) ids)
    (b15 : V (Proc.devRef .tc main_v111) = val_main_v111 (F := F) ids)
    (b16 : V (Proc.devRef .tc main_v112) = val_main_v112 (F := F) ids)
    (b17 : V (Proc.devRef .tc main_v113) = val_main_v113 (F := F) ids)
    (b18 : V (Proc.devRef .tc main_v114) = val_main_v114 (F := F) ids)
    (b19 : V (Proc.devRef .tc main_v115) = val_main_v115 (F := F) ids)
    (b20 : V (Proc.devRef .tc main_v116) = val_main_v116 (F := F) ids)
    (b21 : V (Proc.devRef .tc main_v117) = val_main_v117 (F := F) ids)
    (b22 : V (Proc.devRef .tc main_v118) = val_main_v118 (F := F) ids)
    (b23 : V (Proc.devRef .tc main_v119) = val_main_v119 (F := F) ids)
    (b24 : V (Proc.devRef .tc main_v120) = val_main_v120 (F := F) ids)
    (b25 : V (Proc.devRef .tc main_v121) = val_main_v121 (F := F) ids)
    (b26 : V (Proc.devRef .tc main_v122) = val_main_v122 (F := F) ids)
    (b27 : V (Proc.devRef .tc main_v123) = val_main_v123 (F := F) ids)
    (b28 : V (Proc.devRef .tc main_v124) = val_main_v124 (F := F) ids)
    (b29 : V (Proc.devRef .tc main_v125) = val_main_v125 (F := F) ids)
    (b30 : V (Proc.devRef .tc main_v126) = val_main_v126 (F := F) ids)
    (b31 : V (Proc.devRef .tc main_v127) = val_main_v127 (F := F) ids) :
    after (List.drop 40 (main_part2_ops0 (F := F))) V (Proc.devRef .tc main_v131)
      = shapeCast S4096x32 (val_main_v130 (F := F) ids) shapeCasts_S2x2048x32_S4096x32 := by
  simp only [main_part2_ops0, List.drop_succ_cons, List.drop_zero, after_cons, after_nil]
  results_loop
  -- a sixteen-way join reads its operands as a family over `Fin 16`: at each literal position, that operand's buffer
  dsimp only [Matrix.cons_val]
  results_loop
  rw [b0, b1, b2, b3, b4, b5, b6, b7, b8, b9, b10, b11, b12, b13, b14, b15, b16, b17, b18, b19, b20, b21, b22, b23, b24, b25, b26, b27, b28, b29, b30, b31]
  rfl

set_option maxHeartbeats 2000000 in
/-- The flattened logits are the logits found before the joins, flattened. -/
theorem w2_logits : after (List.drop 40 (main_part2_ops0 (F := F))) V (Proc.devRef .tc main_v132)
      = shapeCast S4096x32000 (V (Proc.devRef .tc main_arg0)) shapeCasts_S2x2048x32000_S4096x32000 := by
  simp only [main_part2_ops0, List.drop_succ_cons, List.drop_zero, after_cons, after_nil]
  results_loop
  rfl

/-! ## The whole line -/

variable (L : Valuation τ sig (Elt F))

/-- After the 166 operations the flattened stack is the reference's stack of the ids argument, flattened. -/
theorem ids_value : after (hostOps0 (F := F)) L (Proc.devRef .tc main_v131)
    = shapeCast S4096x32 (val_main_v130 (F := F) (L (Proc.devRef .tc main_arg1))) shapeCasts_S2x2048x32_S4096x32 := by
  rw [hostOps0_windows, after_append, after_append, part2_cut, after_append]
  exact w2_top _ _
    (w2_b0 _ _ ((w1_keep _ main_v2 (by decide)).trans (w0_s1 L)))
    (w2_b1 _ _ ((w1_keep _ main_v5 (by decide)).trans (w0_s2 L)))
    (w2_b2 _ _ ((w1_keep _ main_v8 (by decide)).trans (w0_s3 L)))
    (w2_b3 _ _ ((w1_keep _ main_v11 (by decide)).trans (w0_s4 L)))
    (w2_b4 _ _ ((w1_keep _ main_v14 (by decide)).trans (w0_s5 L)))
    (w2_b5 _ _ ((w1_keep _ main_v17 (by decide)).trans (w0_s6 L)))
    (w2_b6 _ _ ((w1_keep _ main_v20 (by decide)).trans (w0_s7 L)))
    (w2_b7 _ _ ((w1_keep _ main_v23 (by decide)).trans (w0_s8 L)))
    (w2_b8 _ _ ((w1_keep _ main_v26 (by decide)).trans (w0_s9 L)))
    (w2_b9 _ _ ((w1_keep _ main_v29 (by decide)).trans (w0_s10 L)))
    (w2_b10 _ _ ((w1_keep _ main_v32 (by decide)).trans (w0_s11 L)))
    (w2_b11 _ _ ((w1_keep _ main_v35 (by decide)).trans (w0_s12 L)))
    (w2_b12 _ _ ((w1_keep _ main_v38 (by decide)).trans (w0_s13 L)))
    (w2_b13 _ _ ((w1_keep _ main_v41 (by decide)).trans (w0_s14 L)))
    (w2_b14 _ _ ((w1_keep _ main_v44 (by decide)).trans (w0_s15 L)))
    (w2_b15 _ _ ((w1_s16 _).trans (congrArg _ (w0_keep L main_arg1 (by decide)))))
    (w2_b16 _ _ ((w1_s17 _).trans (congrArg _ (w0_keep L main_arg1 (by decide)))))
    (w2_b17 _ _ ((w1_s18 _).trans (congrArg _ (w0_keep L main_arg1 (by decide)))))
    (w2_b18 _ _ ((w1_s19 _).trans (congrArg _ (w0_keep L main_arg1 (by decide)))))
    (w2_b19 _ _ ((w1_s20 _).trans (congrArg _ (w0_keep L main_arg1 (by decide)))))
    (w2_b20 _ _ ((w1_s21 _).trans (congrArg _ (w0_keep L main_arg1 (by decide)))))
    (w2_b21 _ _ ((w1_s22 _).trans (congrArg _ (w0_keep L main_arg1 (by decide)))))
    (w2_b22 _ _ ((w1_s23 _).trans (congrArg _ (w0_keep L main_arg1 (by decide)))))
    (w2_b23 _ _ ((w1_s24 _).trans (congrArg _ (w0_keep L main_arg1 (by decide)))))
    (w2_b24 _ _ ((w1_s25 _).trans (congrArg _ (w0_keep L main_arg1 (by decide)))))
    (w2_b25 _ _ ((w1_s26 _).trans (congrArg _ (w0_keep L main_arg1 (by decide)))))
    (w2_b26 _ _ ((w1_s27 _).trans (congrArg _ (w0_keep L main_arg1 (by decide)))))
    (w2_b27 _ _ ((w1_s28 _).trans (congrArg _ (w0_keep L main_arg1 (by decide)))))
    (w2_b28 _ _ ((w1_s29 _).trans (congrArg _ (w0_keep L main_arg1 (by decide)))))
    (w2_b29 _ _ ((w1_s30 _).trans (congrArg _ (w0_keep L main_arg1 (by decide)))))
    (w2_b30 _ _ ((w1_keep _ main_arg1 (by decide)).trans (w0_keep L main_arg1 (by decide))))
    (w2_b31 _ _ ((w1_keep _ main_arg1 (by decide)).trans (w0_keep L main_arg1 (by decide))))

/-- After the 166 operations the flattened logits are the logits argument, flattened. -/
theorem logits_value : after (hostOps0 (F := F)) L (Proc.devRef .tc main_v132)
    = shapeCast S4096x32000 (L (Proc.devRef .tc main_arg0)) shapeCasts_S2x2048x32000_S4096x32000 := by
  rw [hostOps0_windows, after_append, after_append, part2_cut, after_append, w2_logits,
    w2_keep _ main_arg0 (by decide), w1_keep _ main_arg0 (by decide), w0_keep _ main_arg0 (by decide)]

/-! ## As the region finds them, and @main's result -/

/-- The region's ids operand: the reference's stack of shifted ids, flattened to [4096, 32]. -/
theorem V_ids (m : (ℓ : Loc nD τ sig) → Buf (Elt Ideal) ℓ) (c : Dev nD) :
    Cert.KernelIdeal.Frm.V (F := Ideal) m c main_v131
      = shapeCast S4096x32 (val_main_v130 (F := Ideal) (m ((c : Thread nD τ).loc main_arg1))) shapeCasts_S2x2048x32_S4096x32 := by
  show after hostOps0 (fun b => m (c, b)) (Proc.devRef .tc main_v131) = _
  exact ids_value (F := Ideal) (fun b => m (c, b))

/-- The region's logits operand: the logits argument flattened to [4096, 32000]. -/
theorem V_logits (m : (ℓ : Loc nD τ sig) → Buf (Elt Ideal) ℓ) (c : Dev nD) :
    Cert.KernelIdeal.Frm.V (F := Ideal) m c main_v132
      = shapeCast S4096x32000 (m ((c : Thread nD τ).loc main_arg0)) shapeCasts_S2x2048x32000_S4096x32000 := by
  show after hostOps0 (fun b => m (c, b)) (Proc.devRef .tc main_v132) = _
  exact logits_value (F := Ideal) (fun b => m (c, b))

/-- @main's result: the region's output array after the last grid point, unflattened to [2, 2048, 32000]. -/
theorem tail_result (m : (ℓ : Loc nD τ sig) → Buf (Elt Ideal) ℓ) (c : Dev nD) :
    Pipeline.afterTail₀ cfgs (Cert.KernelIdeal.Frm.dats (F := Ideal) m) 0 (Cert.KernelIdeal.Frm.V0 m) [hostOps1] c main_v134
      = shapeCast S2x2048x32000 ((Cert.KernelIdeal.Frm.dats (F := Ideal) m 0 c).arrAt 2 cfg0.N)
          shapeCasts_S4096x32000_S2x2048x32000 := by
  unfold Pipeline.afterTail₀
  show after hostOps1 _ (Proc.devRef .tc main_v134) = _
  after_results
  -- the copy of the flattened logits is the region's third array: after the run it holds what the run left there
  rw [show Pipeline.withArrays (cfgs 0).spec c (Cert.KernelIdeal.Frm.V0 m c)
        (fun w => (Cert.KernelIdeal.Frm.dats (F := Ideal) m 0 c).arrAt w (cfgs 0).N) (Proc.devRef .tc main_v133)
      = (Cert.KernelIdeal.Frm.dats (F := Ideal) m 0 c).arrAt 2 (cfgs 0).N
      from Pipeline.withArrays_arr spec0 launch0.win.arr_inj c _ _ 2]
  rfl

end Cert.KernelIdeal.KHost

end
-- ==== Proof.PayloadAt.lean ====
/-
  The value the kernel body stores, read at one index. The body compares each of the 32 columns of the
  [512, 32] block of ids, spread along the 3200 lanes, with the global column number of the lane
  (3200 · i₁ + lane), ORs the 32 one-bit answers, and where the bit is set multiplies the logit by the
  named constant; elsewhere it keeps the logit. So the stored value at (p, q) is x(p, q) · c when some
  column k of row p of the ids holds the word 3200 · i₁ + q, and x(p, q) otherwise.
-/
import proofs.«400046_j37288906064558_2_alg».proof.Proof.Gen.KernelIdeal.Skeleton
import Idealize.ShloMosaic.PureOps.Ideal
import Idealize.ShloMosaic.PureOps.IdealRules
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.Pay

open Cert.KernelIdeal Cert.KernelIdeal.Gen Idealize.ShloMosaic Idealize.ShloMosaic.ValueIdx

/-- Among the first n columns of row p of the ids block, one holds the word c. -/
def Hit (v5 : IVec S512x32 32) (c : BitVec 32) (p : Fin 512) (n : Nat) : Prop :=
  ∃ k : Fin 32, k.val < n ∧ v5 (ix2 p k) = c

/-- One more column. -/
theorem hit_succ (v5 : IVec S512x32 32) (c : BitVec 32) (p : Fin 512) (n : Nat) (hn : n < 32) :
    (Hit v5 c p n ∨ v5 (ix2 p ⟨n, hn⟩) = c) ↔ Hit v5 c p (n + 1) := by
  constructor
  · rintro (⟨k, hk, h⟩ | h)
    · exact ⟨k, Nat.lt_succ_of_lt hk, h⟩
    · exact ⟨⟨n, hn⟩, Nat.lt_succ_self n, h⟩
  · rintro ⟨k, hk, h⟩
    rcases Nat.lt_succ_iff_lt_or_eq.mp hk with hlt | heq
    · exact Or.inl ⟨k, hlt, h⟩
    · refine Or.inr ?_
      have hkn : k = ⟨n, hn⟩ := Fin.ext heq
      rw [← hkn]; exact h

/-- All 32 columns. -/
theorem hit_all (v5 : IVec S512x32 32) (c : BitVec 32) (p : Fin 512) :
    Hit v5 c p 32 ↔ ∃ k : Fin 32, v5 (ix2 p k) = c :=
  ⟨fun ⟨k, _, h⟩ => ⟨k, h⟩, fun ⟨k, h⟩ => ⟨k, k.isLt, h⟩⟩

/-- Column n of the ids block, spread along the lanes, read at (p, q): the id at (p, n). -/
theorem col_apply (v5 : IVec S512x32 32) (n : Nat) (hs : S512x32.Slices ![0, n] S512x1) (p : Fin 512) (q : Fin 3200)
    (hn : n < 32) :
    broadcastTo S512x3200 (extractStridedSlice S512x1 ![0, n] v5 hs) broadcasts_S512x1_S512x3200 (ix2 p q)
      = v5 (ix2 p ⟨n, hn⟩) := by
  refine (broadcastTo_apply _ _ (ix2 p q) (ix2 p (0 : Fin 1)) ?_).trans ?_
  · intro a
    match a with
    | ⟨0, _⟩ => rfl
    | ⟨1, _⟩ => rfl
  · exact slice2_axis1_apply n v5 hs p 0 ⟨n, hn⟩ rfl

/-- The OR of two one-bit words is set exactly when one of them is. -/
theorem ori_one_iff (a b : BitVec 1) : IntOp.ori a b = 1#1 ↔ a = 1#1 ∨ b = 1#1 := by
  unfold IntOp.ori; revert a b; decide

/-- The first comparison. -/
theorem first_col (v3 : IVec S512x3200 32) (v5 : IVec S512x32 32) (hs : S512x32.Slices ![0, 0] S512x1)
    (p : Fin 512) (q : Fin 3200) :
    cmpi .eq (broadcastTo S512x3200 (extractStridedSlice S512x1 ![0, 0] v5 hs) broadcasts_S512x1_S512x3200) v3 (ix2 p q) = 1#1
      ↔ Hit v5 (v3 (ix2 p q)) p 1 := by
  show IntOp.cmpi .eq (broadcastTo S512x3200 (extractStridedSlice S512x1 ![0, 0] v5 hs) broadcasts_S512x1_S512x3200 (ix2 p q))
    (v3 (ix2 p q)) = 1#1 ↔ _
  rw [StableHlo.Predicate.cmpi_eq_iff, col_apply v5 0 hs p q (by omega)]
  constructor
  · intro h; exact ⟨⟨0, by omega⟩, Nat.zero_lt_one, h⟩
  · rintro ⟨k, hk, h⟩
    have hk0 : k = ⟨0, by omega⟩ := Fin.ext (show k.val = 0 by omega)
    rw [← hk0]; exact h

/-- OR-ing in the comparison of column n. -/
theorem next_col (v3 : IVec S512x3200 32) (v5 : IVec S512x32 32) (acc : IVec S512x3200 1) (n : Nat)
    (hs : S512x32.Slices ![0, n] S512x1) (p : Fin 512) (q : Fin 3200) (hn : n < 32)
    (hacc : acc (ix2 p q) = 1#1 ↔ Hit v5 (v3 (ix2 p q)) p n) :
    ori acc (cmpi .eq (broadcastTo S512x3200 (extractStridedSlice S512x1 ![0, n] v5 hs) broadcasts_S512x1_S512x3200) v3) (ix2 p q) = 1#1
      ↔ Hit v5 (v3 (ix2 p q)) p (n + 1) := by
  show IntOp.ori (acc (ix2 p q)) (IntOp.cmpi .eq
    (broadcastTo S512x3200 (extractStridedSlice S512x1 ![0, n] v5 hs) broadcasts_S512x1_S512x3200 (ix2 p q)) (v3 (ix2 p q))) = 1#1 ↔ _
  rw [ori_one_iff, hacc, StableHlo.Predicate.cmpi_eq_iff, col_apply v5 n hs p q hn]
  exact hit_succ v5 _ p n hn

/-- The column number of lane q of the block at grid point i: 3200 · i₁ + q. -/
theorem pay2_apply (i : grid0.Coords) (p : Fin 512) (q : Fin 3200) :
    k0_pay2 i (ix2 p q) = BitVec.ofNat 32 ((i 1).val * 3200 + q.val) := by
  have hi : (i 1).val < 10 := (i 1).isLt
  have hq : q.val < 3200 := q.isLt
  show IntOp.addi (Scalar.muli (BitVec.ofNat 32 (i 1).val) 3200#32) (BitVec.ofNat 32 (0 * 3200 + q.val)) = _
  apply BitVec.eq_of_toNat_eq
  simp only [IntOp.addi, Scalar.muli, IntOp.muli, BitVec.toNat_add, BitVec.toNat_mul, BitVec.toNat_ofNat]
  omega

/-- The first twelve columns. -/
theorem pay4_apply (i : grid0.Coords) (w : Vec Ideal S512x32 .i32) (p : Fin 512) (q : Fin 3200) :
    k0_pay4 (F := Ideal) i w (ix2 p q) = 1#1 ↔ Hit (k0_pay3 (F := Ideal) w) (k0_pay2 i (ix2 p q)) p 12 := by
  simp only [k0_pay4]
  iterate 11 refine next_col _ _ _ _ _ p q (by omega) ?_
  exact first_col _ _ _ p q

/-- Columns twelve to twenty-six, OR-ed onto the first twelve. -/
theorem pay6_apply (v3 : IVec S512x3200 32) (v5 : IVec S512x32 32) (v52 : IVec S512x3200 1) (p : Fin 512) (q : Fin 3200)
    (h52 : v52 (ix2 p q) = 1#1 ↔ Hit v5 (v3 (ix2 p q)) p 12) :
    k0_pay6 v3 v5 v52
        (broadcastTo S512x3200 (extractStridedSlice S512x1 ![0, 12] v5 slices_S512x32_o0_12_S512x1) broadcasts_S512x1_S512x3200)
        (ix2 p q) = 1#1
      ↔ Hit v5 (v3 (ix2 p q)) p 27 := by
  simp only [k0_pay6]
  iterate 15 refine next_col _ _ _ _ _ p q (by omega) ?_
  exact h52

/-- The named constant is the rational the certificate's table gives it. -/
theorem inv_penalty :
    Named.named (F := Ideal) κ "inv_penalty" (φ := .f32) 0x3F555555#32 = ((4194304 / 5033165 : ℝ) : EReal) :=
  IdealRules.named_const.ideal_named_scalar _ _ _ _ rfl

/-- The last five columns OR-ed on, and the choice: where some column of the row holds the lane's column number the
    logit times the constant, elsewhere the logit. -/
theorem pay1_apply (v3 : IVec S512x3200 32) (v5 : IVec S512x32 32) (v112 : IVec S512x3200 1)
    (x : Vec Ideal S512x3200 .f32) (p : Fin 512) (q : Fin 3200)
    (h112 : v112 (ix2 p q) = 1#1 ↔ Hit v5 (v3 (ix2 p q)) p 27)
    {P : Prop} [Decidable P] (hP : P ↔ Hit v5 (v3 (ix2 p q)) p 32) :
    k0_pay1 (F := Ideal) v3 v5 v112
        (broadcastTo S512x3200 (extractStridedSlice S512x1 ![0, 27] v5 slices_S512x32_o0_27_S512x1) broadcasts_S512x1_S512x3200)
        x (ix2 p q)
      = if P then x (ix2 p q) * ((4194304 / 5033165 : ℝ) : EReal) else x (ix2 p q) := by
  simp only [k0_pay1]
  rw [select_apply, shapeCast_self]
  unfold Scalar.select
  refine if_congr ?_ ?_ rfl
  · refine Iff.trans ?_ hP.symm
    iterate 5 refine next_col _ _ _ _ _ p q (by omega) ?_
    exact h112
  · rw [mulf_apply, broadcast_apply, inv_penalty]

/-- The value the body stores, as a function of the grid point and the two loaded blocks. -/
noncomputable def stored (i : grid0.Coords) (w : Vec Ideal S512x32 .i32) (x : Vec Ideal S512x3200 .f32) :
    FVec Ideal S512x3200 .f32 :=
  k0_pay1 (F := Ideal) (k0_pay2 i) (k0_pay3 (F := Ideal) w)
    (k0_pay6 (k0_pay2 i) (k0_pay3 (F := Ideal) w) (k0_pay4 (F := Ideal) i w) (k0_pay5 (F := Ideal) w))
    (k0_pay7 (k0_pay3 (F := Ideal) w)) x

/-- The stored value at (p, q): the logit times the constant where some column of row p of the ids holds the column
    number 3200 · i₁ + q, the logit elsewhere. -/
theorem stored_apply (i : grid0.Coords) (w : Vec Ideal S512x32 .i32) (x : Vec Ideal S512x3200 .f32) (p : Fin 512) (q : Fin 3200) :
    stored i w x (ix2 p q) =
      if (∃ k : Fin 32, w (ix2 p k) = BitVec.ofNat 32 ((i 1).val * 3200 + q.val)) then x (ix2 p q) * ((4194304 / 5033165 : ℝ) : EReal) else x (ix2 p q) := by
  have h3 : k0_pay3 (F := Ideal) w = w := shapeCast_self w _
  refine pay1_apply (k0_pay2 i) (k0_pay3 (F := Ideal) w) _ x p q
    (pay6_apply (k0_pay2 i) (k0_pay3 (F := Ideal) w) _ p q (pay4_apply i w p q)) ?_
  rw [hit_all, h3, pay2_apply]

end Cert.KernelIdeal.Pay

end
-- ==== Proof.KValue.lean ====
/-
  The kernel program's output array after the run, as one function of the two arrays the region reads. The grid has
  8 × 10 points; point (i₀, i₁) reads the [512, 32] block i₀ of the shifted token ids and the [512, 3200] block (i₀, i₁)
  of the logits, and writes back the [512, 3200] block (i₀, i₁) of the output. What it writes at row p, column q of its
  block is the logit there, scaled by 4194304 / 5033165 exactly when one of the 32 ids of row p equals the column's
  number in the vocabulary, 3200 · i₁ + q. Row p of block i₀ is row n = 512 · i₀ + p of the arrays and column q of
  block i₁ is column v = 3200 · i₁ + q, so the written block is the block of ONE array-wide function: entry (n, v) is
  the logit at (n, v), scaled exactly when some id of row n equals v. The 80 blocks tile the [4096, 32000] array — the
  point covering (n, v) is (n / 512, v / 3200) — so the array ends holding that function everywhere.
-/
import proofs.«400046_j37288906064558_2_alg».proof.Proof.FrameKI
import proofs.«400046_j37288906064558_2_alg».proof.Proof.PayloadAt
import Idealize.ShloMosaic.Lib.Pipeline.Value
import Idealize.ShloMosaic.Lib.ValueIdx

noncomputable section

namespace Cert.KernelIdeal.KVal

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)

/-! ## The array-wide function -/

/-- One entry of the result: row `n` of the flattened arrays, vocabulary column `v`. The logit there, scaled by
    4194304 / 5033165 exactly when one of the 32 shifted ids of row `n` is `v`. -/
noncomputable def Gat (W : IVec S4096x32 32) (X : FVec Ideal S4096x32000 .f32) (n : Fin 4096) (v : Fin 32000) : EReal :=
  if (∃ k : Fin 32, W (ix2 n k) = BitVec.ofNat 32 v.val) then X (ix2 n v) * ((4194304 / 5033165 : ℝ) : EReal) else X (ix2 n v)

/-- The whole result array: entry by entry `Gat`. -/
noncomputable def G (W : IVec S4096x32 32) (X : FVec Ideal S4096x32000 .f32) : FVec Ideal S4096x32000 .f32 :=
  fun j => Gat W X (j 0) (j 1)

variable (m : (ℓ : Loc nD τ sig) → Buf (Elt Ideal) ℓ)

/-! ## Where each point's blocks lie -/

/-- A block that starts at its buffer's origin starts at offset zero on both axes. -/
theorem origin_eq : (![0, 0] : Fin 2 → Nat) = fun _ => 0 := funext fun a => by fin_cases a <;> rfl

/-- The block indices over the 80 grid points: the ids' block moves with the output's row tile and stays at column
    block 0; the logits' block is the output's; the output's block index is within 8 × 10; and the point's second
    grid coordinate, which the body turns into the column offset, is the output's column block. -/
theorem block_index : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = win0_2.index t (1 : Fin 2)
    ∧ win0_2.index t (0 : Fin 2) ≤ 7
    ∧ win0_2.index t (1 : Fin 2) ≤ 9
    ∧ (grid0.coords t (1 : Fin 2)).val = win0_2.index t (1 : Fin 2) :=
  (by decide +kernel : ∀ t : Fin grid0.N, _)

/-- Every one of the 8 × 10 output blocks is some point's. -/
theorem block_onto : ∀ (q0 : Fin 8) (q1 : Fin 10), ∃ t : Fin cfg0.N, win0_2.index t = ![q0.val, q1.val] :=
  (by decide +kernel : ∀ (q0 : Fin 8) (q1 : Fin 10), ∃ t : Fin grid0.N, win0_2.index t = ![q0.val, q1.val])

/-- Row `p`, position `k` of the ids' block at point `t` is row `n`, position `k` of the ids array, when `n` is
    512 times the output's row block plus `p`. -/
theorem ids_at (c : Dev nD) (t : Fin cfg0.N) (p : Fin 512) (k : Fin 32) (n : Fin 4096)
    (hn : n.val = win0_2.index t (0 : Fin 2) * 512 + p.val) :
    iblk (F := Ideal) m c 0 t (ix2 p k) = V (F := Ideal) m c main_v131 (ix2 n k) := by
  obtain ⟨e0, e1, e2, e3, e4, e5, e6⟩ := block_index t
  show V (F := Ideal) m c main_v131 (((cfg0.win 0).blk t).view.emb (ix2 p k)) = V (F := Ideal) m c main_v131 (ix2 n k)
  refine congrArg _ ?_
  funext a; apply Fin.ext
  match a with
  | ⟨0, _⟩ => show win0_0.index t (0 : Fin 2) * 512 + 1 * p.val = n.val; omega
  | ⟨1, _⟩ => show win0_0.index t (1 : Fin 2) * 32 + 1 * k.val = k.val; omega

/-- Row `p`, column `q` of the logits' block at point `t` is entry (`n`, `v`) of the logits array, when `n` is 512
    times the output's row block plus `p` and `v` is 3200 times its column block plus `q`. -/
theorem logits_at (c : Dev nD) (t : Fin cfg0.N) (p : Fin 512) (q : Fin 3200) (n : Fin 4096) (v : Fin 32000)
    (hn : n.val = win0_2.index t (0 : Fin 2) * 512 + p.val) (hv : v.val = win0_2.index t (1 : Fin 2) * 3200 + q.val) :
    iblk (F := Ideal) m c 1 t (ix2 p q) = V (F := Ideal) m c main_v132 (ix2 n v) := by
  obtain ⟨e0, e1, e2, e3, e4, e5, e6⟩ := block_index t
  show V (F := Ideal) m c main_v132 (((cfg0.win 1).blk t).view.emb (ix2 p q)) = V (F := Ideal) m c main_v132 (ix2 n v)
  refine congrArg _ ?_
  funext a; apply Fin.ext
  match a with
  | ⟨0, _⟩ => show win0_1.index t (0 : Fin 2) * 512 + 1 * p.val = n.val; omega
  | ⟨1, _⟩ => show win0_1.index t (1 : Fin 2) * 3200 + 1 * q.val = v.val; omega

/-- Row `p`, column `q` of the output's block at point `t` is entry (`n`, `v`) of the output array, for the same
    `n` and `v`. -/
theorem out_at (t : Fin cfg0.N) (p : Fin 512) (q : Fin 3200) (n : Fin 4096) (v : Fin 32000)
    (hn : n.val = win0_2.index t (0 : Fin 2) * 512 + p.val) (hv : v.val = win0_2.index t (1 : Fin 2) * 3200 + q.val) :
    ((cfg0.win 2).blk t).view.emb (ix2 p q) = ix2 n v := by
  funext a; apply Fin.ext
  match a with
  | ⟨0, _⟩ => show win0_2.index t (0 : Fin 2) * 512 + 1 * p.val = n.val; omega
  | ⟨1, _⟩ => show win0_2.index t (1 : Fin 2) * 3200 + 1 * q.val = v.val; omega

/-! ## What a point writes back -/

/-- The output block after the body is the stored value of the two loaded blocks: the one store covers the buffer from
    its origin, and each load reads its whole block. -/
theorem outBlk_eq (i : grid0.Coords) (w : Vec Ideal S512x32 .i32) (x : Vec Ideal S512x3200 .f32) :
    outBlk (F := Ideal) i w x = Pay.stored i w x := by
  unfold outBlk
  rw [View.canon_unit_zero origin_eq]
  simp only [View.ld_unit_zero (S := S512x32) origin_eq, View.ld_unit_zero (S := S512x3200) origin_eq]
  rfl

/-- No output block overhangs the array, so a point writes back the whole of its buffer: entry (`p`, `q`) of what is
    written is entry (`p`, `q`) of the buffer. -/
theorem written_at (t : Fin cfg0.N) (X : Vec Ideal S512x3200 .f32) (p : Fin 512) (q : Fin 3200) :
    (cfg0.win 2).cut (grid0.coords t) X (ix2 p q) = X (ix2 p q) := rfl

/-- What point `t` writes back is block `t` of `G` of the two arrays as the region finds them. -/
theorem flushed_eq (c : Dev nD) (t : Fin cfg0.N) :
    (dats (F := Ideal) m 0 c).flushed 2 t
      = ((cfg0.win 2).blk t).view.read (Elt Ideal) (G (V (F := Ideal) m c main_v131) (V (F := Ideal) m c main_v132)) := by
  show (cfg0.win 2).cut (grid0.coords t) ((dats (F := Ideal) m 0 c).after 2 t) = _
  rw [after0_2, outBlk_eq]
  funext y
  obtain ⟨p, q, rfl⟩ : ∃ (p : Fin 512) (q : Fin 3200), y = ix2 p q := ⟨y 0, y 1, eq_ix2 y⟩
  obtain ⟨e0, e1, e2, e3, e4, e5, e6⟩ := block_index t
  have hp : p.val < 512 := p.isLt
  have hq : q.val < 3200 := q.isLt
  -- the row and the column of the arrays this entry of the block is
  obtain ⟨n, hn⟩ : ∃ n : Fin 4096, n.val = win0_2.index t (0 : Fin 2) * 512 + p.val := ⟨⟨_, by omega⟩, rfl⟩
  obtain ⟨v, hv⟩ : ∃ v : Fin 32000, v.val = win0_2.index t (1 : Fin 2) * 3200 + q.val := ⟨⟨_, by omega⟩, rfl⟩
  refine (written_at t _ p q).trans ?_
  refine (Pay.stored_apply (grid0.coords t) (iblk (F := Ideal) m c 0 t) (iblk (F := Ideal) m c 1 t) p q).trans ?_
  rw [View.read_apply, out_at t p q n v hn hv, logits_at m c t p q n v hn hv]
  have hcol : (grid0.coords t (1 : Fin 2)).val * 3200 + q.val = v.val := by omega
  have hc : (∃ k : Fin 32, iblk (F := Ideal) m c 0 t (ix2 p k) = BitVec.ofNat 32 ((grid0.coords t (1 : Fin 2)).val * 3200 + q.val))
      ↔ (∃ k : Fin 32, V (F := Ideal) m c main_v131 (ix2 n k) = BitVec.ofNat 32 v.val) :=
    exists_congr fun k => by rw [ids_at m c t p k n hn, hcol]
  exact if_congr hc rfl rfl

/-! ## The blocks tile the array -/

/-- An entry of the array is in point `t`'s block iff each coordinate is in the block's range on its axis. -/
theorem mem_blk (t : Fin cfg0.N) (i : S4096x32000.Idx) :
    i ∈ ((cfg0.win 2).blk t).view.set ↔ ∀ a : Fin 2, win0_2.index t a * S512x3200.size a ≤ (i a).val ∧ (i a).val < win0_2.index t a * S512x3200.size a + S512x3200.size a := by
  show i ∈ ((View.whole main_v133).slice (win0_2.rect t)).set ↔ _
  rw [View.set_slice_whole, Rect.mem_set_unit]
  exact Iff.rfl

/-- Every entry (n, v) of the array is in the block of the point whose block index is (n / 512, v / 3200), and that
    point writes back. -/
theorem cover (i : S4096x32000.Idx) :
    ∃ t : Fin cfg0.N, (cfg0.win 2).flush t = true ∧ i ∈ ((cfg0.win 2).blk t).view.set := by
  have hi0 : (i 0).val < 4096 := (i 0).isLt
  have hi1 : (i 1).val < 32000 := (i 1).isLt
  obtain ⟨t, ht⟩ := block_onto ⟨(i 0).val / 512, by omega⟩ ⟨(i 1).val / 3200, by omega⟩
  have q0 : win0_2.index t (0 : Fin 2) = (i 0).val / 512 := congrFun ht 0
  have q1 : win0_2.index t (1 : Fin 2) = (i 1).val / 3200 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3200 ≤ (i 1).val ∧ (i 1).val < win0_2.index t (1 : Fin 2) * 3200 + 3200; omega

/-! ## The array after the run -/

/-- The output array after the run is `G` of the ids array and the logits array as the region finds them. -/
theorem final2 (m : (ℓ : Loc nD τ sig) → Buf (Elt Ideal) ℓ) (c : Dev nD) :
    (dats (F := Ideal) m 0 c).arrAt 2 cfg0.N = G (V (F := Ideal) m c main_v131) (V (F := Ideal) m c main_v132) :=
  (dats (F := Ideal) m 0 c).arrAt_eq_of_cover 2 (G (V (F := Ideal) m c main_v131) (V (F := Ideal) m c main_v132))
    (fun t _ => flushed_eq m c t) cover

end Cert.KernelIdeal.KVal

end
-- ==== Proof.PreDecode.lean ====
/-
  The precondition read back. The printed predicate is the conjunction of two reductions by `and`
  to a single word: every |logit| is below +∞, and every token id compares ≥ 0 signed. When the
  predicate's word is 1, both conjuncts are 1; a reduction by `and` over all axes that is 1 met a 1
  at every index; and the word of a signed comparison `x ≥ 0` is 1 exactly when the signed reading
  of `x` is nonnegative.
-/
import proofs.«400046_j37288906064558_2_alg».proof.Pre_finite_inputs
import proofs.«400046_j37288906064558_2_alg».proof.Proof.Gen.Pre_finite_inputs
import Idealize.ShloMosaic.Lib.ReduceAll
import Idealize.ShloMosaic.Lib.StableHlo.Predicate
import Idealize.ShloMosaic.Lib.ValueIdx

namespace Cert.Pre_finite_inputs.Decode

open Idealize.ShloMosaic

/-- The rank-0 shape has one index. -/
instance subsingleton_S_ : Subsingleton S_.Idx := ⟨fun a b => funext fun d => d.elim0⟩

/-- Every token id is nonnegative, read signed, when the precondition holds. -/
theorem ids_nonneg {F : FTy → Type} [FloatOps F] [hf : Cert.Pre_finite_inputs.Facts] (x0 : FVec F S2x2048x32000 .f32) (x1 : IVec S2x2048 32)
    (h : Cert.Pre_finite_inputs.fn (F := F) x0 x1 = fun _ => 1#1) : ∀ j : S2x2048.Idx, 0 ≤ (x1 j).toInt := by
  intro j
  have h0 := congrFun h ValueIdx.ix0
  dsimp only [fn] at h0
  -- the conjunction's word is 1: so is the word of each conjunct
  have h2 := (IntOp.andi_eq_one.1 h0).2
  -- the reduction by `and` over both axes is 1: the comparison's word at `j` is 1
  have hj := Host.reduce_andi_all _ _ _ _ _ h2 j
  -- the comparison at `j` is of `x1 j` with the broadcast zero
  have hc : IntOp.cmpi .sge (x1 j) 0#32 = 1#1 := hj
  have := IntOp.cmpi_sge.1 hc
  rwa [show (0#32 : BitVec 32).toInt = 0 from by decide] at this

end Cert.Pre_finite_inputs.Decode
-- ==== Proof.ShiftedNonneg.lean ====
/- The shifted token ids of the reference program are not negative.

   The reference builds, for k = 1..32, the ids shifted right by k along the sequence axis: a block of k
   copies of the padding word 32000 joined before the first 2048 - k ids of each row. Each shifted copy gets a
   trailing unit axis, and the 32 copies are joined along it (16 and 16, then the two halves). No operation on
   the way computes anything: every entry of the result is the padding word or an entry of the ids. So a
   property of words that holds of 32000 and of every id holds of every entry — here, not being negative when
   read signed. -/
import proofs.«400046_j37288906064558_2_alg».proof.Proof.RefRead
import Idealize.ShloMosaic.Lib.Pipeline.Value

namespace Cert.ReferenceIdeal.Shifted

open Cert.ReferenceIdeal Cert.ReferenceIdeal.ReadP Idealize.ShloMosaic

variable {F : FTy → Type} [FloatOps F]

/-- An entry of a concatenation is an entry of one of the joined pieces: what holds of every entry of every
    piece holds of every entry of the result. -/
theorem concatenate_all {α : Type} (P : α → Prop) (t : Shape) (a : Fin t.rank)
    (xs : List ((s : Shape) × (s.Idx → α))) (h : Shape.Concatenates (xs.map (·.1)) t a)
    (hx : ∀ p ∈ xs, ∀ i, P (p.2 i)) (j : t.Idx) : P (concatenate t a xs h j) := by
  unfold concatenate
  exact hx _ (List.getElem_mem _) _

/-- An entry of a broadcast is an entry of the operand. -/
theorem broadcastInDim_all {s : Shape} {α : Type} (P : α → Prop) (t : Shape) (dims : Fin s.rank → Fin t.rank)
    (h : s.BroadcastsInDim t dims) (x : s.Idx → α) (hx : ∀ i, P (x i)) (j : t.Idx) :
    P (broadcastInDim t dims h x j) := hx _

/-- An entry of a slice is an entry of the operand. -/
theorem extractStridedSlice_all {s : Shape} {α : Type} (P : α → Prop) (t : Shape) (off : Fin s.rank → Nat)
    (x : s.Idx → α) (h : s.Slices off t) (hx : ∀ i, P (x i)) (j : t.Idx) :
    P (extractStridedSlice t off x h j) := hx _

/-! The same at the predicate "not negative read signed" on 32-bit words, in the shape the walk below applies. -/

theorem nonneg_concatenate (t : Shape) (a : Fin t.rank) (xs : List ((s : Shape) × (s.Idx → BitVec 32)))
    (h : Shape.Concatenates (xs.map (·.1)) t a) (hx : ∀ p ∈ xs, ∀ i, 0 ≤ (p.2 i).toInt) (j : t.Idx) :
    0 ≤ (concatenate t a xs h j).toInt :=
  concatenate_all (fun v => 0 ≤ v.toInt) t a xs h hx j

theorem nonneg_nil : ∀ p ∈ ([] : List ((s : Shape) × (s.Idx → BitVec 32))), ∀ i, 0 ≤ (p.2 i).toInt :=
  fun _ hp => nomatch hp

theorem nonneg_cons (s : Shape) (x : s.Idx → BitVec 32) (xs : List ((s : Shape) × (s.Idx → BitVec 32)))
    (h₁ : ∀ i, 0 ≤ (x i).toInt) (h₂ : ∀ p ∈ xs, ∀ i, 0 ≤ (p.2 i).toInt) :
    ∀ p ∈ (⟨s, x⟩ :: xs : List ((s : Shape) × (s.Idx → BitVec 32))), ∀ i, 0 ≤ (p.2 i).toInt := by
  intro p hp
  rcases List.mem_cons.1 hp with rfl | hp
  · exact h₁
  · exact h₂ p hp

theorem nonneg_broadcastInDim {s : Shape} (t : Shape) (dims : Fin s.rank → Fin t.rank)
    (h : s.BroadcastsInDim t dims) (x : s.Idx → BitVec 32) (hx : ∀ i, 0 ≤ (x i).toInt) (j : t.Idx) :
    0 ≤ (broadcastInDim t dims h x j).toInt :=
  broadcastInDim_all (fun v => 0 ≤ v.toInt) t dims h x hx j

theorem nonneg_slice {s : Shape} (t : Shape) (off : Fin s.rank → Nat) (x : s.Idx → BitVec 32)
    (h : s.Slices off t) (hx : ∀ i, 0 ≤ (x i).toInt) (j : t.Idx) :
    0 ≤ (extractStridedSlice t off x h j).toInt :=
  extractStridedSlice_all (fun v => 0 ≤ v.toInt) t off x h hx j

/-- The padding word 32000 is not negative. -/
theorem nonneg_pad (s : Shape) (i : s.Idx) : 0 ≤ (constantI s 32 32000#32 i).toInt := by
  show 0 ≤ (32000#32 : BitVec 32).toInt
  decide

/-- Splits a statement about every piece of a literal list into one goal per piece. -/
local macro "pieces" : tactic => `(tactic| repeat' first | exact nonneg_nil | apply nonneg_cons)

/-- One shifted copy of the ids: a block of the padding word joined before a slice of the ids. -/
local macro "shift_block" : tactic => `(tactic|
  (intro i; apply nonneg_concatenate; apply nonneg_cons
   · intro i; apply nonneg_broadcastInDim; intro i; exact nonneg_pad _ _
   · apply nonneg_cons
     · intro i; apply nonneg_slice; assumption
     · exact nonneg_nil))

/-- The first sixteen shifted copies, joined. -/
theorem first_half_nonneg (ids : IVec S2x2048 32) (h : ∀ j : S2x2048.Idx, 0 ≤ (ids j).toInt) :
    ∀ i : S2x2048x16.Idx, 0 ≤ (val_main_v128 (F := F) ids i).toInt := by
  intro i
  apply nonneg_concatenate
  pieces
  all_goals (intro i; apply nonneg_broadcastInDim; shift_block)

/-- The last sixteen shifted copies, joined. -/
theorem second_half_nonneg (ids : IVec S2x2048 32) (h : ∀ j : S2x2048.Idx, 0 ≤ (ids j).toInt) :
    ∀ i : S2x2048x16.Idx, 0 ≤ (val_main_v129 (F := F) ids i).toInt := by
  intro i
  apply nonneg_concatenate
  pieces
  all_goals (intro i; apply nonneg_broadcastInDim; shift_block)

/-- Every entry of the array of shifted ids is not negative when the ids are not. -/
theorem shifted_nonneg (ids : IVec S2x2048 32) (h : ∀ j : S2x2048.Idx, 0 ≤ (ids j).toInt) :
    ∀ i : S2x2048x32.Idx, 0 ≤ (val_main_v130 (F := F) ids i).toInt := by
  intro i
  apply nonneg_concatenate
  apply nonneg_cons
  · exact first_half_nonneg ids h
  · apply nonneg_cons
    · exact second_half_nonneg ids h
    · exact nonneg_nil

end Cert.ReferenceIdeal.Shifted
-- ==== Proof.LibScatterSet.lean ====
import Idealize.ShloMosaic.PureOps.ShapeOps

/-!
# A scatter that SETS a constant, read at one index

A general lemma about `Host.scatter` (the left fold, over the update indices in row-major order, of
"replace the result's element at the update's result index by the body of that element and the
update's"). When the body returns the update (`x.at[idx].set(v)`) and the update is the CONSTANT
`c`, the order of the fold does not matter at a single result index `i'`:

* if SOME update index `j` lands at `i'` (`resultIdx? j idx = some i'`), the result at `i'` is `c`
  — whichever update came last there wrote `c`, and every one that hits `i'` writes `c`;
* if NO update index lands at `i'`, the result at `i'` is the operand's element `x i'`.

Both are proved for the fold over an ARBITRARY list of flat update indices (induction on the list,
the accumulator general), then read at the list of all of them, every update index `j` being
`rowMajor.symm (rowMajor j)`.
-/

namespace Idealize.ShloMosaic.ScatterSet

open Idealize.ShloMosaic

variable {s si u : Shape} {w : Nat} {α : Type}

/-- The scatter fold of a constant update `c` under the body "return the update", over any list
    `L` of flat update indices and from any accumulator `x`: at an index `i'` that NO member of `L`
    lands at, the accumulator's element is untouched. -/
theorem foldl_set_const_of_miss (d : ScatterDims s si u) (idx : IVec si w) (c : α) (i' : s.Idx) :
    ∀ (L : List (Fin u.numel)) (x : s.Idx → α),
      (∀ n ∈ L, d.resultIdx? (u.rowMajor.symm n) idx ≠ some i') →
      L.foldl (fun r n =>
          match d.resultIdx? (u.rowMajor.symm n) idx with
          | some i => fun i' => if i' = i then c else r i'
          | none => r) x i' = x i' := by
  intro L
  induction L with
  | nil => intro x _; rfl
  | cons n L ih =>
    intro x h
    rw [List.foldl_cons, ih _ (fun m hm => h m (List.mem_cons_of_mem _ hm))]
    have hn := h n List.mem_cons_self
    -- the first step does not touch `i'`: its result index, if any, is another one
    cases hr : d.resultIdx? (u.rowMajor.symm n) idx with
    | none => rfl
    | some i =>
      have hne : i' ≠ i := fun e => hn (by rw [hr, e])
      simp only [if_neg hne]

/-- The same fold at an index `i'` that SOME member of `L` lands at: the element is `c` (the last
    member that lands there writes `c`, the later ones leave it). -/
theorem foldl_set_const_of_hit (d : ScatterDims s si u) (idx : IVec si w) (c : α) (i' : s.Idx) :
    ∀ (L : List (Fin u.numel)) (x : s.Idx → α),
      (∃ n ∈ L, d.resultIdx? (u.rowMajor.symm n) idx = some i') →
      L.foldl (fun r n =>
          match d.resultIdx? (u.rowMajor.symm n) idx with
          | some i => fun i' => if i' = i then c else r i'
          | none => r) x i' = c := by
  intro L
  induction L with
  | nil => intro x h; obtain ⟨n, hn, _⟩ := h; cases hn
  | cons n L ih =>
    intro x h
    rw [List.foldl_cons]
    by_cases hL : ∃ m ∈ L, d.resultIdx? (u.rowMajor.symm m) idx = some i'
    · exact ih _ hL
    · -- no later member lands at `i'`, so the head does, and the tail leaves what it wrote
      have hmiss : ∀ m ∈ L, d.resultIdx? (u.rowMajor.symm m) idx ≠ some i' :=
        fun m hm e => hL ⟨m, hm, e⟩
      have hn : d.resultIdx? (u.rowMajor.symm n) idx = some i' := by
        obtain ⟨m, hm, e⟩ := h
        rcases List.mem_cons.mp hm with rfl | hm'
        · exact e
        · exact absurd e (hmiss m hm')
      rw [foldl_set_const_of_miss d idx c i' L _ hmiss, hn]
      simp only [if_true]

/-- A scatter whose body returns the update (`.at[].set`), of a CONSTANT update `c`, read at an index
    `i'` that some update index lands at: it is `c`. -/
theorem scatter_set_const_of_hit {s si u : Shape} {w : Nat} {α : Type} (d : ScatterDims s si u)
    (x : s.Idx → α) (idx : IVec si w) (c : α) (i' : s.Idx)
    (h : ∃ j : u.Idx, d.resultIdx? j idx = some i') :
    Host.scatter d (fun _ b => b) x idx (fun _ => c) i' = c := by
  obtain ⟨j, hj⟩ := h
  exact foldl_set_const_of_hit d idx c i' (List.finRange u.numel) x
    ⟨u.rowMajor j, List.mem_finRange _, by rw [Equiv.symm_apply_apply]; exact hj⟩

/-- The same scatter read at an index `i'` that NO update index lands at: it is the operand's
    element. -/
theorem scatter_set_const_of_miss {s si u : Shape} {w : Nat} {α : Type} (d : ScatterDims s si u)
    (x : s.Idx → α) (idx : IVec si w) (c : α) (i' : s.Idx)
    (h : ¬ ∃ j : u.Idx, d.resultIdx? j idx = some i') :
    Host.scatter d (fun _ b => b) x idx (fun _ => c) i' = x i' :=
  foldl_set_const_of_miss d idx c i' (List.finRange u.numel) x
    (fun n _ e => h ⟨u.rowMajor.symm n, e⟩)

end Idealize.ShloMosaic.ScatterSet
-- ==== Proof.RefMask.lean ====
/-
  The presence mask of the reference, read at one element.

  The reference scatters the bit 1 into a [2, 2048, 32000] array of 0 bits at the index vectors
  (b, s, W[b, s, k]) for every (b, s, k) in [2] × [2048] × [32], W the shifted ids; an index vector that
  leaves the array is dropped. When no W[b, s, k] is negative, the element (b, s, v) of the result is 1
  exactly when some k has W[b, s, k] = v, and 0 otherwise.

  The three components of an index vector are first normalised (x < 0 ? x + extent : x), which is the
  identity on a word that is not negative; the first two are the coordinates b and s themselves.
-/
import proofs.«400046_j37288906064558_2_alg».proof.Proof.Gen.ReferenceIdeal
import proofs.«400046_j37288906064558_2_alg».proof.Proof.RefRead
import proofs.«400046_j37288906064558_2_alg».proof.Proof.LibScatterSet
import Idealize.ShloMosaic.Lib.ValueIdx
import Idealize.ShloMosaic.Lib.Pipeline.Value
import Idealize.ShloMosaic.Lib.StableHlo.Predicate

noncomputable section

namespace Cert.ReferenceIdeal.Mask

open Cert.ReferenceIdeal Cert.ReferenceIdeal.ReadP Idealize.ShloMosaic Idealize.ShloMosaic.ValueIdx

/-! ## The scatter's dimension numbers: where an update index lands

All three axes of the operand are inserted window axes and the index vector lies along the last axis of
the indices, so update index `j = (j0, j1, j2)` lands at the operand index whose coordinate on axis `a`
is component `a` of the index vector at `(j0, j1, j2)`, read signed — when all three are inside the
operand; otherwise it lands nowhere. -/

/-- The scatter's dimension numbers. -/
abbrev dS : ScatterDims S2x2048x32000 S2x2048x32x3 S2x2048x32 :=
  scatter_S2x2048x32000_S2x2048x32x3_S2x2048x32_n_012_012_3

/-- Every operand axis is inserted: the window coordinate is 0 on each. -/
theorem window_eq (j : S2x2048x32.Idx) (a : Fin 3) : dS.window j a = 0 := by
  unfold ScatterDims.window
  rw [dif_neg (by revert a; decide)]

/-- Component `c` of update index `j`'s index vector is read at `(j0, j1, j2, c)`. -/
theorem siIdx_eq (j : S2x2048x32.Idx) (c : Fin dS.scatterDimsToOperandDims.length) :
    dS.siIdx j c = ix4 (j 0) (j 1) (j 2) (⟨c.val, c.isLt⟩ : Fin 3) := by
  funext b
  match b with
  | ⟨0, _⟩ => rfl
  | ⟨1, _⟩ => rfl
  | ⟨2, _⟩ => rfl
  | ⟨3, _⟩ => rfl

/-- The start on operand axis `a` is component `a` of the index vector, read signed. -/
theorem start_eq (idx : IVec S2x2048x32x3 32) (j : S2x2048x32.Idx) (a : Fin 3) :
    dS.start j idx a = (idx (ix4 (j 0) (j 1) (j 2) a)).toInt := by
  have ha : a ∈ dS.scatterDimsToOperandDims := by revert a; decide
  unfold ScatterDims.start
  rw [dif_pos ha, siIdx_eq]
  have hc : (⟨List.idxOf a dS.scatterDimsToOperandDims, List.idxOf_lt_length_iff.2 ha⟩ : Fin 3) = a := by
    revert a; decide
  exact congrArg (fun c : Fin 3 => (idx (ix4 (j 0) (j 1) (j 2) c)).toInt) hc

/-- The landing index of update index `j`: the three components of its index vector, read signed, when each is inside
    the operand's extent. -/
theorem resultIdx_eq_some_iff (idx : IVec S2x2048x32x3 32) (j : S2x2048x32.Idx)
    (b : Fin 2) (s : Fin 2048) (v : Fin 32000) :
    dS.resultIdx? j idx = some (ix3 b s v) ↔
      (idx (ix4 (j 0) (j 1) (j 2) 0)).toInt = (b.val : Int) ∧
      (idx (ix4 (j 0) (j 1) (j 2) 1)).toInt = (s.val : Int) ∧
      (idx (ix4 (j 0) (j 1) (j 2) 2)).toInt = (v.val : Int) := by
  have hb := b.isLt
  have hs := s.isLt
  have hv := v.isLt
  unfold ScatterDims.resultIdx?
  split
  · rename_i h
    rw [Option.some.injEq]
    have h0 := h 0
    have h1 := h 1
    have h2 := h 2
    rw [start_eq, window_eq] at h0 h1 h2
    constructor
    · intro e
      have e0 := congrArg Fin.val (congrFun e 0)
      have e1 := congrArg Fin.val (congrFun e 1)
      have e2 := congrArg Fin.val (congrFun e 2)
      change (dS.start j idx 0 + (dS.window j 0 : Nat)).toNat = b.val at e0
      change (dS.start j idx 1 + (dS.window j 1 : Nat)).toNat = s.val at e1
      change (dS.start j idx 2 + (dS.window j 2 : Nat)).toNat = v.val at e2
      rw [start_eq, window_eq] at e0 e1 e2
      omega
    · rintro ⟨e0, e1, e2⟩
      funext a
      match a with
      | ⟨0, _⟩ =>
        apply Fin.ext
        change (dS.start j idx 0 + (dS.window j 0 : Nat)).toNat = b.val
        rw [start_eq, window_eq, e0]; omega
      | ⟨1, _⟩ =>
        apply Fin.ext
        change (dS.start j idx 1 + (dS.window j 1 : Nat)).toNat = s.val
        rw [start_eq, window_eq, e1]; omega
      | ⟨2, _⟩ =>
        apply Fin.ext
        change (dS.start j idx 2 + (dS.window j 2 : Nat)).toNat = v.val
        rw [start_eq, window_eq, e2]; omega
  · rename_i h
    constructor
    · intro e; cases e
    · rintro ⟨e0, e1, e2⟩
      exfalso
      apply h
      intro a
      match a with
      | ⟨0, _⟩ =>
        change 0 ≤ dS.start j idx 0 + (dS.window j 0 : Nat) ∧ dS.start j idx 0 + (dS.window j 0 : Nat) < ((2 : Nat) : Int)
        rw [start_eq, window_eq, e0]; omega
      | ⟨1, _⟩ =>
        change 0 ≤ dS.start j idx 1 + (dS.window j 1 : Nat) ∧ dS.start j idx 1 + (dS.window j 1 : Nat) < ((2048 : Nat) : Int)
        rw [start_eq, window_eq, e1]; omega
      | ⟨2, _⟩ =>
        change 0 ≤ dS.start j idx 2 + (dS.window j 2 : Nat) ∧ dS.start j idx 2 + (dS.window j 2 : Nat) < ((32000 : Nat) : Int)
        rw [start_eq, window_eq, e2]; omega

/-! ## The index vectors: the three components at an update index -/

/-- The index normalisation `x < 0 ? x + e : x` is the identity on a word that is not negative. -/
theorem norm_of_nonneg (x e : BitVec 32) (h : 0 ≤ x.toInt) :
    Scalar.select (IntOp.cmpi .slt x 0#32) (IntOp.addi x e) x = x := by
  have hlt : x.slt 0#32 = false := by
    simp only [BitVec.slt, BitVec.toInt_zero, decide_eq_false_iff_not, Int.not_lt]
    exact h
  show (if BitVec.ofBool (x.slt 0#32) = 1 then _ else _) = _
  rw [hlt]
  rfl

/-- Component 0 of the index vector at update index `(j0, j1, j2)` is the batch coordinate `j0`. -/
theorem comp0 (ids : IVec S2x2048 32) (j0 : Fin 2) (j1 : Fin 2048) (j2 : Fin 32) :
    val_main_v156 (F := Ideal) ids (ix4 j0 j1 j2 (0 : Fin 3)) = BitVec.ofNat 32 j0.val := by
  have key := concatenate_apply_piece (t := S2x2048x32x3) (3 : Fin 4)
    [⟨S2x2048x32x1, (val_main_v153 (F := Ideal))⟩, ⟨S2x2048x32x1, (val_main_v154 (F := Ideal))⟩,
      ⟨S2x2048x32x1, (val_main_v155 (F := Ideal) ids)⟩]
    Gen.concatenates_S2x2048x32x1_S2x2048x32x1_S2x2048x32x1_S2x2048x32x3_d3
    (ix4 j0 j1 j2 (0 : Fin 3)) 0 (by show (0 : Nat) < 3; omega) S2x2048x32x1 (val_main_v153 (F := Ideal)) rfl rfl 0 rfl
    (ix4 j0 j1 j2 (0 : Fin 1)) (fun b hb => match b, hb with
      | ⟨0, _⟩, _ => rfl
      | ⟨1, _⟩, _ => rfl
      | ⟨2, _⟩, _ => rfl
      | ⟨3, _⟩, hb => absurd rfl hb) rfl
  unfold val_main_v156
  refine key.trans ?_
  simp only [val_main_v153_apply, val_main_v151_apply, val_main_v140_apply, val_main_v137_apply, val_main_v139_apply,
    val_main_v132_apply, val_main_v136_apply, val_main_v138_apply, val_main_v131_apply, val_main_c_32_apply,
    val_main_c_33_apply]
  exact norm_of_nonneg (BitVec.ofNat 32 j0.val) _ (by
    rw [StableHlo.Predicate.toInt_ofNat_small _ (by have := j0.isLt; omega)]; omega)

/-- Component 1 is the sequence coordinate `j1`. -/
theorem comp1 (ids : IVec S2x2048 32) (j0 : Fin 2) (j1 : Fin 2048) (j2 : Fin 32) :
    val_main_v156 (F := Ideal) ids (ix4 j0 j1 j2 (1 : Fin 3)) = BitVec.ofNat 32 j1.val := by
  have key := concatenate_apply_piece (t := S2x2048x32x3) (3 : Fin 4)
    [⟨S2x2048x32x1, (val_main_v153 (F := Ideal))⟩, ⟨S2x2048x32x1, (val_main_v154 (F := Ideal))⟩,
      ⟨S2x2048x32x1, (val_main_v155 (F := Ideal) ids)⟩]
    Gen.concatenates_S2x2048x32x1_S2x2048x32x1_S2x2048x32x1_S2x2048x32x3_d3
    (ix4 j0 j1 j2 (1 : Fin 3)) 1 (by show (1 : Nat) < 3; omega) S2x2048x32x1 (val_main_v154 (F := Ideal)) rfl rfl 1 rfl
    (ix4 j0 j1 j2 (0 : Fin 1)) (fun b hb => match b, hb with
      | ⟨0, _⟩, _ => rfl
      | ⟨1, _⟩, _ => rfl
      | ⟨2, _⟩, _ => rfl
      | ⟨3, _⟩, hb => absurd rfl hb) rfl
  unfold val_main_v156
  refine key.trans ?_
  simp only [val_main_v154_apply, val_main_v152_apply, val_main_v145_apply, val_main_v142_apply, val_main_v144_apply,
    val_main_v134_apply, val_main_v141_apply, val_main_v143_apply, val_main_v133_apply, val_main_c_34_apply,
    val_main_c_35_apply]
  exact norm_of_nonneg (BitVec.ofNat 32 j1.val) _ (by
    rw [StableHlo.Predicate.toInt_ofNat_small _ (by have := j1.isLt; omega)]; omega)

/-- Component 2 is the shifted id at `(j0, j1, j2)`, which is not negative. -/
theorem comp2 (ids : IVec S2x2048 32)
    (hW : ∀ i : S2x2048x32.Idx, 0 ≤ (val_main_v130 (F := Ideal) ids i).toInt)
    (j0 : Fin 2) (j1 : Fin 2048) (j2 : Fin 32) :
    val_main_v156 (F := Ideal) ids (ix4 j0 j1 j2 (2 : Fin 3)) = val_main_v130 (F := Ideal) ids (ix3 j0 j1 j2) := by
  have key := concatenate_apply_piece (t := S2x2048x32x3) (3 : Fin 4)
    [⟨S2x2048x32x1, (val_main_v153 (F := Ideal))⟩, ⟨S2x2048x32x1, (val_main_v154 (F := Ideal))⟩,
      ⟨S2x2048x32x1, (val_main_v155 (F := Ideal) ids)⟩]
    Gen.concatenates_S2x2048x32x1_S2x2048x32x1_S2x2048x32x1_S2x2048x32x3_d3
    (ix4 j0 j1 j2 (2 : Fin 3)) 2 (by show (2 : Nat) < 3; omega) S2x2048x32x1 (val_main_v155 (F := Ideal) ids) rfl rfl 2 rfl
    (ix4 j0 j1 j2 (0 : Fin 1)) (fun b hb => match b, hb with
      | ⟨0, _⟩, _ => rfl
      | ⟨1, _⟩, _ => rfl
      | ⟨2, _⟩, _ => rfl
      | ⟨3, _⟩, hb => absurd rfl hb) rfl
  unfold val_main_v156
  refine key.trans ?_
  have hi : idx_main_v155 (ix4 j0 j1 j2 (0 : Fin 1)) = ix3 j0 j1 j2 := by
    funext a
    match a with
    | ⟨0, _⟩ => rfl
    | ⟨1, _⟩ => rfl
    | ⟨2, _⟩ => rfl
  simp only [val_main_v155_apply, val_main_v150_apply, val_main_v147_apply, val_main_v149_apply,
    val_main_v146_apply, val_main_c_36_apply, hi]
  exact norm_of_nonneg _ _ (hW _)

/-! ## The mask at an index -/

/-- The mask at `(b, s, v)` is 1 exactly when `v` is one of the 32 shifted ids at `(b, s)`, given that no
    shifted id is negative. -/
theorem mask_apply (ids : IVec S2x2048 32) (hW : ∀ i : S2x2048x32.Idx, 0 ≤ (val_main_v130 (F := Ideal) ids i).toInt) (b : Fin 2) (s : Fin 2048) (v : Fin 32000) :
    val_main_v158 (F := Ideal) ids (ix3 b s v) = if (∃ k : Fin 32, val_main_v130 (F := Ideal) ids (ix3 b s k) = BitVec.ofNat 32 v.val) then 1#1 else 0#1 := by
  have hv := v.isLt
  have e135 : val_main_v135 (F := Ideal) = fun _ => 0#1 := by
    funext i; rw [val_main_v135_apply, val_main_c_31_apply]
  have e157 : val_main_v157 (F := Ideal) = fun _ => 1#1 := by
    funext i; rw [val_main_v157_apply, val_main_c_38_apply]
  -- where update index `j` lands
  have hland : ∀ j : S2x2048x32.Idx,
      dS.resultIdx? j (val_main_v156 (F := Ideal) ids) = some (ix3 b s v) ↔
        (j 0).val = b.val ∧ (j 1).val = s.val ∧ (val_main_v130 (F := Ideal) ids j).toInt = (v.val : Int) := by
    intro j
    have h0 : (j 0).val < 2 := (j 0).isLt
    have h1 : (j 1).val < 2048 := (j 1).isLt
    have c0 := comp0 ids (j 0) (j 1) (j 2)
    have c1 := comp1 ids (j 0) (j 1) (j 2)
    have c2 : val_main_v156 (F := Ideal) ids (ix4 (j 0) (j 1) (j 2) (2 : Fin 3)) = val_main_v130 (F := Ideal) ids j :=
      (comp2 ids hW (j 0) (j 1) (j 2)).trans (congrArg (val_main_v130 (F := Ideal) ids) (eq_ix3 j).symm)
    rw [resultIdx_eq_some_iff, c0, c1, c2,
      StableHlo.Predicate.toInt_ofNat_small _ (by omega), StableHlo.Predicate.toInt_ofNat_small _ (by omega)]
    omega
  unfold val_main_v158
  rw [e135, e157]
  by_cases h : ∃ k : Fin 32, val_main_v130 (F := Ideal) ids (ix3 b s k) = BitVec.ofNat 32 v.val
  · rw [if_pos h]
    obtain ⟨k, hk⟩ := h
    apply ScatterSet.scatter_set_const_of_hit
    refine ⟨ix3 b s k, (hland _).2 ⟨rfl, rfl, ?_⟩⟩
    rw [hk, StableHlo.Predicate.toInt_ofNat_small _ (by omega)]
  · rw [if_neg h]
    refine (ScatterSet.scatter_set_const_of_miss _ _ _ _ _ ?_).trans rfl
    rintro ⟨j, hj⟩
    obtain ⟨h0, h1, h2⟩ := (hland j).1 hj
    apply h
    refine ⟨j 2, ?_⟩
    have hj' : (ix3 b s (j 2) : S2x2048x32.Idx) = j := by
      funext a
      match a with
      | ⟨0, _⟩ => exact (Fin.ext h0).symm
      | ⟨1, _⟩ => exact (Fin.ext h1).symm
      | ⟨2, _⟩ => rfl
    refine (congrArg (val_main_v130 (F := Ideal) ids) hj').trans ?_
    apply BitVec.eq_of_toInt_eq
    rw [h2, StableHlo.Predicate.toInt_ofNat_small _ (by omega)]

end Cert.ReferenceIdeal.Mask

end
-- ==== Proof.RefValue.lean ====
/-
  The reference's value, read at an element. The reference is `select(mask, x / 1.2f, x)`: where the
  mask word is 1 the logit is divided by the f32 constant nearest 1.2, elsewhere it is kept. The f32
  word 0x3F99999A denotes the dyadic 10066330 · 2⁻²³ = 5033165 / 4194304; division of an extended real
  by a nonzero real is the product with its reciprocal, here 4194304 / 5033165. The mask word at
  (b, s, v) is 1 exactly when some one of the 32 index words of row (b, s) is the word of v.
-/
import proofs.«400046_j37288906064558_2_alg».proof.Proof.RefRead
import proofs.«400046_j37288906064558_2_alg».proof.Proof.RefMask
import Idealize.ShloMosaic.PureOps.Ideal
import Idealize.ShloMosaic.Lib.ValueIdx

noncomputable section

namespace Cert.ReferenceIdeal.RefVal

open Cert.ReferenceIdeal Cert.ReferenceIdeal.ReadP Idealize.ShloMosaic Idealize.ShloMosaic.ValueIdx

/-- The f32 word 0x3F99999A (the float nearest 1.2) denotes the dyadic 5033165 / 4194304. -/
theorem ofBits_divisor : Ideal.ofBits .f32 0x3F99999A#32 = ((5033165 / 4194304 : ℝ) : EReal) := by
  simp [Ideal.ofBits, Ideal.ieee, -EReal.coe_mul]; norm_num

/-- Division by that constant is the product with its reciprocal 4194304 / 5033165, on every extended real. -/
theorem div_divisor (x : EReal) :
    Ideal.div x (Ideal.ofBits .f32 0x3F99999A#32) = x * ((4194304 / 5033165 : ℝ) : EReal) := by
  rw [ofBits_divisor, Ideal.div_coe (by norm_num)]
  congr 2
  norm_num

/-- The reference at (b, s, v): the logit times 4194304 / 5033165 where v is one of the row's index words, the logit elsewhere. -/
theorem ref_apply (x0 : FVec Ideal S2x2048x32000 .f32) (ids : IVec S2x2048 32) (hW : ∀ i : S2x2048x32.Idx, 0 ≤ (val_main_v130 (F := Ideal) ids i).toInt) (b : Fin 2) (s : Fin 2048) (v : Fin 32000) :
    val_main_v161 (F := Ideal) x0 ids (ix3 b s v) =
      if (∃ k : Fin 32, val_main_v130 (F := Ideal) ids (ix3 b s k) = BitVec.ofNat 32 v.val) then x0 (ix3 b s v) * ((4194304 / 5033165 : ℝ) : EReal) else x0 (ix3 b s v) := by
  rw [val_main_v161_apply, val_main_v160_apply, val_main_v159_apply, val_main_cst_apply,
    Ideal.hostDivf_def, Ideal.ofBits_def, div_divisor, Mask.mask_apply ids hW b s v]
  by_cases hE : ∃ k : Fin 32, val_main_v130 (F := Ideal) ids (ix3 b s k) = BitVec.ofNat 32 v.val
  · rw [if_pos hE, if_pos hE]
    rfl
  · rw [if_neg hE, if_neg hE]
    rfl

end Cert.ReferenceIdeal.RefVal

end
-- ==== Proof.Bridge.lean ====
/-
  The two programs compute one function. The kernel flattens batch and position to 4096 rows, dampens a logit at row n,
  column v exactly when one of the 32 shifted ids of row n equals v, and un-flattens; the reference builds the same
  condition as a scattered presence mask over [2, 2048, 32000] and selects between the logit divided by the penalty and
  the logit itself. Row n = 2048·b + s of a flattened array is entry (b, s) of the original, so the three reshapes are
  re-indexings, and index by index the two results are the same expression.
-/
import proofs.«400046_j37288906064558_2_alg».proof.Proof.KValue
import proofs.«400046_j37288906064558_2_alg».proof.Proof.RefValue
import Idealize.ShloMosaic.Lib.Pipeline.Value
import Idealize.ShloMosaic.Lib.ValueIdx

set_option maxRecDepth 16384

noncomputable section

namespace Cert.Proof.Bridge

open Idealize.ShloMosaic Idealize.ShloMosaic.ValueIdx

variable {α : Type}

/-- Flattening [2, 2048, K] to [4096, K]: row 2048·b + s is entry (b, s). -/
theorem flatten_apply {K : ℕ} (x : (⟨3, ![2, 2048, K]⟩ : Shape).Idx → α)
    (h : (⟨3, ![2, 2048, K]⟩ : Shape).ShapeCasts ⟨2, ![4096, K]⟩) (b : Fin 2) (s : Fin 2048) (k : Fin K) :
    shapeCast ⟨2, ![4096, K]⟩ x h (ix2 (⟨b.val * 2048 + s.val, by omega⟩ : Fin 4096) k) = x (ix3 b s k) :=
  shapeCast_apply x h _ _ (by
    rw [Shape.rowMajor_val_three, Shape.rowMajor_val_two]
    rfl)

/-- Un-flattening [4096, K] to [2, 2048, K]: entry (b, s) is row 2048·b + s. -/
theorem unflatten_apply {K : ℕ} (y : (⟨2, ![4096, K]⟩ : Shape).Idx → α)
    (h : (⟨2, ![4096, K]⟩ : Shape).ShapeCasts ⟨3, ![2, 2048, K]⟩) (b : Fin 2) (s : Fin 2048) (k : Fin K) :
    shapeCast ⟨3, ![2, 2048, K]⟩ y h (ix3 b s k) = y (ix2 (⟨b.val * 2048 + s.val, by omega⟩ : Fin 4096) k) :=
  shapeCast_apply y h _ _ (by
    rw [Shape.rowMajor_val_three, Shape.rowMajor_val_two]
    rfl)

open Cert.ReferenceIdeal.ReadP in
/-- The kernel's result — flatten, dampen row by row, un-flatten — is the reference's, when no shifted id is negative. -/
theorem kernel_eq_ref (x0 : FVec Ideal Cert.ReferenceIdeal.S2x2048x32000 .f32) (ids : IVec Cert.ReferenceIdeal.S2x2048 32)
    (hW : ∀ i : Cert.ReferenceIdeal.S2x2048x32.Idx, 0 ≤ (val_main_v130 (F := Ideal) ids i).toInt)
    (h1 : Cert.ReferenceIdeal.S2x2048x32.ShapeCasts Cert.KernelIdeal.S4096x32)
    (h2 : Cert.ReferenceIdeal.S2x2048x32000.ShapeCasts Cert.KernelIdeal.S4096x32000)
    (h3 : Cert.KernelIdeal.S4096x32000.ShapeCasts Cert.ReferenceIdeal.S2x2048x32000) :
    shapeCast Cert.ReferenceIdeal.S2x2048x32000
        (Cert.KernelIdeal.KVal.G (shapeCast Cert.KernelIdeal.S4096x32 (val_main_v130 (F := Ideal) ids) h1)
          (shapeCast Cert.KernelIdeal.S4096x32000 x0 h2)) h3
      = val_main_v161 (F := Ideal) x0 ids := by
  funext i
  obtain ⟨b, s, v, rfl⟩ : ∃ (b : Fin 2) (s : Fin 2048) (v : Fin 32000), i = ix3 b s v := ⟨i 0, i 1, i 2, eq_ix3 i⟩
  rw [Cert.ReferenceIdeal.RefVal.ref_apply x0 ids hW b s v]
  refine (unflatten_apply _ h3 b s v).trans ?_
  show Cert.KernelIdeal.KVal.Gat _ _ (⟨b.val * 2048 + s.val, by omega⟩ : Fin 4096) v = _
  unfold Cert.KernelIdeal.KVal.Gat
  simp only [flatten_apply]

end Cert.Proof.Bridge

end
-- ==== Proof.lean ====
/-
  The certificate of the repetition-penalty kernel against its reference.

  Both programs take logits [2, 2048, 32000] and token ids [2, 2048]. For each position (b, s) they collect the ids of
  the 32 preceding positions (a shifted copy of the ids per offset, padded in front with the out-of-vocabulary value
  32000) and dampen the logit of every vocabulary entry that occurs among them: the reference divides it by the penalty
  1.2 (as an f32: 5033165/4194304), the kernel multiplies it by the reciprocal folded at trace time, named here as the
  exact rational 4194304/5033165. The kernel tests occurrence by 32 comparisons of a column-index vector against
  the ids; the reference scatters `true` into a presence mask at (b, s, id), an index of 32000 or more being dropped
  and a negative one wrapped around — which is why the ids are required non-negative: a negative id is no token, and
  only there do the two programs part.

  Frames: the two kernel programs by the launch theorem over exact proof data (the body stores one pure function of its
  two input blocks); the reference by its run. Values: the kernel's output array block by block, then as one array;
  the reference's select read at an index; the two joined index by index.
-/
import proofs.«400046_j37288906064558_2_alg».proof.Defs
import proofs.«400046_j37288906064558_2_alg».proof.Proof.Gen.Kernel
import proofs.«400046_j37288906064558_2_alg».proof.Proof.Gen.KernelIdeal
import proofs.«400046_j37288906064558_2_alg».proof.Proof.Gen.ReferenceIdeal
import proofs.«400046_j37288906064558_2_alg».proof.Proof.Gen.Pre_finite_inputs
import proofs.«400046_j37288906064558_2_alg».proof.Proof.RefRead
import proofs.«400046_j37288906064558_2_alg».proof.Proof.RefRunB
import proofs.«400046_j37288906064558_2_alg».proof.Proof.FrameK
import proofs.«400046_j37288906064558_2_alg».proof.Proof.FrameKI
import proofs.«400046_j37288906064558_2_alg».proof.Proof.KHost
import proofs.«400046_j37288906064558_2_alg».proof.Proof.KValue
import proofs.«400046_j37288906064558_2_alg».proof.Proof.PreDecode
import proofs.«400046_j37288906064558_2_alg».proof.Proof.ShiftedNonneg
import proofs.«400046_j37288906064558_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunH.run (F := Ideal) m ρ)

/-- The one rewrite of the idealization: the folded reciprocal of the penalty, 0.8333333134651184 as an f32, is read as
    the exact reciprocal 4194304/5033165 of the reference's f32 penalty. -/
theorem preserves : Cert.preserves_Kernel_KernelIdeal :=
  IdealRules.named_const.statement Cert.KernelIdeal.κ "inv_penalty" .f32 0x3F555555#32 ((4194304 / 5033165 : ℝ) : EReal) rfl

open Cert.KernelIdeal Cert.KernelIdeal.Gen in
/-- The idealized kernel's run, with its result named: the reference's function of the two arguments. -/
theorem kernel_run (m : (ℓ : Loc Cert.KernelIdeal.nD Cert.KernelIdeal.τ Cert.KernelIdeal.sig) → Buf (Elt Ideal) ℓ)
    (ρ : Dev Cert.KernelIdeal.nD → PrngReg)
    (hids : ∀ (c : Dev Cert.KernelIdeal.nD) (j : Cert.KernelIdeal.S2x2048.Idx), 0 ≤ (m ((c.tc : Thread nD τ).loc main_arg1) j).toInt) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v134)
          = Cert.ReferenceIdeal.ReadP.val_main_v161 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run Cert.KernelIdeal.defs _ _).mono (fun r h c => ⟨?_, ?_, ?_⟩) (Cert.KernelIdeal.Frm.run_main (F := Ideal) m ρ)
  · refine ((h c).2 main_v134 (Pipeline.mem_restRefs_of main_v134 (by decide) (by decide))).trans ?_
    rw [Cert.KernelIdeal.KHost.tail_result, Cert.KernelIdeal.KVal.final2, Cert.KernelIdeal.KHost.V_ids, Cert.KernelIdeal.KHost.V_logits]
    exact Cert.Proof.Bridge.kernel_eq_ref _ _
      (Cert.ReferenceIdeal.Shifted.shifted_nonneg _ (hids c)) _ _ _
  · exact ((h c).2 main_arg0 (Pipeline.mem_restRefs_of main_arg0 (by decide) (by decide))).trans
      (Cert.KernelIdeal.Frm.W_main_arg0 m (Cert.KernelIdeal.Frm.dats m) c)
  · exact ((h c).2 main_arg1 (Pipeline.mem_restRefs_of main_arg1 (by decide) (by decide))).trans
      (Cert.KernelIdeal.Frm.W_main_arg1 m (Cert.KernelIdeal.Frm.dats m) c)

/-- From memories that agree on the arguments both programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hids : ∀ (c : Dev Cert.KernelIdeal.nD) (j : Cert.KernelIdeal.S2x2048.Idx),
      0 ≤ (m ((c.tc : Thread Cert.KernelIdeal.nD Cert.KernelIdeal.τ).loc Cert.KernelIdeal.main_arg1) j).toInt :=
    fun c => Cert.Pre_finite_inputs.Decode.ids_nonneg (F := Ideal) _ _ (hpre c)
  refine ⟨fun c => Cert.ReferenceIdeal.ReadP.val_main_v161 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_run m ρ hids, ?_⟩
  refine (θ_run Cert.ReferenceIdeal.defs _ _).mono (fun _ h c => ⟨?_, (h c).2⟩)
    (Cert.ReferenceIdeal.RunH.run (F := Ideal) m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
